-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8192x512 .f32) (main_arg1 : FVec F S8192x512 .f32) (main_arg2 : FVec F S512x512 .f32) (main_arg3 : FVec F S512 .f32) (main_arg4 : FVec F S512x512 .f32) (main_arg5 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1024x1 : Shape := ⟨2, ![1024, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S1x512, .f32⟩
  | .hbm, ⟨8, _⟩ => ⟨S8192x512, .f32⟩
  | .hbm, ⟨9, _⟩ => ⟨S8192x512, .bf16⟩
  | .hbm, ⟨10, _⟩ => ⟨S512x512, .f32⟩
  | .hbm, ⟨11, _⟩ => ⟨S1x512, .f32⟩
  | .hbm, ⟨12, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x1, .f32⟩
  | .local _ .vmem, ⟨20, _⟩ => ⟨S1024x1, .f32⟩
  | .local _ .vmem, ⟨21, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_25 : BitVec 32 := 0#32
  let v53 : BitVec 1 := Scalar.cmpi .ne v52 c0_i32_25
  v53

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S512x512_S512x512_1_0 : S512x512.Transposes [1, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x512_S1024 : S1024x512.Reduces [1] S1024
  shapeCasts_S1024_S1024x1 : S1024.ShapeCasts S1024x1
  broadcasts_S1024x1_S1024x512 : S1024x1.Broadcasts S1024x512
  dot_S1024x512_S512x512_S1024x512_1_0_0_1_n_n_wf : DotDims.WF S1024x512 S512x512 S1024x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .f32 = 32 ∨ (Rect.block (s := S8192x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .bf16 = 32 ∨ (Rect.block (s := S8192x512) S512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x512.size a
  hwx1_5 : ∀ i : grid1.Coords, EltTy.bits .f32 = 32 ∨ (Rect.block (s := S8192x512) S1024x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S512x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S512x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x512 : S_.BroadcastsInDim S8192x512 (![] : Fin 0 → Fin S8192x512.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.R0.lean ====
/-
  Region 0, the key projection: at each of its 8 grid points the body reads a block of 1024 memory rows, the
  transposed key weights and the bias row, and stores the block's projected rows (rows times weights plus bias)
  into the first output and the block's rows, narrowed, into the second. Stated at the contents `V` the region is
  entered from, at any float instance: the windows' blocks, what the two stores leave, the region's proof data,
  and that the body meets its obligation at every point.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_a : Rect S1024x512 := Rect.unit (s := S1024x512) ![0, 0] S1024x512.size inb_S1024x512_S1024x512_0_0
abbrev r0_b : Rect S512x512 := Rect.unit (s := S512x512) ![0, 0] S512x512.size inb_S512x512_S512x512_0_0
abbrev r0_c : Rect S1x512 := Rect.unit (s := S1x512) ![0, 0] S1x512.size inb_S1x512_S1x512_0_0

/-- What the body leaves in the first output's buffer: the projected rows. -/
def out0_3 (x0 : Vec F S1024x512 .f32) (x1 : Vec F S512x512 .f32) (x2 : Vec F S1x512 .f32) : Vec F S1024x512 .f32 :=
  View.canon [⟨r0_a, k0_pay1 (View.ld x0 r0_a) (View.ld x1 r0_b) (View.ld x2 r0_c)⟩]

/-- What the body leaves in the second output's buffer: the rows, narrowed. -/
def out0_4 (x0 : Vec F S1024x512 .f32) : Vec F S1024x512 .bf16 :=
  View.canon [⟨r0_a, k0_pay2 (View.ld x0 r0_a)⟩]

/-- The region's proof data on core `c`: the arrays as found; after the body each input's buffer at its block, each
    output's at what the stores leave; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

/-! ## The inputs' buffers hold their blocks

An input window is never written by the body, so its buffer keeps the block last brought in. Where the window was
not brought in again at a point, its block index did not move since the previous point, and the block kept is this
point's block. Hence at every point the buffer the body reads holds the window's block there. -/

/-- The rows' buffer holds the block of rows of its point. -/
theorem held0_0 (c : Dev nD) (t : Fin cfg0.N) (d) : (dat0 V c).before 0 t d = iblk0 V c 0 t := by
  have kept : ∀ u, (cfg0.win 0).cut (cfg0.grid.coords u) ((dat0 V c).after 0 u) = (dat0 V c).blockOf 0 u := by
    intro u
    rw [after0_0]
    unfold Dat.blockOf iblk0
    rw [A_eq0]
    try rfl
  rw [(dat0 V c).before_in_eq_fetched 0 rfl (fun _ => rfl) (fun _ _ _ => rfl) kept t d]
  unfold Dat.fetched Dat.blockOf iblk0
  rw [A_eq0]
  try rfl

/-- The weights' buffer holds the (one) block of weights at every point. -/
theorem held0_1 (c : Dev nD) (t : Fin cfg0.N) (d) : (dat0 V c).before 1 t d = iblk0 V c 1 t := by
  have kept : ∀ u, (cfg0.win 1).cut (cfg0.grid.coords u) ((dat0 V c).after 1 u) = (dat0 V c).blockOf 1 u := by
    intro u
    rw [after0_1]
    unfold Dat.blockOf iblk0
    rw [A_eq0]
    try rfl
  rw [(dat0 V c).before_in_eq_fetched 1 rfl (fun _ => rfl) (fun _ _ _ => rfl) kept t d]
  unfold Dat.fetched Dat.blockOf iblk0
  rw [A_eq0]
  try rfl

/-- The bias row's buffer holds the (one) bias row at every point. -/
theorem held0_2 (c : Dev nD) (t : Fin cfg0.N) (d) : (dat0 V c).before 2 t d = iblk0 V c 2 t := by
  have kept : ∀ u, (cfg0.win 2).cut (cfg0.grid.coords u) ((dat0 V c).after 2 u) = (dat0 V c).blockOf 2 u := by
    intro u
    rw [after0_2]
    unfold Dat.blockOf iblk0
    rw [A_eq0]
    try rfl
  rw [(dat0 V c).before_in_eq_fetched 2 rfl (fun _ => rfl) (fun _ _ _ => rfl) kept t d]
  unfold Dat.fetched Dat.blockOf iblk0
  rw [A_eq0]
  try rfl

/-! ## Each output is one store of its whole block -/

/-- The one store into the first output covers every index of its buffer, whatever is stored. -/
theorem whole0_3 (p : Vec F S1024x512 .f32) (y : S1024x512.Idx) :
    ∃ pc ∈ ([⟨r0_a, p⟩] : List (View.Piece (Elt F) S1024x512 .f32)), y ∈ pc.1.set :=
  View.cover_of_tiled [⟨r0_a, p⟩] S1024x512.size (by rfl) y

/-- The one store into the second output covers every index of its buffer, whatever is stored. -/
theorem whole0_4 (p : Vec F S1024x512 .bf16) (y : S1024x512.Idx) :
    ∃ pc ∈ ([⟨r0_a, p⟩] : List (View.Piece (Elt F) S1024x512 .bf16)), y ∈ pc.1.set :=
  View.cover_of_tiled [⟨r0_a, p⟩] S1024x512.size (by rfl) y

/-! ## The body on whole buffers -/

set_option maxHeartbeats 1000000 in
/-- Run on five whole buffers, the three inputs reading `x0`, `x1`, `x2` and the two outputs holding anything, the body
    ends with the inputs as they were, the first output reading the projected rows and the second the narrowed rows. -/
theorem body_runs0 (c : Dev nD) (E : Set ℕ) (i : grid0.Coords)
    (a0 : Memref sig .tc .vmem S1024x512 .f32) (h0 : a0.IsWhole)
    (a1 : Memref sig .tc .vmem S512x512 .f32) (h1 : a1.IsWhole)
    (a2 : Memref sig .tc .vmem S1x512 .f32) (h2 : a2.IsWhole)
    (a3 : Memref sig .tc .vmem S1024x512 .f32) (h3 : a3.IsWhole)
    (a4 : Memref sig .tc .vmem S1024x512 .bf16) (h4 : a4.IsWhole)
    (x0 : Vec F S1024x512 .f32) (x1 : Vec F S512x512 .f32) (x2 : Vec F S1x512 .f32) (K : PUnit → sProp 𝕄) :
    iprop(owns (c : Thread nD τ) a0 fullShare x0 ∗ owns (c : Thread nD τ) a1 fullShare x1
        ∗ owns (c : Thread nD τ) a2 fullShare x2
        ∗ (∃ d, owns (c : Thread nD τ) a3 fullShare d) ∗ (∃ d, owns (c : Thread nD τ) a4 fullShare d)
        ∗ (iprop(owns (c : Thread nD τ) a0 fullShare x0 ∗ owns (c : Thread nD τ) a1 fullShare x1
            ∗ owns (c : Thread nD τ) a2 fullShare x2
            ∗ owns (c : Thread nD τ) a3 fullShare (out0_3 x0 x1 x2)
            ∗ owns (c : Thread nD τ) a4 fullShare (out0_4 x0)) -∗ K ⟨⟩))
      ⊢ wp frame (wpE (defs₀ (F := F)) Variants.none c none) E (cc0__kv_prep_kernel i a0 h0 a1 h1 a2 h2 a3 h3 a4 h4) K := by
  simp only [cc0__kv_prep_kernel_eq_skeleton]; unfold cc0__kv_prep_kernel_skel
  unfold owns
  iintro ⟨⟨%f0, %e0, H0⟩, ⟨%f1, %e1, H1⟩, ⟨%f2, %e2, H2⟩, ⟨%d3, %f3, -, H3⟩, ⟨%d4, %f4, -, H4⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole0_3 _)
  iexists _; isplitr
  swap; · iexact H4
  ipureintro
  exact View.read_writes_eq_canon _ _ _ (whole0_4 _)

/-! ## The body at a point of the grid -/

/-- What the body is handed at point `t`: the class invariant, what is owed, and each window's current buffer. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debts, each buffer at what the proof data says the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the inputs' buffers hold their blocks, so the body runs as on whole buffers; the invariant and the
    debts are not touched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_runs0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets the pipeline's obligation at every point. -/
theorem body_obligation0 (c : Dev nD) : BodyObligation (dat0 (F := F) V c) (defs₀ (F := F)) Variants.none () Set.univ := fun t => by
  rw [bigSep_W0, bigSep_W0]
  exact body_at0 V c t

end Cert.Kernel.Att

end
-- ==== Proof.K.R1Def.lean ====
/-
  Region 1, the attention proper, as data. Its grid is 8 query tiles by 16 key tiles, walked key tile fastest. Four
  scratch buffers carry a state from point to point: the tile's projected queries, and per query row the running
  maximum of the scores, the running denominator and the running numerator of the softmax-weighted average. At the
  first key tile of a query tile the state is reset from the query block (`scReset`); every point then folds its
  key and value blocks into the state (`scStep`); at the last key tile the output block is the half-and-half blend
  of the query block with numerator over denominator (`outLast`). `scAt` is the state after each point, `PhiS1` the
  region's invariant holding the four scratch buffers at it, `dat1` the region's proof data.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state: projected queries, running maximum, running denominator, running numerator. -/
abbrev Sc (F : FTy → Type) [FloatOps F] : Type :=
  Vec F S1024x512 .f32 × Vec F S1024x1 .f32 × Vec F S1024x1 .f32 × Vec F S1024x512 .f32

/-- The state a query tile starts from: the query block projected, maximum at minus infinity, sums at zero. -/
def scReset (x0 : Vec F S1024x512 .f32) (x1 : Vec F S512x512 .f32) (x2 : Vec F S1x512 .f32) : Sc F :=
  (k1_pay5 x0 x1 x2, k1_pay6, k1_pay7, k1_pay8)

/-- One key tile folded into the state: `x3` the key block, `x4` the value block. -/
def scStep (s : Sc F) (x3 : Vec F S512x512 .f32) (x4 : Vec F S512x512 .bf16) : Sc F :=
  (s.1,
   k1_pay3 (k1_pay11 s.1 x3 s.2.1),
   k1_pay1 (k1_pay14 s.1 x3 s.2.1 s.2.1 s.2.2.1),
   k1_pay2 (k1_pay9 x4) (k1_pay12 s.1 x3 s.2.1 s.2.1) (k1_pay13 s.1 x3 s.2.1) s.2.2.2)

/-- The output block at a last key tile: the blend of the query block `x0` with numerator over denominator. -/
def outLast (s : Sc F) (x0 : Vec F S1024x512 .f32) : Vec F S1024x512 .f32 :=
  k1_pay4 s.2.2.2 s.2.2.1 x0

/-- The state after the point at position `n`: at a first key tile (`n` a multiple of 16) reset from the point's
    query block, otherwise what the point before left; then the point's key and value blocks folded in. -/
def scAt (c : Dev nD) : (n : ℕ) → n < cfg1.N → Sc F
  | 0, hn => scStep (scReset (iblk1 V c 0 ⟨0, hn⟩) (iblk1 V c 1 ⟨0, hn⟩) (iblk1 V c 2 ⟨0, hn⟩)) (iblk1 V c 3 ⟨0, hn⟩) (iblk1 V c 4 ⟨0, hn⟩)
  | n + 1, hn =>
    scStep (if (n + 1) % 16 = 0 then scReset (iblk1 V c 0 ⟨n + 1, hn⟩) (iblk1 V c 1 ⟨n + 1, hn⟩) (iblk1 V c 2 ⟨n + 1, hn⟩)
            else scAt c n (Nat.lt_of_succ_lt hn))
      (iblk1 V c 3 ⟨n + 1, hn⟩) (iblk1 V c 4 ⟨n + 1, hn⟩)

theorem scAt_first (c : Dev nD) (t : Fin cfg1.N) (h : t.val % 16 = 0) :
    scAt V c t.val t.isLt = scStep (scReset (iblk1 V c 0 t) (iblk1 V c 1 t) (iblk1 V c 2 t)) (iblk1 V c 3 t) (iblk1 V c 4 t) := by
  obtain ⟨n, hn⟩ := t
  cases n with
  | zero => rfl
  | succ n => exact congrArg (fun s => scStep s _ _) (if_pos h)

theorem scAt_next (c : Dev nD) (t : Fin cfg1.N) (h : ¬ t.val % 16 = 0) :
    scAt V c t.val t.isLt = scStep (scAt V c (t.val - 1) (Nat.lt_of_le_of_lt (Nat.sub_le _ _) t.isLt)) (iblk1 V c 3 t) (iblk1 V c 4 t) := by
  obtain ⟨n, hn⟩ := t
  cases n with
  | zero => exact absurd (Nat.zero_mod _) h
  | succ n => exact congrArg (fun s => scStep s _ _) (if_neg h)

/-- The four scratch buffers, whole. -/
abbrev scM1_0 : Memref sig .tc .vmem S1024x512 .f32 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x512 .f32 := Memref.whole cc1_scratch3
abbrev scList : List (Ref sig .tc) := [cc1_scratch0, cc1_scratch1, cc1_scratch2, cc1_scratch3]

/-- The scoped buffers of the core that are neither this region's staging buffers nor its scratch, at anything. -/
abbrev restBut (c : Dev nD) : sProp 𝕄 :=
  Pipeline.scopedRestBut (Ix := Unit) (Name := ℕ) (U := UR sig nD τ) (Lvl := ℕ) (Val := Elt F) spec1 c scList

/-- The region's invariant before position `n`: before the first point every scratch buffer at anything (the class
    invariant); afterwards the four scratch buffers at the state the point before left, the other scoped buffers at
    anything, the generator register at some state. -/
def PhiS1 (c : Dev nD) : (n : ℕ) → n ≤ cfg1.N → sProp 𝕄
  | 0, _ => Pipeline.ΦA spec1 c
  | n + 1, hn => iprop(owns (c : Thread nD τ) scM1_0 fullShare (scAt V c n hn).1
      ∗ owns (c : Thread nD τ) scM1_1 fullShare (scAt V c n hn).2.1
      ∗ owns (c : Thread nD τ) scM1_2 fullShare (scAt V c n hn).2.2.1
      ∗ owns (c : Thread nD τ) scM1_3 fullShare (scAt V c n hn).2.2.2
      ∗ restBut (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (scAt V c n hn).1
      ∗ owns (c : Thread nD τ) scM1_1 fullShare (scAt V c n hn).2.1
      ∗ owns (c : Thread nD τ) scM1_2 fullShare (scAt V c n hn).2.2.1
      ∗ owns (c : Thread nD τ) scM1_3 fullShare (scAt V c n hn).2.2.2
      ∗ restBut (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (scAt V c (n - 1) (by omega)).1
      ∗ owns (c : Thread nD τ) scM1_1 fullShare (scAt V c (n - 1) (by omega)).2.1
      ∗ owns (c : Thread nD τ) scM1_2 fullShare (scAt V c (n - 1) (by omega)).2.2.1
      ∗ owns (c : Thread nD τ) scM1_3 fullShare (scAt V c (n - 1) (by omega)).2.2.2
      ∗ restBut (F := F) c ∗ (∃ r, prngReg c r)) := by
  cases n with
  | zero => exact absurd rfl hz
  | succ n => rfl

/-- The region's proof data on core `c`: the arrays as found; after the body each input's buffer at its block and
    the output's at the blend of the state after the point (consulted only at last key tiles, where the block is
    stored and written back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outLast (scAt V c t.val t.isLt) (iblk1 V c 0 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = outLast (scAt V c t.val t.isLt) (iblk1 V c 0 t) := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) : (dat1 V c).Φ t.succ = PhiS1 V c (t.val + 1) t.isLt := rfl

end Cert.Kernel.Att

end
-- ==== Proof.K.R1Conds.lean ====
/-
  Region 1's two branch conditions as functions of the grid coordinates, decided over the grid: the first holds
  exactly at the first key tile of a query tile, the second exactly at the last.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import proofs.«424890_j49589692400271_3_alg».proof.Proof.K.R1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition, from the grid coordinates: the key-tile coordinate is 0. -/
abbrev cond1_0 (i : grid1.Coords) : Prop :=
  (Scalar.cmpi .ne (Scalar.extui (Scalar.cmpi .eq (BitVec.ofNat 32 (i 1).val) 0#32)) 0#32) = 1#1
/-- It holds exactly at the first key tile of each query tile. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch's condition: the key-tile coordinate is 15. -/
abbrev cond1_1 (i : grid1.Coords) : Prop := k1_cond2 i = 1#1
/-- It holds exactly at the last key tile of each query tile. -/
theorem hcond1_1 : ∀ t : Fin cfg1.N, cond1_1 (grid1.coords t) ↔ t.val % 16 = 15 :=
  (by decide +kernel : ∀ t : Fin grid1.N, cond1_1 (grid1.coords t) ↔ t.val % 16 = 15)

end Cert.Kernel.Att

end
-- ==== Proof.K.R1RunA.lean ====
/-
  Region 1's body at a FIRST key tile, on any whole staging and scratch buffers: it runs to the end with the input
  buffers as they were and the four scratch buffers at the carried state one step on.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import proofs.«424890_j49589692400271_3_alg».proof.Proof.K.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets `![0, 0]` are the zero offsets. -/
private theorem off0 : (![0, 0] : Fin 2 → ℕ) = fun _ => 0 := by decide

set_option maxHeartbeats 1000000 in
/-- FIRST key tile: the scratch buffers at anything; they end at one step from the reset state. -/
theorem run1_A (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole)
    (hc0 : cond1_0 i) (hc1 : ¬cond1_1 i) (x0 : Vec F S1024x512 .f32) (x1 : Vec F S512x512 .f32) (x2 : Vec F S1x512 .f32) (x3 : Vec F S512x512 .f32) (x4 : Vec F S512x512 .bf16) (xi5 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (scStep (scReset x0 x1 x2) x3 x4).1 ∗ owns (c : Thread nD τ) arg9 fullShare (scStep (scReset x0 x1 x2) x3 x4).2.1 ∗ owns (c : Thread nD τ) arg10 fullShare (scStep (scReset x0 x1 x2) x3 x4).2.2.1 ∗ owns (c : Thread nD τ) arg11 fullShare (scStep (scReset x0 x1 x2) x3 x4).2.2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  -- the body runs: the first branch taken (the reset), the second not (no output store)
  sl_exec (disch := first | exact hc0 | exact hc1)
  sl_step
  iapply Hk
  -- the five inputs and the output block were only read, or not touched at all: they read as before
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap
    · iexact H8
    ipureintro
    sl_unfold_words
    dsimp only [scStep, scReset]
    -- the projected queries: one store through the whole block, so the block reads its payload, the projection of the query block
    refine (View.read_writes_eq_canon _ _ _ (fun y => ?_)).trans ?_
    · exact ⟨_, List.Mem.head _, View.mem_set_unit_zero off0 inb_S1024x512_S1024x512_0_0 y⟩
    rw [View.canon_unit_zero (S := S1024x512) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]
  isplitl [H9]
  · iexists _; isplitr; swap
    · iexact H9
    ipureintro
    sl_unfold_words
    dsimp only [scStep, scReset]
    -- the running maximum: reset, then stored again through the whole block; the later store's payload is what is left, and its loads read what the reset stored
    refine (View.read_writes_eq_canon _ _ _ (fun y => ?_)).trans ?_
    · exact ⟨_, List.Mem.head _, View.mem_set_unit_zero off0 inb_S1024x1_S1024x1_0_0 y⟩
    rw [View.canon_cons_unit_zero (S := S1024x1) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]
  isplitl [H10]
  · iexists _; isplitr; swap
    · iexact H10
    ipureintro
    sl_unfold_words
    dsimp only [scStep, scReset]
    -- the running denominator: the same, the later of two whole-block stores
    refine (View.read_writes_eq_canon _ _ _ (fun y => ?_)).trans ?_
    · exact ⟨_, List.Mem.head _, View.mem_set_unit_zero off0 inb_S1024x1_S1024x1_0_0 y⟩
    rw [View.canon_cons_unit_zero (S := S1024x1) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]
  · iexists _; isplitr; swap
    · iexact H11
    ipureintro
    sl_unfold_words
    dsimp only [scStep, scReset]
    -- the running numerator: the same, the later of two whole-block stores
    refine (View.read_writes_eq_canon _ _ _ (fun y => ?_)).trans ?_
    · exact ⟨_, List.Mem.head _, View.mem_set_unit_zero off0 inb_S1024x512_S1024x512_0_0 y⟩
    rw [View.canon_cons_unit_zero (S := S1024x512) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]

end Cert.Kernel.Att

end
-- ==== Proof.K.R1RunB.lean ====
/-
  Region 1's body at a MIDDLE key tile, on any whole staging and scratch buffers: it runs to the end with the input
  buffers as they were and the four scratch buffers at the carried state one step on.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import proofs.«424890_j49589692400271_3_alg».proof.Proof.K.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle, however spelt, are the constant zero. -/
private theorem off00 : (![0, 0] : Fin 2 → Nat) = fun _ => 0 := funext fun a => by fin_cases a <;> rfl

/-- A buffer whose only store went through the whole-shape rectangle at zero offsets reads as that store's payload,
    whatever it held before: the one piece covers every index, and its canon is the payload. -/
private theorem read_one_whole_store {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  have cover : ∀ y : S.Idx, ∃ p ∈ [(⟨Rect.unit off S.size inb, w⟩ : View.Piece (Elt F) S e)], y ∈ p.1.set :=
    fun y => ⟨_, List.mem_singleton_self _, View.mem_set_unit_zero hz inb y⟩
  rw [View.read_writes_eq_canon _ _ _ cover, View.canon_unit_zero hz inb]

set_option maxHeartbeats 1000000 in
/-- MIDDLE key tile: the scratch buffers at a state `s`; they end one step on. -/
theorem run1_B (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole)
    (hc0 : ¬cond1_0 i) (hc1 : ¬cond1_1 i) (x0 : Vec F S1024x512 .f32) (x1 : Vec F S512x512 .f32) (x2 : Vec F S1x512 .f32) (x3 : Vec F S512x512 .f32) (x4 : Vec F S512x512 .bf16) (xi5 : Vec F S1024x512 .f32) (s : Sc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (scStep s x3 x4).1 ∗ owns (c : Thread nD τ) arg9 fullShare (scStep s x3 x4).2.1 ∗ owns (c : Thread nD τ) arg10 fullShare (scStep s x3 x4).2.2.1 ∗ owns (c : Thread nD τ) arg11 fullShare (scStep s x3 x4).2.2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  -- the body as its memory operations over the payloads, the first sixty statements' part opened in place
  simp only [cc1__attn_kernel_eq_skeleton]; unfold cc1__attn_kernel_skel
  simp only [k1_part1_eq_skeleton]; unfold k1_part1_skel
  -- every buffer's contents named through its whole view
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  -- both branches are skipped at a middle key tile; the loads and the three stores run in order
  sl_exec (disch := first | exact hc0 | exact hc1)
  sl_step
  iapply Hk
  -- the five inputs, the idle output and the projected queries were only read: each is handed back as it was
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the running maximum: one store through the whole buffer, of the new maximum
  isplitl [H9]
  · iexists _; isplitr; swap
    · iexact H9
    ipureintro
    sl_unfold_words
    refine (read_one_whole_store _ _ off00 _ _).trans ?_
    dsimp only [scStep]
    simp only [View.readAt_eq_ld, Memref.IsWhole.read_unread, View.ld_unit_zero (S := S1024x512) off00,
      View.ld_unit_zero (S := S512x512) off00, View.ld_unit_zero (S := S1024x1) off00]
  -- the running denominator: one store through the whole buffer, of the rescaled sum
  isplitl [H10]
  · iexists _; isplitr; swap
    · iexact H10
    ipureintro
    sl_unfold_words
    refine (read_one_whole_store _ _ off00 _ _).trans ?_
    dsimp only [scStep]
    simp only [View.readAt_eq_ld, Memref.IsWhole.read_unread, View.ld_unit_zero (S := S1024x512) off00,
      View.ld_unit_zero (S := S512x512) off00, View.ld_unit_zero (S := S1024x1) off00]
  -- the running numerator: loaded, then one store through the whole buffer of the rescaled numerator plus this tile's share
  iexists _; isplitr; swap
  · iexact H11
  ipureintro
  sl_unfold_words
  refine (read_one_whole_store _ _ off00 _ _).trans ?_
  dsimp only [scStep]
  simp only [View.readAt_eq_ld, Memref.IsWhole.read_unread, View.ld_unit_zero (S := S1024x512) off00,
    View.ld_unit_zero (S := S512x512) off00, View.ld_unit_zero (S := S1024x1) off00]

end Cert.Kernel.Att

end
-- ==== Proof.K.R1RunC.lean ====
/-
  Region 1's body at a LAST key tile, on any whole staging and scratch buffers: it runs to the end with the input
  buffers as they were and the four scratch buffers at the carried state one step on.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import proofs.«424890_j49589692400271_3_alg».proof.Proof.K.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle, however they are spelt. -/
private theorem hzC : (![0, 0] : Fin 2 → Nat) = fun _ => 0 := funext fun a => by fin_cases a <;> rfl

/-- A store through the whole-shape rectangle at zero offsets, made last, leaves its payload in the buffer: that one
    piece covers every index, so the earlier stores and the prior contents are not read. -/
private theorem read_writes_wholeC {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- LAST key tile: the scratch buffers at a state `s`, the output buffer at anything; the scratch ends one step on
    and the output buffer at the blend of that state with the query block. -/
theorem run1_C (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole)
    (hc0 : ¬cond1_0 i) (hc1 : cond1_1 i) (x0 : Vec F S1024x512 .f32) (x1 : Vec F S512x512 .f32) (x2 : Vec F S1x512 .f32) (x3 : Vec F S512x512 .f32) (x4 : Vec F S512x512 .bf16) (s : Sc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outLast (scStep s x3 x4) x0)
            ∗ owns (c : Thread nD τ) arg8 fullShare (scStep s x3 x4).1 ∗ owns (c : Thread nD τ) arg9 fullShare (scStep s x3 x4).2.1 ∗ owns (c : Thread nD τ) arg10 fullShare (scStep s x3 x4).2.2.1 ∗ owns (c : Thread nD τ) arg11 fullShare (scStep s x3 x4).2.2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  -- the body and its first part as their sequences of loads, stores and branches over the payloads
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  -- a whole buffer's raw contents are determined by what it reads: each input and scratch buffer at the contents
  -- reading its block or its component of the state; the output buffer's contents stay arbitrary
  obtain rfl := harg2.eq_unread hf2; obtain rfl := harg3.eq_unread hf3; obtain rfl := harg4.eq_unread hf4
  obtain rfl := harg5.eq_unread hf5; obtain rfl := harg6.eq_unread hf6
  obtain rfl := harg8.eq_unread hf8; obtain rfl := harg9.eq_unread hf9; obtain rfl := harg10.eq_unread hf10; obtain rfl := harg11.eq_unread hf11
  -- the run: the reset branch is skipped (not a first key tile), the output branch is taken (a last key tile)
  sl_exec (disch := first | exact hc0 | exact hc1)
  sl_step
  iapply Hk
  -- the query block, the projection weights and bias, the key and value blocks: loaded only
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the output block: one whole-block store of the blend of the query block with the numerator over the denominator,
  -- both read back AFTER this point's stores into them, so they are the stepped state's
  isplitl [H7]
  · iexists _; isplitr; swap; · iexact H7
    ipureintro
    -- the store covers the block; every load through the whole block reads the contents, a load after the one store its payload
    sl_unfold_words
    refine (read_writes_wholeC _ _ hzC _ _ _).trans ?_
    dsimp only [scStep, outLast]
    simp only [View.readAt_eq_ld, Memref.IsWhole.read_unread, View.readCov_unit_zero (S := S1024x512) _ hzC,
      View.readCov_unit_zero (S := S1024x1) _ hzC, View.ld_unit_zero (S := S1024x512) hzC,
      View.ld_unit_zero (S := S512x512) hzC, View.ld_unit_zero (S := S1024x1) hzC]
  -- the projected queries: loaded only, and the step leaves them as they are
  isplitl [H8]
  · iexists _; isplitr; · ipureintro; exact harg8.read_unread _
    iexact H8
  -- the running maximum: one whole-block store of the maximum of the old one with the scores' row maxima
  isplitl [H9]
  · iexists _; isplitr; swap; · iexact H9
    ipureintro
    -- as for the output block
    sl_unfold_words
    refine (read_writes_wholeC _ _ hzC _ _ _).trans ?_
    dsimp only [scStep, outLast]
    simp only [View.readAt_eq_ld, Memref.IsWhole.read_unread, View.readCov_unit_zero (S := S1024x512) _ hzC,
      View.readCov_unit_zero (S := S1024x1) _ hzC, View.ld_unit_zero (S := S1024x512) hzC,
      View.ld_unit_zero (S := S512x512) hzC, View.ld_unit_zero (S := S1024x1) hzC]
  -- the running denominator: one whole-block store of the rescaled old one plus the row sums of the exponentials
  isplitl [H10]
  · iexists _; isplitr; swap; · iexact H10
    ipureintro
    -- as for the output block
    sl_unfold_words
    refine (read_writes_wholeC _ _ hzC _ _ _).trans ?_
    dsimp only [scStep, outLast]
    simp only [View.readAt_eq_ld, Memref.IsWhole.read_unread, View.readCov_unit_zero (S := S1024x512) _ hzC,
      View.readCov_unit_zero (S := S1024x1) _ hzC, View.ld_unit_zero (S := S1024x512) hzC,
      View.ld_unit_zero (S := S512x512) hzC, View.ld_unit_zero (S := S1024x1) hzC]
  -- the running numerator: one whole-block store of the rescaled old one plus the exponentials times the value block
  iexists _; isplitr; swap; · iexact H11
  ipureintro
  -- as for the output block
  sl_unfold_words
  refine (read_writes_wholeC _ _ hzC _ _ _).trans ?_
  dsimp only [scStep, outLast]
  simp only [View.readAt_eq_ld, Memref.IsWhole.read_unread, View.readCov_unit_zero (S := S1024x512) _ hzC,
    View.readCov_unit_zero (S := S1024x1) _ hzC, View.ld_unit_zero (S := S1024x512) hzC,
    View.ld_unit_zero (S := S512x512) hzC, View.ld_unit_zero (S := S1024x1) hzC]

end Cert.Kernel.Att

end
-- ==== Proof.K.R1Runs.lean ====
/-
  Region 1's body in its three control cases (first, middle, last key tile), collected.
-/
import proofs.«424890_j49589692400271_3_alg».proof.Proof.K.R1RunA
import proofs.«424890_j49589692400271_3_alg».proof.Proof.K.R1RunB
import proofs.«424890_j49589692400271_3_alg».proof.Proof.K.R1RunC
-- ==== Proof.K.R1Body.lean ====
/-
  Region 1's body meets the pipeline's obligation at every one of its 128 points, and its invariant is entered
  from and returned to the class invariant. A point is in one of three cases by its key-tile coordinate (the
  position modulo 16): first (the carried state is reset), middle, last (the output block is stored and written
  back; elsewhere the output window is idle and its buffer is handed back as found). The invariant hands the body
  the four scratch buffers at the state the point before left (at anything before the first point) and takes
  them back at the state after this point.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import proofs.«424890_j49589692400271_3_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What the body finds in the input windows -/

/-- The block a fetch of window `w` reads at point `t` is the block read off the array as the region found it. -/
theorem blockOf1 (c : Dev nD) (w : Fin cfg1.W) (t : Fin cfg1.N) : (dat1 V c).blockOf w t = iblk1 V c w t := by
  unfold Dat.blockOf iblk1; rw [A_eq1]

/-- The query block's buffer holds the query block at every point: the window is an input, never idle, its blocks
    uncut, and the body leaves the block where it found it; so between fetches (one per query tile) nothing moves. -/
theorem before1_0 (c : Dev nD) (t : Fin cfg1.N) (d) : (dat1 V c).before 0 t d = iblk1 V c 0 t := by
  have hk : ∀ s, (cfg1.win 0).cut (cfg1.grid.coords s) ((dat1 V c).after 0 s) = (dat1 V c).blockOf 0 s := fun s => by
    rw [after1_0, blockOf1]
  rw [(dat1 V c).before_in_eq_fetched 0 rfl (fun _ => rfl) (fun _ _ _ => rfl) hk t d]
  unfold Dat.fetched; rw [blockOf1]; rfl

/-- The projection weights' buffer, fetched at the first point only, holds them at every point. -/
theorem before1_1 (c : Dev nD) (t : Fin cfg1.N) (d) : (dat1 V c).before 1 t d = iblk1 V c 1 t := by
  have hk : ∀ s, (cfg1.win 1).cut (cfg1.grid.coords s) ((dat1 V c).after 1 s) = (dat1 V c).blockOf 1 s := fun s => by
    rw [after1_1, blockOf1]
  rw [(dat1 V c).before_in_eq_fetched 1 rfl (fun _ => rfl) (fun _ _ _ => rfl) hk t d]
  unfold Dat.fetched; rw [blockOf1]; rfl

/-- The projection bias' buffer, fetched at the first point only, holds it at every point. -/
theorem before1_2 (c : Dev nD) (t : Fin cfg1.N) (d) : (dat1 V c).before 2 t d = iblk1 V c 2 t := by
  have hk : ∀ s, (cfg1.win 2).cut (cfg1.grid.coords s) ((dat1 V c).after 2 s) = (dat1 V c).blockOf 2 s := fun s => by
    rw [after1_2, blockOf1]
  rw [(dat1 V c).before_in_eq_fetched 2 rfl (fun _ => rfl) (fun _ _ _ => rfl) hk t d]
  unfold Dat.fetched; rw [blockOf1]; rfl

/-- The key block's buffer, fetched at every point, holds the point's key block. -/
theorem before1_3 (c : Dev nD) (t : Fin cfg1.N) (d) : (dat1 V c).before 3 t d = iblk1 V c 3 t := by
  have hk : ∀ s, (cfg1.win 3).cut (cfg1.grid.coords s) ((dat1 V c).after 3 s) = (dat1 V c).blockOf 3 s := fun s => by
    rw [after1_3, blockOf1]
  rw [(dat1 V c).before_in_eq_fetched 3 rfl (fun _ => rfl) (fun _ _ _ => rfl) hk t d]
  unfold Dat.fetched; rw [blockOf1]; rfl

/-- The value block's buffer, fetched at every point, holds the point's value block. -/
theorem before1_4 (c : Dev nD) (t : Fin cfg1.N) (d) : (dat1 V c).before 4 t d = iblk1 V c 4 t := by
  have hk : ∀ s, (cfg1.win 4).cut (cfg1.grid.coords s) ((dat1 V c).after 4 s) = (dat1 V c).blockOf 4 s := fun s => by
    rw [after1_4, blockOf1]
  rw [(dat1 V c).before_in_eq_fetched 4 rfl (fun _ => rfl) (fun _ _ _ => rfl) hk t d]
  unfold Dat.fetched; rw [blockOf1]; rfl

/-! ## Where the windows are live -/

/-- The five input windows are live at every point. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl

/-- Away from the last key tile the output window is idle, -/
theorem idle1_5 : ∀ t : Fin cfg1.N, ¬ t.val % 16 = 15 → cfg1.idle 5 (grid1.coords t) = true :=
  (by decide +kernel : ∀ t : Fin grid1.N, ¬ t.val % 16 = 15 → idle1 5 (grid1.coords t) = true)
/-- and its block is not written back; -/
theorem noFlush1_5 : ∀ t : Fin cfg1.N, ¬ t.val % 16 = 15 → (cfg1.win 5).flush t = false :=
  (by decide +kernel : ∀ t : Fin grid1.N, ¬ t.val % 16 = 15 → win1_5.flush t = false)
/-- at the last key tile it is live. -/
theorem live1_5 : ∀ t : Fin cfg1.N, t.val % 16 = 15 → cfg1.idle 5 (grid1.coords t) = false :=
  (by decide +kernel : ∀ t : Fin grid1.N, t.val % 16 = 15 → idle1 5 (grid1.coords t) = false)

/-! ## The class invariant, opened at the four scratch buffers -/

/-- The class invariant with the four scratch buffers named, each owned whole at some contents, beside the other
    scoped buffers and the generator register: what the invariant before the first point hands the body. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d))
        ∗ restBut (F := F) c ∗ ∃ r, prngReg c r) := by
  unfold Pipeline.ΦA
  rw [Pipeline.scopedRest_split_of_list spec1 c scList (by decide) (by decide)]
  simp only [scList, BI.bigSepL_cons_cons, BI.bigSepL_singleton, scM1_0, scM1_1, scM1_2, scM1_3, owns_whole]
  have toR : ∀ P Q R : sProp 𝕄, iprop((P ∗ Q) ∗ R) ⊢ iprop(P ∗ Q ∗ R) := fun _ _ _ => Laws.sep_assoc.1
  have toL : ∀ P Q R : sProp 𝕄, iprop(P ∗ Q ∗ R) ⊢ iprop((P ∗ Q) ∗ R) := fun _ _ _ => Laws.sep_assoc.2
  exact BI.equiv_iff.mp ⟨toR _ _ _, toL _ _ _⟩

/-! ## The point's staging memrefs -/

/-- Each window's current staging memref at point `t`, as the pipeline passes it to the body, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)

/-! ## What the body owes each window -/

/-- An input window is live everywhere: the body owes its buffer at the block it found there. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3 (c : Dev nD) (t : Fin cfg1.N) :
    (dat1 V c).leavesExact 3 t = owns (c : Thread nD τ) (ms1_3 t) fullShare (iblk1 V c 3 t) := by
  unfold Dat.leavesExact; rw [live1_3 t, after1_3]
theorem leaves1_4 (c : Dev nD) (t : Fin cfg1.N) :
    (dat1 V c).leavesExact 4 t = owns (c : Thread nD τ) (ms1_4 t) fullShare (iblk1 V c 4 t) := by
  unfold Dat.leavesExact; rw [live1_4 t, after1_4]

/-- Away from the last key tile the output window is idle and not written back: the body owes its buffer as found. -/
theorem leaves1_5_idle (c : Dev nD) (t : Fin cfg1.N) (h : ¬ t.val % 16 = 15) :
    (dat1 V c).leavesExact 5 t = iprop(∃ d, owns (c : Thread nD τ) (ms1_5 t) fullShare ((dat1 V c).before 5 t d)) :=
  Dat.leavesExact_idle (dat1 V c) 5 t (idle1_5 t h) (noFlush1_5 t h)

/-- At the last key tile it is live: the body owes its buffer at the blend of the state after the point. -/
theorem leaves1_5_live (c : Dev nD) (t : Fin cfg1.N) (h : t.val % 16 = 15) :
    (dat1 V c).leavesExact 5 t
      = owns (c : Thread nD τ) (ms1_5 t) fullShare (outLast (scAt V c t.val t.isLt) (iblk1 V c 0 t)) := by
  unfold Dat.leavesExact; rw [live1_5 t h, after1_5]

/-! ## The body obligation at a point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The five input buffers hold their blocks. At a first key tile the scratch is handed over
    at anything (at the first point of all the class invariant says no more; later the state the query tile before
    ended with is forgotten) and comes back one step from the reset state; at a middle or last key tile it is handed
    over at the state the point before left and comes back one step on. Away from the last key tile the output
    buffer goes through untouched; at the last it comes back at the blend of the new state with the query block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_succ, PhiS1_succ, Phi1_castSucc, leaves1_0, leaves1_1, leaves1_2, leaves1_3, leaves1_4]
  by_cases h0 : t.val % 16 = 0
  · have h15 : ¬ t.val % 16 = 15 := by omega
    rw [leaves1_5_idle V c t h15, scAt_first V c t h0]
    by_cases hz : t.val = 0
    · rw [PhiS1_zero V c _ _ hz, PhiA1_eq]
      iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        ((hcond1_0 t).mpr h0) (fun h => h15 ((hcond1_1 t).mp h)) (iblk1 V c 0 t) (iblk1 V c 1 t) (iblk1 V c 2 t) (iblk1 V c 3 t) (iblk1 V c 4 t)
        ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS1_pos V c _ _ hz]
      iintro ⟨⟨HS0, HS1, HS2, HS3, Hr, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        ((hcond1_0 t).mpr h0) (fun h => h15 ((hcond1_1 t).mp h)) (iblk1 V c 0 t) (iblk1 V c 1 t) (iblk1 V c 2 t) (iblk1 V c 3 t) (iblk1 V c 4 t)
        ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    rw [PhiS1_pos V c _ _ hz, scAt_next V c t h0]
    by_cases h15 : t.val % 16 = 15
    · rw [leaves1_5_live V c t h15, scAt_next V c t h0]
      iintro ⟨⟨HS0, HS1, HS2, HS3, Hr, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        (fun h => h0 ((hcond1_0 t).mp h)) ((hcond1_1 t).mpr h15) (iblk1 V c 0 t) (iblk1 V c 1 t) (iblk1 V c 2 t) (iblk1 V c 3 t) (iblk1 V c 4 t)
        (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves1_5_idle V c t h15]
      iintro ⟨⟨HS0, HS1, HS2, HS3, Hr, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        (fun h => h0 ((hcond1_0 t).mp h)) (fun h => h15 ((hcond1_1 t).mp h)) (iblk1 V c 0 t) (iblk1 V c 1 t) (iblk1 V c 2 t) (iblk1 V c 3 t) (iblk1 V c 4 t)
        ((dat1 V c).before 5 t d5) (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The body meets the pipeline's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : (Pipeline.ΦA spec1 c : sProp 𝕄) ⊢ (dat1 V c).Φ 0 := by
  show _ ⊢ PhiS1 V c 0 (Nat.zero_le _)
  rw [PhiS1_zero V c 0 _ rfl]

/-- After the last point the invariant gives the class invariant back: the scratch contents are forgotten. -/
theorem hout1 (c : Dev nD) : (dat1 V c).Φ (Fin.last cfg1.N) ⊢ (Pipeline.ΦA spec1 c : sProp 𝕄) := by
  have hN : cfg1.N = 128 := N_1
  have hpos : (Fin.last cfg1.N).val ≠ 0 := by rw [Fin.val_last]; omega
  show PhiS1 V c (Fin.last cfg1.N).val (Nat.le_of_lt_succ (Fin.last cfg1.N).isLt) ⊢ _
  rw [PhiS1_pos V c _ _ hpos, PhiA1_eq]
  iintro ⟨HS0, HS1, HS2, HS3, Hr, Hg⟩
  isplitl [HS0 HS1 HS2 HS3]
  · isplitl [HS0]; · iexists _; iexact HS0
    isplitl [HS1]; · iexists _; iexact HS1
    isplitl [HS2]; · iexists _; iexact HS2
    iexists _; iexact HS3
  isplitl [Hr]; · iexact Hr
  iexact Hg

end Cert.Kernel.Att

end
-- ==== Proof.K.RunCond.lean ====
/-
  The program's run read at every buffer. @main is two stretches of host operations and two kernel regions; given,
  for each region, a segment record entered from the thread state "every unscoped buffer of the core held at the
  valuation before it" and left at the valuation after it, every weakly fair execution from a memory with zero
  counters terminates and every core's unscoped buffers end at the last valuation `V4`: the host stretches'
  results, then what each region leaves in its output arrays. The argument arrays and the result are read off
  that one fact.
-/
import proofs.«424890_j49589692400271_3_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN. For any user algebra, level assignment, launch dues and ghost resources, any rest states
    `E` the launch makes on every core at once (`hE0`) and that end owing nothing (`hE2`), any contents the regions
    leave (`outs`) and any proof data: GIVEN, per region K, a segment record entered from the thread state before it
    and left at the one after it (`RK`, `hpreK`, `hpostK`), every weakly fair execution of @main from memory `m` with
    zero counters terminates, and in every final memory every unscoped buffer of every core holds what the last
    valuation `V4` names for it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => ∀ b ∈ Pipeline.ucRefs τ sig, s.mem ((c : Thread nD τ).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.Kernel.Gen

end
-- ==== Proof.LibRegion.lean ====
import Idealize.ShloMosaic.Lib.Pipeline.FrameBody
import Idealize.ShloMosaic.Lib.Pipeline.Regions
import Idealize.ShloMosaic.Lib.Pipeline.RegionsLoop
import Idealize.ShloMosaic.Lib.Tactic

/-!
# A kernel region over the thread state "every unscoped buffer at a valuation", for windows that may share an array

`regionSegHeld` builds the segment record of a kernel region whose thread state before and after is every unscoped
buffer of the core held whole at a valuation, beside the generator register and the core owing nothing. The
buffers behind the windows' arrays are cut out of the unscoped buffers as a set (so two windows on one array cut
out one buffer), and how that set of whole buffers is dealt among the windows is a hypothesis (`hsplit` / `hjoin`).

`arrays_eq_arrBufs_shared` discharges that hypothesis where exactly two input windows read one array, one at the
left half of the full share and one at the right half; `arrays_eq_arrBufs_distinct` where all arrays are distinct.
-/

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligationLoose WinFacts WinFacts₀ arrRef arrBufs unscopedRest pin)

variable {nD : Nat} {τ : Topo} {sig : RefSig} {Val : EltTy → Type}
variable {U : Type} [URA U]

local notation "𝕄" => MT nD τ sig Unit Val ℕ U ℕ

/-- What rides beside the buffers through every segment: the core's generator register at some state and the core
    owing nothing, at some recorded set. -/
abbrev R (c : Dev nD) : sProp 𝕄 :=
  iprop((∃ r, prngReg c r) ∗ ∃ W, owes (c : Thread nD τ) (0 : CellTallies nD τ sig Unit) W)

/-! ## Dealing the buffers behind the arrays among the windows -/

section Share

variable {Λ₀ : Idealize.SL.Sem.Labels} (cfg : Cfg sig Λ₀) (c : Dev nD) (dat : Dat τ Val Unit ℕ U ℕ cfg c)

/-- The buffer behind window `w`'s array, whole at share `q`, at the contents the valuation `V` names for it. -/
abbrev winBuf (V : (b : Ref sig .tc) → Buf Val ((c.tc : Thread nD τ).loc b)) (w : Fin cfg.W) (q : PosShare TreeShare) : sProp 𝕄 :=
  ((c.tc : Thread nD τ).loc (arrRef cfg.spec w)) ↦{q} V (arrRef cfg.spec w)

/-- The pipeline's arrays, each a whole buffer, at contents read off `V`: each window's buffer at the window's share. -/
theorem arrays_eq_winBufs (harr : ∀ w, (cfg.spec w).arr.IsWhole) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = bigSep Finset.univ fun w => (winBuf cfg c V w (dat.share w) : sProp 𝕄) := by
  unfold Dat.arrays
  exact bigSep_congr fun w _ => by rw [(harr w).set_eq_univ, hF]

/-- All arrays distinct whole buffers, every window at the full share: the pipeline's arrays at contents read off a
    valuation `V` are the buffers behind them whole at `V`. -/
theorem arrays_eq_arrBufs_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  rw [arrays_eq_winBufs cfg c dat harr V F hF]
  unfold arrBufs
  rw [show Finset.univ.image (arrRef cfg.spec) = Finset.univ.map ⟨arrRef cfg.spec, hinj⟩ from
    (Finset.map_eq_image ⟨arrRef cfg.spec, hinj⟩ Finset.univ).symm, bigSep_map]
  exact bigSep_congr fun w _ => by rw [hshare]; rfl

/-- Two windows `w₀ ≠ w₁` read ONE array, `w₀` at the left half of the full share and `w₁` at the right half; the
    arrays are otherwise distinct (distinct off `w₁`) and every other window holds its array at the full share; every
    array is a whole buffer. Then the pipeline's arrays at contents read off a valuation `V` are the DISTINCT buffers
    behind them whole at `V`: the shared buffer's full share is the two halves (the share law of the points-to). -/
theorem arrays_eq_arrBufs_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F = (arrBufs cfg.spec c V : sProp 𝕄) := by
  classical
  have hw₀ : w₀ ∈ (Finset.univ : Finset (Fin cfg.W)).erase w₁ := Finset.mem_erase.mpr ⟨hne, Finset.mem_univ _⟩
  -- the distinct buffers are those of the windows other than w₁, on which the arrays are distinct
  have himg : Finset.univ.image (arrRef cfg.spec) = (Finset.univ.erase w₁).image (arrRef cfg.spec) := by
    ext b
    simp only [Finset.mem_image, Finset.mem_univ, true_and, Finset.mem_erase, and_true]
    constructor
    · rintro ⟨w, rfl⟩
      by_cases hw : w = w₁
      · exact ⟨w₀, hne, by rw [hw, h01]⟩
      · exact ⟨w, hw, rfl⟩
    · rintro ⟨w, _, rfl⟩; exact ⟨w, rfl⟩
  have hbufs : (arrBufs cfg.spec c V : sProp 𝕄) = bigSep (Finset.univ.erase w₁) fun w => (winBuf cfg c V w fullShare : sProp 𝕄) := by
    unfold arrBufs bigSep
    rw [himg]
    exact Finset.fold_image fun x hx y hy h => hinj x y (Finset.ne_of_mem_erase hx) (Finset.ne_of_mem_erase hy) h
  -- window w₀'s buffer out of them, its full share the two halves
  have h2 : bigSep (Finset.univ.erase w₁) (fun w => (winBuf cfg c V w fullShare : sProp 𝕄))
      = iprop(winBuf cfg c V w₀ fullShare ∗ bigSep ((Finset.univ.erase w₁).erase w₀) fun w => (winBuf cfg c V w fullShare : sProp 𝕄)) :=
    bigSep_erase hw₀
  have h3 : (winBuf cfg c V w₀ fullShare : sProp 𝕄) = iprop(winBuf cfg c V w₀ fullShare.left ∗ winBuf cfg c V w₀ fullShare.right) := by
    have hs : (winBuf cfg c V w₀ fullShare : sProp 𝕄) ⊣⊢ iprop(winBuf cfg c V w₀ fullShare.left ∗ winBuf cfg c V w₀ fullShare.right) :=
      pointsTo_share (PosShare.mem_left_op_right fullShare)
    exact BI.equiv_iff.mp ⟨hs.1, hs.2⟩
  -- the windows' arrays: w₁'s at the right half, w₀'s at the left half, the others' whole
  have e1 : dat.share w₁ = fullShare.right := by rw [hshare, if_neg (Ne.symm hne), if_pos rfl]
  have e0 : dat.share w₀ = fullShare.left := by rw [hshare, if_pos rfl]
  have h1 : bigSep Finset.univ (fun w => (winBuf cfg c V w (dat.share w) : sProp 𝕄))
      = iprop(winBuf cfg c V w₁ fullShare.right ∗ winBuf cfg c V w₀ fullShare.left
          ∗ bigSep ((Finset.univ.erase w₁).erase w₀) fun w => (winBuf cfg c V w fullShare : sProp 𝕄)) := by
    rw [bigSep_erase (Finset.mem_univ w₁), bigSep_erase hw₀, e1, e0]
    congr 2
    exact bigSep_congr fun w hw => by
      rw [hshare, if_neg (Finset.ne_of_mem_erase hw), if_neg (Finset.ne_of_mem_erase (Finset.mem_of_mem_erase hw))]
  -- w₁'s buffer is w₀'s
  have h4 : (winBuf cfg c V w₁ fullShare.right : sProp 𝕄) = winBuf cfg c V w₀ fullShare.right := by
    unfold winBuf; rw [h01]
  rw [arrays_eq_winBufs cfg c dat harr V F hF, hbufs, h1, h2, h3, h4]
  refine BI.equiv_iff.mp ⟨?_, ?_⟩
  · show (_ : sProp 𝕄) ⊢ _
    iintro ⟨Hr, Hl, Hs⟩
    isplitl [Hl Hr]
    · isplitl [Hl] <;> iassumption
    iexact Hs
  · show (_ : sProp 𝕄) ⊢ _
    iintro ⟨⟨Hl, Hr⟩, Hs⟩
    isplitl [Hr]; · iexact Hr
    isplitl [Hl] <;> iassumption

/-- ENTRY, shared array: the distinct buffers behind the arrays, whole at `V`, deal the pipeline its arrays at the
    contents read off `V` (`arrays_eq_arrBufs_shared`, right to left). -/
theorem arrBufs_split_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_shared cfg c dat w₀ w₁ hne h01 hinj harr hshare V F hF).symm

/-- EXIT, shared array: the pipeline's arrays at contents read off `V` are collected into the distinct buffers behind
    them, whole at `V` (`arrays_eq_arrBufs_shared`, left to right). -/
theorem arrBufs_join_shared (w₀ w₁ : Fin cfg.W) (hne : w₀ ≠ w₁) (h01 : arrRef cfg.spec w₀ = arrRef cfg.spec w₁)
    (hinj : ∀ w w', w ≠ w₁ → w' ≠ w₁ → arrRef cfg.spec w = arrRef cfg.spec w' → w = w')
    (harr : ∀ w, (cfg.spec w).arr.IsWhole)
    (hshare : ∀ w, dat.share w = if w = w₀ then fullShare.left else if w = w₁ then fullShare.right else fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_shared cfg c dat w₀ w₁ hne h01 hinj harr hshare V F hF)

/-- ENTRY, distinct arrays (`arrays_eq_arrBufs_distinct`, right to left). -/
theorem arrBufs_split_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊢ dat.arrays F :=
  Entails.of_eq (arrays_eq_arrBufs_distinct cfg c dat hinj harr hshare V F hF).symm

/-- EXIT, distinct arrays (`arrays_eq_arrBufs_distinct`, left to right). -/
theorem arrBufs_join_distinct (hinj : Function.Injective (arrRef cfg.spec)) (harr : ∀ w, (cfg.spec w).arr.IsWhole)
    (hshare : ∀ w, dat.share w = fullShare) (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    dat.arrays F ⊢ (arrBufs cfg.spec c V : sProp 𝕄) :=
  Entails.of_eq (arrays_eq_arrBufs_distinct cfg c dat hinj harr hshare V F hF)

end Share

/-! ## The region's segment record -/

section Region

variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A kernel region entered from every unscoped buffer held whole at `Vin c` (beside `R c`) and left at `Vout c`:
    no prefetched table, no semaphore of the kernel's own, nothing owed. The body's invariant at the first point is
    made of the generator register and the scoped buffers that are no staging buffer (`hin`), and gives them back at
    the last point (`hout`). The buffers behind the arrays are dealt to the windows by `hsplit` at entry and
    collected by `hjoin` at exit; off those buffers the valuation is unchanged (`hrest`). -/
def regionSegHeld (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := unscopedRest (Ix := Unit) (Name := ℕ) (U := U) (Lvl := ℕ) (pin pcs a p).spec c (fun b => Vin c b)
  hentry c := by
    -- the unscoped buffers at `Vin c` are the buffers behind the arrays and the rest; the former are dealt to the windows
    rw [Pipeline.ownSems0_none]
    have hub : (StableHlo.held (c : Thread nD τ) (Pipeline.ucRefs τ sig) (Vin c) : sProp 𝕄)
        = iprop(arrBufs (pin pcs a p).spec c (fun b => Vin c b) ∗ unscopedRest (pin pcs a p).spec c (fun b => Vin c b)) := by
      rw [← Pipeline.unscopedBufs_held, Pipeline.unscopedBufs_split₀ (pin pcs a) p win.arr_unscoped c]
    rw [hub]
    have hs := hsplit c
    iintro ⟨⟨⟨Hab, Hrest⟩, Hp, HO⟩, -, -⟩
    ihave Ha := hs $$ Hab
    imodintro
    isplitl [Ha]; · iexact Ha
    isplitr
    · -- no table is prefetched: nothing to hold
      unfold Pipeline.prefHeld
      rw [show (Finset.univ : Finset (Fin (pcs p).pre.K)) = ∅ from
        Finset.univ_eq_empty_iff.mpr ⟨fun k => by have := k.isLt; omega⟩, BI.bigSep_empty]
      iempintro
    isplitl [HO]
    · -- nothing owed; any recorded set lies within the first point's bound
      unfold Pipeline.Dat.owesAt Pipeline.owesWithin
      icases HO with ⟨%W, HO⟩; iexists W; isplitr
      · ipureintro; exact fun x _ => Or.inl (by rw [hrec c]; trivial)
      rw [howed c 0]; iexact HO
    isplitl [Hp]; · iexact Hp
    iexact Hrest
  hin c := by
    have h := hin c
    iintro ⟨Hp, -, Hr⟩
    iapply h
    isplitl [Hp] <;> iassumption
  hout c := by
    rw [Pipeline.ownSems0_none]
    refine (hout c).trans ?_
    iintro ⟨Hp, Hr⟩
    isplitl [Hp]; · iexact Hp
    isplitr; · iempintro
    iexact Hr
  hexit c := by
    -- the unscoped buffers at `Vout c` are the buffers behind the arrays at `Vout c` and the rest, unchanged since entry
    have hub : (StableHlo.held (c : Thread nD τ) (Pipeline.ucRefs τ sig) (Vout c) : sProp 𝕄)
        = iprop(arrBufs (pin pcs a p).spec c (fun b => Vout c b) ∗ unscopedRest (pin pcs a p).spec c (fun b => Vin c b)) := by
      rw [← Pipeline.unscopedBufs_held, Pipeline.unscopedBufs_split₀ (pin pcs a) p win.arr_unscoped c]
      congr 1
      unfold Pipeline.unscopedRest
      exact bigSep_congr fun b hb => by beta_reduce; rw [hrest c b (Finset.mem_sdiff.mp hb).2]
    rw [hub]
    have hj := hjoin c
    iintro ⟨Ha, HO, HY, Hrest⟩
    ihave Hab := hj $$ Ha
    imodintro
    isplitl [Hab Hrest]
    · isplitl [Hab] <;> iassumption
    isplitl [HY]; · iexact HY
    unfold Pipeline.Dat.owesAt Pipeline.owesWithin
    icases HO with ⟨%W, -, HO⟩; iexists W
    rw [howed c (Fin.last _)]; iexact HO

/-- The thread state `regionSegHeld` is entered from. -/
theorem regionSegHeld_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).pre c
      = iprop(StableHlo.held (c : Thread nD τ) (Pipeline.ucRefs τ sig) (Vin c) ∗ R c) := rfl

/-- The thread state `regionSegHeld` leaves. -/
theorem regionSegHeld_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hin : ∀ c, (iprop((∃ r, prngReg c r) ∗ Pipeline.scopedRest (pin pcs a p).spec c) : sProp 𝕄) ⊢ (pdats p c).Φ 0)
    (hout : ∀ c, (pdats p c).Φ (Fin.last (pin pcs a p).N) ⊢ (iprop((∃ r, prngReg c r) ∗ Pipeline.scopedRest (pin pcs a p).spec c) : sProp 𝕄))
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeld pcs a pdats defs₀ 𝒱₀ L lv p win block_pos stage_whole hpre hbody hin hout howed hrec Vin Vout hsplit hjoin hrest).post c
      = iprop(StableHlo.held (c : Thread nD τ) (Pipeline.ucRefs τ sig) (Vout c) ∗ R c) := rfl

/-- The class invariant (the scoped buffers that are no staging buffer, the generator register) is made of the
    generator register and those scoped buffers. -/
theorem ΦA_of (p : P) (c : Dev nD) :
    (iprop((∃ r, prngReg c r) ∗ Pipeline.scopedRest (pin pcs a p).spec c) : sProp 𝕄) ⊢ Pipeline.ΦA (pin pcs a p).spec c := by
  unfold Pipeline.ΦA
  iintro ⟨Hp, Hr⟩
  isplitl [Hr] <;> iassumption

/-- The class invariant gives back the generator register and the scoped buffers that are no staging buffer. -/
theorem of_ΦA (p : P) (c : Dev nD) :
    (Pipeline.ΦA (pin pcs a p).spec c : sProp 𝕄) ⊢ iprop((∃ r, prngReg c r) ∗ Pipeline.scopedRest (pin pcs a p).spec c) := by
  unfold Pipeline.ΦA
  iintro ⟨Hr, Hp⟩
  isplitl [Hp] <;> iassumption

/-- `regionSegHeld` for a body whose invariant at the first and at the last point IS the class invariant. -/
def regionSegHeldA (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) :
    Pipeline.RegionSeg pcs a pdats () defs₀ 𝒱₀ L lv p :=
  regionSegHeld pcs a pdats defs₀ 𝒱₀ L lv p win block_pos stage_whole hpre hbody
    (fun c => by rw [hΦ0 c]; exact ΦA_of pcs a p c) (fun c => by rw [hΦN c]; exact of_ΦA pcs a p c)
    howed hrec Vin Vout hsplit hjoin hrest

/-- The thread state `regionSegHeldA` is entered from. -/
theorem regionSegHeldA_pre (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).pre c
      = iprop(StableHlo.held (c : Thread nD τ) (Pipeline.ucRefs τ sig) (Vin c) ∗ R c) := rfl

/-- The thread state `regionSegHeldA` leaves. -/
theorem regionSegHeldA_post (p : P) (win : WinFacts₀ (pcs p).spec)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hpre : (pcs p).pre.K = 0)
    (hbody : ∀ c, BodyObligationLoose (pdats p c) defs₀ 𝒱₀ () Set.univ)
    (hΦ0 : ∀ c, (pdats p c).Φ 0 = Pipeline.ΦA (pin pcs a p).spec c)
    (hΦN : ∀ c, (pdats p c).Φ (Fin.last (pin pcs a p).N) = Pipeline.ΦA (pin pcs a p).spec c)
    (howed : ∀ c t, (pdats p c).owed t = 0)
    (hrec : ∀ c, (pdats p c).recorded 0 = Set.univ)
    (Vin Vout : Dev nD → Valuation τ sig Val)
    (hsplit : ∀ c, (arrBufs (pin pcs a p).spec c (fun b => Vin c b) : sProp 𝕄) ⊢ (pdats p c).arrays ((pdats p c).arrAt · 0))
    (hjoin : ∀ c, (pdats p c).arrays ((pdats p c).arrAt · (pin pcs a p).N) ⊢ (arrBufs (pin pcs a p).spec c (fun b => Vout c b) : sProp 𝕄))
    (hrest : ∀ c (b : Ref sig .tc), b ∉ Finset.univ.image (arrRef (pin pcs a p).spec) → Vout c b = Vin c b) (c : Dev nD) :
    (regionSegHeldA pcs a pdats defs₀ 𝒱₀ L lv p win block_pos stage_whole hpre hbody hΦ0 hΦN howed hrec Vin Vout hsplit hjoin hrest).post c
      = iprop(StableHlo.held (c : Thread nD τ) (Pipeline.ucRefs τ sig) (Vout c) ∗ R c) := rfl

end Region

end Cert.LibRegion

end
-- ==== Proof.K.Launch.lean ====
/-
  The whole program's run. @main is: transpose the key weights and reshape the key bias; region 0 (the key
  projection); transpose the query weights and reshape the query bias; region 1 (the attention). Region 0 is entered
  from the launch memory after the first host stretch (`Ve1`) and leaves its two output arrays at what its
  write-backs fold to; region 1 is entered from that after the second host stretch (`Ve3`) and leaves the result
  array likewise. Each region's segment record is built from its body obligation over the thread state "every
  unscoped buffer held at the valuation, the generator register at some state, nothing owed"; the run then reads
  every unscoped buffer at the last valuation, from which come the frame (the six arguments as launched) and the
  result array's contents.
-/
import proofs.«424890_j49589692400271_3_alg».proof.Proof.Gen.Kernel.Launch
import proofs.«424890_j49589692400271_3_alg».proof.Proof.Gen.Kernel.Skeleton
import proofs.«424890_j49589692400271_3_alg».proof.Proof.Gen.Kernel.Points
import proofs.«424890_j49589692400271_3_alg».proof.Proof.K.R0
import proofs.«424890_j49589692400271_3_alg».proof.Proof.K.R1Body
import proofs.«424890_j49589692400271_3_alg».proof.Proof.K.RunCond
import proofs.«424890_j49589692400271_3_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Region 0's entry contents: the launch memory after the first host stretch, read at the core's references. -/
abbrev Ve1 (c : Dev nD) (b : Ref sig .tc) : Buf (Elt F) ((c : Thread nD τ).loc b) := Gen.V1 m c b

/-- What region 0 leaves: its arrays at what the pipeline's write-backs fold to, every other buffer as entered. -/
def o2 (r : Ref sig .tc) (c : Dev nD) : Buf (Elt F) ((c : Thread nD τ).loc r) :=
  Pipeline.withArrays spec0 c (Gen.V1 m c) (fun w => (dat0 (Ve1 m) c).arrAt w cfg0.N) (Proc.devRef .tc r)

/-- Region 1's entry contents: that, after the second host stretch. -/
abbrev Ve3 (c : Dev nD) (b : Ref sig .tc) : Buf (Elt F) ((c : Thread nD τ).loc b) := Gen.V3 m (fun _ => o2 m) c b

/-- What region 1 leaves. -/
def o4 (r : Ref sig .tc) (c : Dev nD) : Buf (Elt F) ((c : Thread nD τ).loc r) :=
  Pipeline.withArrays spec1 c (Gen.V3 m (fun _ => o2 m) c) (fun w => (dat1 (Ve3 m) c).arrAt w cfg1.N) (Proc.devRef .tc r)

/-- The regions' leavings, by the item after which they are read. -/
def outs : Gen.Outs (F := F) := fun J r c => if J = 4 then o4 m r c else o2 m r c

/-! ## Reading the valuations at the regions' arrays -/

/-- After region 0 the leavings are `o2`, after region 1 `o4`. -/
theorem outs_two (r : Ref sig .tc) (c : Dev nD) : outs m 2 r c = o2 m r c := rfl
theorem outs_four (r : Ref sig .tc) (c : Dev nD) : outs m 4 r c = o4 m r c := rfl

/-- What region 0 leaves, read at one of its windows' arrays, is the fold of that window's write-backs. -/
theorem o2_arr (c : Dev nD) (w : Fin cfg0.W) :
    o2 m (Pipeline.arrRef spec0 w) c = (dat0 (Ve1 m) c).arrAt w cfg0.N := by
  unfold o2; exact Pipeline.withArrays_arr spec0 launch0.win.arr_inj c _ _ w

/-- What region 1 leaves, read at one of its windows' arrays, is the fold of that window's write-backs. -/
theorem o4_arr (c : Dev nD) (w : Fin cfg1.W) :
    o4 m (Pipeline.arrRef spec1 w) c = (dat1 (Ve3 m) c).arrAt w cfg1.N := by
  unfold o4; exact Pipeline.withArrays_arr spec1 launch1.win.arr_inj c _ _ w

/-- The valuation after region 0 at its first output array, -/
theorem V2_v2_0 (c : Dev nD) : Gen.V2 m (outs m) c main_v2_0 = (dat0 (Ve1 m) c).arrAt 3 cfg0.N := by
  unfold Gen.V2
  rw [Function.update_of_ne (StableHlo.devRef_ne_of_ne (by decide) : (Proc.devRef .tc main_v2_0 : DevRef τ sig) ≠ Proc.devRef .tc main_v2_1),
    Function.update_self, outs_two]
  exact o2_arr m c 3

/-- and at its second. -/
theorem V2_v2_1 (c : Dev nD) : Gen.V2 m (outs m) c main_v2_1 = (dat0 (Ve1 m) c).arrAt 4 cfg0.N := by
  unfold Gen.V2
  rw [Function.update_self, outs_two]
  exact o2_arr m c 4

/-! ## What each region leaves, window by window, and what it does not touch -/

/-- Region 0 leaves each of its arrays at the fold of its write-backs: an input's array is never written and the
    valuation after the region keeps it; an output's array is set there to the region's leaving. -/
theorem exit0 (c : Dev nD) : ∀ w : Fin cfg0.W,
    (dat0 (Ve1 m) c).arrAt w cfg0.N = Gen.V2 m (outs m) c (Pipeline.arrRef spec0 w)
  | 0 => ((dat0 (Ve1 m) c).arrAt_in 0 rfl _).trans ((A_eq0 (Ve1 m) c 0).trans (Gen.V2_of m (outs m) c _ (by decide)).symm)
  | 1 => ((dat0 (Ve1 m) c).arrAt_in 1 rfl _).trans ((A_eq0 (Ve1 m) c 1).trans (Gen.V2_of m (outs m) c _ (by decide)).symm)
  | 2 => ((dat0 (Ve1 m) c).arrAt_in 2 rfl _).trans ((A_eq0 (Ve1 m) c 2).trans (Gen.V2_of m (outs m) c _ (by decide)).symm)
  | 3 => (V2_v2_0 m c).symm
  | 4 => (V2_v2_1 m c).symm
  | ⟨_ + 5, h⟩ => absurd h (Nat.not_lt.2 (Nat.le_add_left _ _))

/-- Off region 0's arrays the valuation after it is the one before it. -/
theorem rest0 (c : Dev nD) (b : Ref sig .tc) (hb : b ∉ Finset.univ.image (Pipeline.arrRef spec0)) :
    Gen.V2 m (outs m) c b = Gen.V1 m c b :=
  Gen.V2_of m (outs m) c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem List.not_mem_nil

/-- Region 1 is entered from the valuation after the second host stretch, which reads region 0's leavings only. -/
theorem Ve3_eq (c : Dev nD) (b : Ref sig .tc) : Ve3 m c b = Gen.V3 m (outs m) c b := rfl

/-- Region 1 leaves each of its arrays at the fold of its write-backs. -/
theorem exit1 (c : Dev nD) : ∀ w : Fin cfg1.W,
    (dat1 (Ve3 m) c).arrAt w cfg1.N = Gen.V4 m (outs m) c (Pipeline.arrRef spec1 w)
  | 0 => ((dat1 (Ve3 m) c).arrAt_in 0 rfl _).trans ((A_eq1 (Ve3 m) c 0).trans (Gen.V4_of m (outs m) c _ (by decide)).symm)
  | 1 => ((dat1 (Ve3 m) c).arrAt_in 1 rfl _).trans ((A_eq1 (Ve3 m) c 1).trans (Gen.V4_of m (outs m) c _ (by decide)).symm)
  | 2 => ((dat1 (Ve3 m) c).arrAt_in 2 rfl _).trans ((A_eq1 (Ve3 m) c 2).trans (Gen.V4_of m (outs m) c _ (by decide)).symm)
  | 3 => ((dat1 (Ve3 m) c).arrAt_in 3 rfl _).trans ((A_eq1 (Ve3 m) c 3).trans (Gen.V4_of m (outs m) c _ (by decide)).symm)
  | 4 => ((dat1 (Ve3 m) c).arrAt_in 4 rfl _).trans ((A_eq1 (Ve3 m) c 4).trans (Gen.V4_of m (outs m) c _ (by decide)).symm)
  | 5 => by
    unfold Gen.V4
    rw [Function.update_self, outs_four]
    exact (o4_arr m c 5).symm
  | ⟨_ + 6, h⟩ => absurd h (Nat.not_lt.2 (Nat.le_add_left _ _))

/-- Off region 1's arrays the valuation after it is the one before it. -/
theorem rest1 (c : Dev nD) (b : Ref sig .tc) (hb : b ∉ Finset.univ.image (Pipeline.arrRef spec1)) :
    Gen.V4 m (outs m) c b = Gen.V3 m (outs m) c b :=
  Gen.V4_of m (outs m) c b fun hmem => by
    rcases List.mem_cons.mp hmem with rfl | hmem
    · exact hb (Finset.mem_image.mpr ⟨5, Finset.mem_univ _, rfl⟩)
    · exact absurd hmem List.not_mem_nil

/-! ## The regions as segments of the run -/

/-- Each region's proof data, at the contents the region is entered from. -/
def pdats : (p : Fin 2) → (c : Dev nD) → Dat τ (Elt F) Unit ℕ (UR sig nD τ) ℕ (Pipeline.pin (pcfgs (F := F)) Gen.adm p) c
  | ⟨0, _⟩ => fun c => dat0 (Ve1 m) c
  | ⟨1, _⟩ => fun c => dat1 (Ve3 m) c

/-- No core waits on another: no level is assigned. -/
abbrev noLev : GSem nD τ sig → Finset Unit := fun _ => ∅
abbrev lev0 : GSem nD τ sig → Unit → ℕ := fun _ _ => 0

set_option backward.isDefEq.respectTransparency.types false in
/-- Region 0 between the valuation after the first host stretch and the one after the region: its five arrays are
    distinct whole buffers held at the full share, its invariant is the class invariant throughout, nothing is owed. -/
def seg0R : Pipeline.RegionSeg (pcfgs (F := F)) Gen.adm (pdats m) () (defs₀ (F := F)) Variants.none noLev lev0 0 :=
  Cert.LibRegion.regionSegHeldA (pcfgs (F := F)) Gen.adm (pdats m) (defs₀ (F := F)) Variants.none noLev lev0 0
    launch0.win.to₀ launch0.block_pos launch0.stage_whole rfl
    (fun c => (body_obligation0 (Ve1 m) c).loose)
    (fun c => rfl) (fun c => rfl) (fun c t => rfl) (fun c => rfl)
    (Gen.V1 m) (Gen.V2 m (outs m))
    (fun c => Cert.LibRegion.arrBufs_split_distinct cfg0 c (dat0 (Ve1 m) c) launch0.win.arr_inj launch0.arr_whole
      ((dat0 (Ve1 m) c).share_full fun _ => rfl) (fun b => Gen.V1 m c b) _ (fun w => A_eq0 (Ve1 m) c w))
    (fun c => Cert.LibRegion.arrBufs_join_distinct cfg0 c (dat0 (Ve1 m) c) launch0.win.arr_inj launch0.arr_whole
      ((dat0 (Ve1 m) c).share_full fun _ => rfl) (fun b => Gen.V2 m (outs m) c b) _ (fun w => exit0 m c w))
    (fun c b hb => rest0 m c b hb)

set_option backward.isDefEq.respectTransparency.types false in
/-- Region 1 between the valuation after the second host stretch and the last one: its six arrays are distinct whole
    buffers held at the full share; its invariant starts from the class invariant and gives it back; nothing is owed. -/
def seg1R : Pipeline.RegionSeg (pcfgs (F := F)) Gen.adm (pdats m) () (defs₀ (F := F)) Variants.none noLev lev0 1 :=
  Cert.LibRegion.regionSegHeld (pcfgs (F := F)) Gen.adm (pdats m) (defs₀ (F := F)) Variants.none noLev lev0 1
    launch1.win.to₀ launch1.block_pos launch1.stage_whole rfl
    (fun c => (body_obligation1 (Ve3 m) c).loose)
    (fun c => (Cert.LibRegion.ΦA_of (pcfgs (F := F)) Gen.adm 1 c).trans (hin1 (Ve3 m) c))
    (fun c => (hout1 (Ve3 m) c).trans (Cert.LibRegion.of_ΦA (pcfgs (F := F)) Gen.adm 1 c))
    (fun c t => rfl) (fun c => rfl)
    (Gen.V3 m (outs m)) (Gen.V4 m (outs m))
    (fun c => Cert.LibRegion.arrBufs_split_distinct cfg1 c (dat1 (Ve3 m) c) launch1.win.arr_inj launch1.arr_whole
      ((dat1 (Ve3 m) c).share_full fun _ => rfl) (fun b => Gen.V3 m (outs m) c b) _ (fun w => A_eq1 (Ve3 m) c w))
    (fun c => Cert.LibRegion.arrBufs_join_distinct cfg1 c (dat1 (Ve3 m) c) launch1.win.arr_inj launch1.arr_whole
      ((dat1 (Ve3 m) c).share_full fun _ => rfl) (fun b => Gen.V4 m (outs m) c b) _ (fun w => exit1 m c w))
    (fun c b hb => rest1 m c b hb)

/-- Every weakly fair execution terminates with every unscoped buffer at the last valuation. -/
theorem run_all (ρ : Dev nD → PrngReg) :
    θ_run (defs (F := F)) (onTc (τ := τ) (main (F := F))) ⟨m, fun _ => 0, ρ⟩
      (fun r => ∀ c : Dev nD, ∀ b ∈ Pipeline.ucRefs τ sig, r.2.mem ((c : Thread nD τ).1, b) = Gen.V4 m (outs m) c b) :=
  Gen.run_cond m emb₁ () Variants.none noLev lev0 (fun _ _ => rfl) ρ (outs m) (pdats m) 0 (fun _ => iprop(emp))
    (initOf (Pipeline.cells cfgs cellOf_inj) (Pipeline.launchToks cfgs cellOf_inj))
    (by
      -- the launch element is the pipelines' own; no ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Cert.LibRegion.R c)
    (by
      -- each core keeps its generator register, at the launch state, and owes nothing
      refine Pipeline.initEach noLev lev0 fun c => ?_
      iintro ⟨⟨-, HO, -, Hp, -⟩, -⟩
      imodintro
      isplitl [Hp]; · iexists _; iexact Hp
      iexists ∅; iexact HO)
    (fun c => by iintro ⟨-, HO⟩; iexact HO)
    (seg0R m) (fun c => .rfl) (fun c => .rfl)
    (seg1R m) (fun c => .rfl) (fun c => .rfl)

/-- The result array at the last valuation is what region 1's write-backs fold to. -/
theorem V4_v5 (c : Dev nD) : Gen.V4 m (outs m) c main_v5 = (dat1 (Ve3 m) c).arrAt 5 cfg1.N := by
  unfold Gen.V4
  rw [Function.update_self, outs_four]
  exact o4_arr m c 5

/-- THE FRAME: the six argument arrays end as launched. -/
theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c (Proc.devRef .tc main_arg0) (Finset.mem_filter.mpr ⟨StableHlo.devRef_mem_tcRefs main_arg0, by decide⟩)).trans (Gen.V4_main_arg0 m (outs m) c),
     (h c (Proc.devRef .tc main_arg1) (Finset.mem_filter.mpr ⟨StableHlo.devRef_mem_tcRefs main_arg1, by decide⟩)).trans (Gen.V4_main_arg1 m (outs m) c),
     (h c (Proc.devRef .tc main_arg2) (Finset.mem_filter.mpr ⟨StableHlo.devRef_mem_tcRefs main_arg2, by decide⟩)).trans (Gen.V4_main_arg2 m (outs m) c),
     (h c (Proc.devRef .tc main_arg3) (Finset.mem_filter.mpr ⟨StableHlo.devRef_mem_tcRefs main_arg3, by decide⟩)).trans (Gen.V4_main_arg3 m (outs m) c),
     (h c (Proc.devRef .tc main_arg4) (Finset.mem_filter.mpr ⟨StableHlo.devRef_mem_tcRefs main_arg4, by decide⟩)).trans (Gen.V4_main_arg4 m (outs m) c),
     (h c (Proc.devRef .tc main_arg5) (Finset.mem_filter.mpr ⟨StableHlo.devRef_mem_tcRefs main_arg5, by decide⟩)).trans (Gen.V4_main_arg5 m (outs m) c)⟩)
    (run_all m ρ)

/-- THE RUN WITH ITS RESULT: the result array ends at what region 1's write-backs fold to, the arguments as launched. -/
theorem run_result (ρ : Dev nD → PrngReg) :
    θ_run (defs (F := F)) (onTc (τ := τ) (main (F := F))) ⟨m, fun _ => 0, ρ⟩ (fun r => ∀ c : Dev nD,
      r.2.mem ((c.tc : Thread nD τ).loc main_v5) = (dat1 (Ve3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c (Proc.devRef .tc main_v5) (Finset.mem_filter.mpr ⟨StableHlo.devRef_mem_tcRefs main_v5, by decide⟩)).trans (V4_v5 m c),
     (h c (Proc.devRef .tc main_arg0) (Finset.mem_filter.mpr ⟨StableHlo.devRef_mem_tcRefs main_arg0, by decide⟩)).trans (Gen.V4_main_arg0 m (outs m) c),
     (h c (Proc.devRef .tc main_arg1) (Finset.mem_filter.mpr ⟨StableHlo.devRef_mem_tcRefs main_arg1, by decide⟩)).trans (Gen.V4_main_arg1 m (outs m) c),
     (h c (Proc.devRef .tc main_arg2) (Finset.mem_filter.mpr ⟨StableHlo.devRef_mem_tcRefs main_arg2, by decide⟩)).trans (Gen.V4_main_arg2 m (outs m) c),
     (h c (Proc.devRef .tc main_arg3) (Finset.mem_filter.mpr ⟨StableHlo.devRef_mem_tcRefs main_arg3, by decide⟩)).trans (Gen.V4_main_arg3 m (outs m) c),
     (h c (Proc.devRef .tc main_arg4) (Finset.mem_filter.mpr ⟨StableHlo.devRef_mem_tcRefs main_arg4, by decide⟩)).trans (Gen.V4_main_arg4 m (outs m) c),
     (h c (Proc.devRef .tc main_arg5) (Finset.mem_filter.mpr ⟨StableHlo.devRef_mem_tcRefs main_arg5, by decide⟩)).trans (Gen.V4_main_arg5 m (outs m) c)⟩)
    (run_all m ρ)

/-- Region 1 finds region 0's two output arrays at what region 0's write-backs fold to. -/
theorem Ve3_v2_0 (c : Dev nD) : Ve3 m c main_v2_0 = (dat0 (Ve1 m) c).arrAt 3 cfg0.N :=
  (Gen.V3_of m (outs m) c main_v2_0 (by decide)).trans (V2_v2_0 m c)
theorem Ve3_v2_1 (c : Dev nD) : Ve3 m c main_v2_1 = (dat0 (Ve1 m) c).arrAt 4 cfg0.N :=
  (Gen.V3_of m (outs m) c main_v2_1 (by decide)).trans (V2_v2_1 m c)
/-- … and the query input as launched. -/
theorem Ve3_arg0 (c : Dev nD) : Ve3 m c main_arg0 = m ((c : Thread nD τ).loc main_arg0) :=
  (Gen.V3_of m (fun _ => o2 m) c main_arg0 (by decide)).trans <| (Gen.V2_of m (fun _ => o2 m) c main_arg0 (by decide)).trans <|
    (Gen.V1_of m c main_arg0 (by decide)).trans rfl
/-- Region 0 finds the memory input as launched. -/
theorem Ve1_arg1 (c : Dev nD) : Ve1 m c main_arg1 = m ((c : Thread nD τ).loc main_arg1) :=
  (Gen.V1_of m c main_arg1 (by decide)).trans rfl
/-- The second host stretch reads the launch contents of the query weights and bias: nothing before it writes them. -/
theorem V2_arg2 (c : Dev nD) : Gen.V2 m (fun _ => o2 m) c main_arg2 = m ((c : Thread nD τ).loc main_arg2) :=
  (Gen.V2_of m (fun _ => o2 m) c main_arg2 (by decide)).trans <| (Gen.V1_of m c main_arg2 (by decide)).trans rfl
theorem V2_arg3 (c : Dev nD) : Gen.V2 m (fun _ => o2 m) c main_arg3 = m ((c : Thread nD τ).loc main_arg3) :=
  (Gen.V2_of m (fun _ => o2 m) c main_arg3 (by decide)).trans <| (Gen.V1_of m c main_arg3 (by decide)).trans rfl

end Cert.Kernel.Att

end
-- ==== Proof.KI.R0.lean ====
/-
  Region 0, the key projection: at each of its 8 grid points the body reads a block of 1024 memory rows, the
  transposed key weights and the bias row, and stores the block's projected rows (rows times weights plus bias)
  into the first output and the block's rows, narrowed, into the second. Stated at the contents `V` the region is
  entered from, at any float instance: the windows' blocks, what the two stores leave, the region's proof data,
  and that the body meets its obligation at every point.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_a : Rect S1024x512 := Rect.unit (s := S1024x512) ![0, 0] S1024x512.size inb_S1024x512_S1024x512_0_0
abbrev r0_b : Rect S512x512 := Rect.unit (s := S512x512) ![0, 0] S512x512.size inb_S512x512_S512x512_0_0
abbrev r0_c : Rect S1x512 := Rect.unit (s := S1x512) ![0, 0] S1x512.size inb_S1x512_S1x512_0_0

/-- What the body leaves in the first output's buffer: the projected rows. -/
def out0_3 (x0 : Vec F S1024x512 .f32) (x1 : Vec F S512x512 .f32) (x2 : Vec F S1x512 .f32) : Vec F S1024x512 .f32 :=
  View.canon [⟨r0_a, k0_pay1 (View.ld x0 r0_a) (View.ld x1 r0_b) (View.ld x2 r0_c)⟩]

/-- What the body leaves in the second output's buffer: the rows, narrowed. -/
def out0_4 (x0 : Vec F S1024x512 .f32) : Vec F S1024x512 .bf16 :=
  View.canon [⟨r0_a, k0_pay2 (View.ld x0 r0_a)⟩]

/-- The region's proof data on core `c`: the arrays as found; after the body each input's buffer at its block, each
    output's at what the stores leave; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

/-! ## The inputs' buffers hold their blocks

An input window is never written by the body, so its buffer keeps the block last brought in. Where the window was
not brought in again at a point, its block index did not move since the previous point, and the block kept is this
point's block. Hence at every point the buffer the body reads holds the window's block there. -/

/-- The rows' buffer holds the block of rows of its point. -/
theorem held0_0 (c : Dev nD) (t : Fin cfg0.N) (d) : (dat0 V c).before 0 t d = iblk0 V c 0 t := by
  have kept : ∀ u, (cfg0.win 0).cut (cfg0.grid.coords u) ((dat0 V c).after 0 u) = (dat0 V c).blockOf 0 u := by
    intro u
    rw [after0_0]
    unfold Dat.blockOf iblk0
    rw [A_eq0]
    try rfl
  rw [(dat0 V c).before_in_eq_fetched 0 rfl (fun _ => rfl) (fun _ _ _ => rfl) kept t d]
  unfold Dat.fetched Dat.blockOf iblk0
  rw [A_eq0]
  try rfl

/-- The weights' buffer holds the (one) block of weights at every point. -/
theorem held0_1 (c : Dev nD) (t : Fin cfg0.N) (d) : (dat0 V c).before 1 t d = iblk0 V c 1 t := by
  have kept : ∀ u, (cfg0.win 1).cut (cfg0.grid.coords u) ((dat0 V c).after 1 u) = (dat0 V c).blockOf 1 u := by
    intro u
    rw [after0_1]
    unfold Dat.blockOf iblk0
    rw [A_eq0]
    try rfl
  rw [(dat0 V c).before_in_eq_fetched 1 rfl (fun _ => rfl) (fun _ _ _ => rfl) kept t d]
  unfold Dat.fetched Dat.blockOf iblk0
  rw [A_eq0]
  try rfl

/-- The bias row's buffer holds the (one) bias row at every point. -/
theorem held0_2 (c : Dev nD) (t : Fin cfg0.N) (d) : (dat0 V c).before 2 t d = iblk0 V c 2 t := by
  have kept : ∀ u, (cfg0.win 2).cut (cfg0.grid.coords u) ((dat0 V c).after 2 u) = (dat0 V c).blockOf 2 u := by
    intro u
    rw [after0_2]
    unfold Dat.blockOf iblk0
    rw [A_eq0]
    try rfl
  rw [(dat0 V c).before_in_eq_fetched 2 rfl (fun _ => rfl) (fun _ _ _ => rfl) kept t d]
  unfold Dat.fetched Dat.blockOf iblk0
  rw [A_eq0]
  try rfl

/-! ## Each output is one store of its whole block -/

/-- The one store into the first output covers every index of its buffer, whatever is stored. -/
theorem whole0_3 (p : Vec F S1024x512 .f32) (y : S1024x512.Idx) :
    ∃ pc ∈ ([⟨r0_a, p⟩] : List (View.Piece (Elt F) S1024x512 .f32)), y ∈ pc.1.set :=
  View.cover_of_tiled [⟨r0_a, p⟩] S1024x512.size (by rfl) y

/-- The one store into the second output covers every index of its buffer, whatever is stored. -/
theorem whole0_4 (p : Vec F S1024x512 .bf16) (y : S1024x512.Idx) :
    ∃ pc ∈ ([⟨r0_a, p⟩] : List (View.Piece (Elt F) S1024x512 .bf16)), y ∈ pc.1.set :=
  View.cover_of_tiled [⟨r0_a, p⟩] S1024x512.size (by rfl) y

/-! ## The body on whole buffers -/

set_option maxHeartbeats 1000000 in
/-- Run on five whole buffers, the three inputs reading `x0`, `x1`, `x2` and the two outputs holding anything, the body
    ends with the inputs as they were, the first output reading the projected rows and the second the narrowed rows. -/
theorem body_runs0 (c : Dev nD) (E : Set ℕ) (i : grid0.Coords)
    (a0 : Memref sig .tc .vmem S1024x512 .f32) (h0 : a0.IsWhole)
    (a1 : Memref sig .tc .vmem S512x512 .f32) (h1 : a1.IsWhole)
    (a2 : Memref sig .tc .vmem S1x512 .f32) (h2 : a2.IsWhole)
    (a3 : Memref sig .tc .vmem S1024x512 .f32) (h3 : a3.IsWhole)
    (a4 : Memref sig .tc .vmem S1024x512 .bf16) (h4 : a4.IsWhole)
    (x0 : Vec F S1024x512 .f32) (x1 : Vec F S512x512 .f32) (x2 : Vec F S1x512 .f32) (K : PUnit → sProp 𝕄) :
    iprop(owns (c : Thread nD τ) a0 fullShare x0 ∗ owns (c : Thread nD τ) a1 fullShare x1
        ∗ owns (c : Thread nD τ) a2 fullShare x2
        ∗ (∃ d, owns (c : Thread nD τ) a3 fullShare d) ∗ (∃ d, owns (c : Thread nD τ) a4 fullShare d)
        ∗ (iprop(owns (c : Thread nD τ) a0 fullShare x0 ∗ owns (c : Thread nD τ) a1 fullShare x1
            ∗ owns (c : Thread nD τ) a2 fullShare x2
            ∗ owns (c : Thread nD τ) a3 fullShare (out0_3 x0 x1 x2)
            ∗ owns (c : Thread nD τ) a4 fullShare (out0_4 x0)) -∗ K ⟨⟩))
      ⊢ wp frame (wpE (defs₀ (F := F)) Variants.none c none) E (cc0__kv_prep_kernel i a0 h0 a1 h1 a2 h2 a3 h3 a4 h4) K := by
  simp only [cc0__kv_prep_kernel_eq_skeleton]; unfold cc0__kv_prep_kernel_skel
  unfold owns
  iintro ⟨⟨%f0, %e0, H0⟩, ⟨%f1, %e1, H1⟩, ⟨%f2, %e2, H2⟩, ⟨%d3, %f3, -, H3⟩, ⟨%d4, %f4, -, H4⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole0_3 _)
  iexists _; isplitr
  swap; · iexact H4
  ipureintro
  exact View.read_writes_eq_canon _ _ _ (whole0_4 _)

/-! ## The body at a point of the grid -/

/-- What the body is handed at point `t`: the class invariant, what is owed, and each window's current buffer. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debts, each buffer at what the proof data says the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the inputs' buffers hold their blocks, so the body runs as on whole buffers; the invariant and the
    debts are not touched. -/
theorem body_at0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_runs0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets the pipeline's obligation at every point. -/
theorem body_obligation0 (c : Dev nD) : BodyObligation (dat0 (F := F) V c) (defs₀ (F := F)) Variants.none () Set.univ := fun t => by
  rw [bigSep_W0, bigSep_W0]
  exact body_at0 V c t

end Cert.KernelIdeal.Att

end
-- ==== Proof.KI.R1Def.lean ====
/-
  Region 1, the attention proper, as data. Its grid is 8 query tiles by 16 key tiles, walked key tile fastest. Four
  scratch buffers carry a state from point to point: the tile's projected queries, and per query row the running
  maximum of the scores, the running denominator and the running numerator of the softmax-weighted average. At the
  first key tile of a query tile the state is reset from the query block (`scReset`); every point then folds its
  key and value blocks into the state (`scStep`); at the last key tile the output block is the half-and-half blend
  of the query block with numerator over denominator (`outLast`). `scAt` is the state after each point, `PhiS1` the
  region's invariant holding the four scratch buffers at it, `dat1` the region's proof data.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state: projected queries, running maximum, running denominator, running numerator. -/
abbrev Sc (F : FTy → Type) [FloatOps F] : Type :=
  Vec F S1024x512 .f32 × Vec F S1024x1 .f32 × Vec F S1024x1 .f32 × Vec F S1024x512 .f32

/-- The state a query tile starts from: the query block projected, maximum at minus infinity, sums at zero. -/
def scReset (x0 : Vec F S1024x512 .f32) (x1 : Vec F S512x512 .f32) (x2 : Vec F S1x512 .f32) : Sc F :=
  (k1_pay5 x0 x1 x2, k1_pay6, k1_pay7, k1_pay8)

/-- One key tile folded into the state: `x3` the key block, `x4` the value block. -/
def scStep (s : Sc F) (x3 : Vec F S512x512 .f32) (x4 : Vec F S512x512 .bf16) : Sc F :=
  (s.1,
   k1_pay3 (k1_pay11 s.1 x3 s.2.1),
   k1_pay1 (k1_pay14 s.1 x3 s.2.1 s.2.1 s.2.2.1),
   k1_pay2 (k1_pay9 x4) (k1_pay12 s.1 x3 s.2.1 s.2.1) (k1_pay13 s.1 x3 s.2.1) s.2.2.2)

/-- The output block at a last key tile: the blend of the query block `x0` with numerator over denominator. -/
def outLast (s : Sc F) (x0 : Vec F S1024x512 .f32) : Vec F S1024x512 .f32 :=
  k1_pay4 s.2.2.2 s.2.2.1 x0

/-- The state after the point at position `n`: at a first key tile (`n` a multiple of 16) reset from the point's
    query block, otherwise what the point before left; then the point's key and value blocks folded in. -/
def scAt (c : Dev nD) : (n : ℕ) → n < cfg1.N → Sc F
  | 0, hn => scStep (scReset (iblk1 V c 0 ⟨0, hn⟩) (iblk1 V c 1 ⟨0, hn⟩) (iblk1 V c 2 ⟨0, hn⟩)) (iblk1 V c 3 ⟨0, hn⟩) (iblk1 V c 4 ⟨0, hn⟩)
  | n + 1, hn =>
    scStep (if (n + 1) % 16 = 0 then scReset (iblk1 V c 0 ⟨n + 1, hn⟩) (iblk1 V c 1 ⟨n + 1, hn⟩) (iblk1 V c 2 ⟨n + 1, hn⟩)
            else scAt c n (Nat.lt_of_succ_lt hn))
      (iblk1 V c 3 ⟨n + 1, hn⟩) (iblk1 V c 4 ⟨n + 1, hn⟩)

theorem scAt_first (c : Dev nD) (t : Fin cfg1.N) (h : t.val % 16 = 0) :
    scAt V c t.val t.isLt = scStep (scReset (iblk1 V c 0 t) (iblk1 V c 1 t) (iblk1 V c 2 t)) (iblk1 V c 3 t) (iblk1 V c 4 t) := by
  obtain ⟨n, hn⟩ := t
  cases n with
  | zero => rfl
  | succ n => exact congrArg (fun s => scStep s _ _) (if_pos h)

theorem scAt_next (c : Dev nD) (t : Fin cfg1.N) (h : ¬ t.val % 16 = 0) :
    scAt V c t.val t.isLt = scStep (scAt V c (t.val - 1) (Nat.lt_of_le_of_lt (Nat.sub_le _ _) t.isLt)) (iblk1 V c 3 t) (iblk1 V c 4 t) := by
  obtain ⟨n, hn⟩ := t
  cases n with
  | zero => exact absurd (Nat.zero_mod _) h
  | succ n => exact congrArg (fun s => scStep s _ _) (if_neg h)

/-- The four scratch buffers, whole. -/
abbrev scM1_0 : Memref sig .tc .vmem S1024x512 .f32 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x512 .f32 := Memref.whole cc1_scratch3
abbrev scList : List (Ref sig .tc) := [cc1_scratch0, cc1_scratch1, cc1_scratch2, cc1_scratch3]

/-- The scoped buffers of the core that are neither this region's staging buffers nor its scratch, at anything. -/
abbrev restBut (c : Dev nD) : sProp 𝕄 :=
  Pipeline.scopedRestBut (Ix := Unit) (Name := ℕ) (U := UR sig nD τ) (Lvl := ℕ) (Val := Elt F) spec1 c scList

/-- The region's invariant before position `n`: before the first point every scratch buffer at anything (the class
    invariant); afterwards the four scratch buffers at the state the point before left, the other scoped buffers at
    anything, the generator register at some state. -/
def PhiS1 (c : Dev nD) : (n : ℕ) → n ≤ cfg1.N → sProp 𝕄
  | 0, _ => Pipeline.ΦA spec1 c
  | n + 1, hn => iprop(owns (c : Thread nD τ) scM1_0 fullShare (scAt V c n hn).1
      ∗ owns (c : Thread nD τ) scM1_1 fullShare (scAt V c n hn).2.1
      ∗ owns (c : Thread nD τ) scM1_2 fullShare (scAt V c n hn).2.2.1
      ∗ owns (c : Thread nD τ) scM1_3 fullShare (scAt V c n hn).2.2.2
      ∗ restBut (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (scAt V c n hn).1
      ∗ owns (c : Thread nD τ) scM1_1 fullShare (scAt V c n hn).2.1
      ∗ owns (c : Thread nD τ) scM1_2 fullShare (scAt V c n hn).2.2.1
      ∗ owns (c : Thread nD τ) scM1_3 fullShare (scAt V c n hn).2.2.2
      ∗ restBut (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (scAt V c (n - 1) (by omega)).1
      ∗ owns (c : Thread nD τ) scM1_1 fullShare (scAt V c (n - 1) (by omega)).2.1
      ∗ owns (c : Thread nD τ) scM1_2 fullShare (scAt V c (n - 1) (by omega)).2.2.1
      ∗ owns (c : Thread nD τ) scM1_3 fullShare (scAt V c (n - 1) (by omega)).2.2.2
      ∗ restBut (F := F) c ∗ (∃ r, prngReg c r)) := by
  cases n with
  | zero => exact absurd rfl hz
  | succ n => rfl

/-- The region's proof data on core `c`: the arrays as found; after the body each input's buffer at its block and
    the output's at the blend of the state after the point (consulted only at last key tiles, where the block is
    stored and written back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outLast (scAt V c t.val t.isLt) (iblk1 V c 0 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = outLast (scAt V c t.val t.isLt) (iblk1 V c 0 t) := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) : (dat1 V c).Φ t.succ = PhiS1 V c (t.val + 1) t.isLt := rfl

end Cert.KernelIdeal.Att

end
-- ==== Proof.KI.R1Conds.lean ====
/-
  Region 1's two branch conditions as functions of the grid coordinates, decided over the grid: the first holds
  exactly at the first key tile of a query tile, the second exactly at the last.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import proofs.«424890_j49589692400271_3_alg».proof.Proof.KI.R1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition, from the grid coordinates: the key-tile coordinate is 0. -/
abbrev cond1_0 (i : grid1.Coords) : Prop :=
  (Scalar.cmpi .ne (Scalar.extui (Scalar.cmpi .eq (BitVec.ofNat 32 (i 1).val) 0#32)) 0#32) = 1#1
/-- It holds exactly at the first key tile of each query tile. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch's condition: the key-tile coordinate is 15. -/
abbrev cond1_1 (i : grid1.Coords) : Prop := k1_cond2 i = 1#1
/-- It holds exactly at the last key tile of each query tile. -/
theorem hcond1_1 : ∀ t : Fin cfg1.N, cond1_1 (grid1.coords t) ↔ t.val % 16 = 15 :=
  (by decide +kernel : ∀ t : Fin grid1.N, cond1_1 (grid1.coords t) ↔ t.val % 16 = 15)

end Cert.KernelIdeal.Att

end
-- ==== Proof.KI.R1RunA.lean ====
/-
  Region 1's body at a FIRST key tile, on any whole staging and scratch buffers: it runs to the end with the input
  buffers as they were and the four scratch buffers at the carried state one step on.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import proofs.«424890_j49589692400271_3_alg».proof.Proof.KI.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets `![0, 0]` are the zero offsets. -/
private theorem off0 : (![0, 0] : Fin 2 → ℕ) = fun _ => 0 := by decide

set_option maxHeartbeats 1000000 in
/-- FIRST key tile: the scratch buffers at anything; they end at one step from the reset state. -/
theorem run1_A (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole)
    (hc0 : cond1_0 i) (hc1 : ¬cond1_1 i) (x0 : Vec F S1024x512 .f32) (x1 : Vec F S512x512 .f32) (x2 : Vec F S1x512 .f32) (x3 : Vec F S512x512 .f32) (x4 : Vec F S512x512 .bf16) (xi5 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (scStep (scReset x0 x1 x2) x3 x4).1 ∗ owns (c : Thread nD τ) arg9 fullShare (scStep (scReset x0 x1 x2) x3 x4).2.1 ∗ owns (c : Thread nD τ) arg10 fullShare (scStep (scReset x0 x1 x2) x3 x4).2.2.1 ∗ owns (c : Thread nD τ) arg11 fullShare (scStep (scReset x0 x1 x2) x3 x4).2.2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  -- the body runs: the first branch taken (the reset), the second not (no output store)
  sl_exec (disch := first | exact hc0 | exact hc1)
  sl_step
  iapply Hk
  -- the five inputs and the output block were only read, or not touched at all: they read as before
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap
    · iexact H8
    ipureintro
    sl_unfold_words
    dsimp only [scStep, scReset]
    -- the projected queries: one store through the whole block, so the block reads its payload, the projection of the query block
    refine (View.read_writes_eq_canon _ _ _ (fun y => ?_)).trans ?_
    · exact ⟨_, List.Mem.head _, View.mem_set_unit_zero off0 inb_S1024x512_S1024x512_0_0 y⟩
    rw [View.canon_unit_zero (S := S1024x512) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]
  isplitl [H9]
  · iexists _; isplitr; swap
    · iexact H9
    ipureintro
    sl_unfold_words
    dsimp only [scStep, scReset]
    -- the running maximum: reset, then stored again through the whole block; the later store's payload is what is left, and its loads read what the reset stored
    refine (View.read_writes_eq_canon _ _ _ (fun y => ?_)).trans ?_
    · exact ⟨_, List.Mem.head _, View.mem_set_unit_zero off0 inb_S1024x1_S1024x1_0_0 y⟩
    rw [View.canon_cons_unit_zero (S := S1024x1) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]
  isplitl [H10]
  · iexists _; isplitr; swap
    · iexact H10
    ipureintro
    sl_unfold_words
    dsimp only [scStep, scReset]
    -- the running denominator: the same, the later of two whole-block stores
    refine (View.read_writes_eq_canon _ _ _ (fun y => ?_)).trans ?_
    · exact ⟨_, List.Mem.head _, View.mem_set_unit_zero off0 inb_S1024x1_S1024x1_0_0 y⟩
    rw [View.canon_cons_unit_zero (S := S1024x1) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]
  · iexists _; isplitr; swap
    · iexact H11
    ipureintro
    sl_unfold_words
    dsimp only [scStep, scReset]
    -- the running numerator: the same, the later of two whole-block stores
    refine (View.read_writes_eq_canon _ _ _ (fun y => ?_)).trans ?_
    · exact ⟨_, List.Mem.head _, View.mem_set_unit_zero off0 inb_S1024x512_S1024x512_0_0 y⟩
    rw [View.canon_cons_unit_zero (S := S1024x512) off0]
    simp only [View.readAt_eq_ld, harg2.read_unread, harg3.read_unread, harg4.read_unread, harg5.read_unread, harg6.read_unread,
      View.readCov_unit_zero (S := S1024x512) _ off0, View.readCov_unit_zero (S := S1024x1) _ off0,
      View.ld_unit_zero (S := S1024x512) off0, View.ld_unit_zero (S := S512x512) off0, View.ld_unit_zero (S := S1x512) off0]

end Cert.KernelIdeal.Att

end
-- ==== Proof.KI.R1RunB.lean ====
/-
  Region 1's body at a MIDDLE key tile, on any whole staging and scratch buffers: it runs to the end with the input
  buffers as they were and the four scratch buffers at the carried state one step on.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import proofs.«424890_j49589692400271_3_alg».proof.Proof.KI.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, however spelt, are the constant zero. -/
private theorem off00 : (![0, 0] : Fin 2 → Nat) = fun _ => 0 := funext fun a => by fin_cases a <;> rfl

/-- A buffer whose only store went through the whole-shape rectangle at zero offsets reads as that store's payload,
    whatever it held before: the one piece covers every index, and its canon is the payload. -/
private theorem read_one_whole_store {sg : RefSig} {κ : Kind} {sp : Space} {S : Shape} {e : EltTy}
    (v : View sg κ sp S e) (f : v.ty.Contents (Elt F)) {off : Fin S.rank → Nat} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  have cover : ∀ y : S.Idx, ∃ p ∈ [(⟨Rect.unit off S.size inb, w⟩ : View.Piece (Elt F) S e)], y ∈ p.1.set :=
    fun y => ⟨_, List.mem_singleton_self _, View.mem_set_unit_zero hz inb y⟩
  rw [View.read_writes_eq_canon _ _ _ cover, View.canon_unit_zero hz inb]

set_option maxHeartbeats 1000000 in
/-- MIDDLE key tile: the scratch buffers at a state `s`; they end one step on. -/
theorem run1_B (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole)
    (hc0 : ¬cond1_0 i) (hc1 : ¬cond1_1 i) (x0 : Vec F S1024x512 .f32) (x1 : Vec F S512x512 .f32) (x2 : Vec F S1x512 .f32) (x3 : Vec F S512x512 .f32) (x4 : Vec F S512x512 .bf16) (xi5 : Vec F S1024x512 .f32) (s : Sc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (scStep s x3 x4).1 ∗ owns (c : Thread nD τ) arg9 fullShare (scStep s x3 x4).2.1 ∗ owns (c : Thread nD τ) arg10 fullShare (scStep s x3 x4).2.2.1 ∗ owns (c : Thread nD τ) arg11 fullShare (scStep s x3 x4).2.2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  -- the body as its memory operations over the payloads, the first sixty statements' part opened in place
  simp only [cc1__attn_kernel_eq_skeleton]; unfold cc1__attn_kernel_skel
  simp only [k1_part1_eq_skeleton]; unfold k1_part1_skel
  -- every buffer's contents named through its whole view
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  -- both branches are skipped at a middle key tile; the loads and the three stores run in order
  sl_exec (disch := first | exact hc0 | exact hc1)
  sl_step
  iapply Hk
  -- the five inputs, the idle output and the projected queries were only read: each is handed back as it was
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  -- the running maximum: one store through the whole buffer, of the new maximum
  isplitl [H9]
  · iexists _; isplitr; swap
    · iexact H9
    ipureintro
    sl_unfold_words
    refine (read_one_whole_store _ _ off00 _ _).trans ?_
    dsimp only [scStep]
    simp only [View.readAt_eq_ld, Memref.IsWhole.read_unread, View.ld_unit_zero (S := S1024x512) off00,
      View.ld_unit_zero (S := S512x512) off00, View.ld_unit_zero (S := S1024x1) off00]
  -- the running denominator: one store through the whole buffer, of the rescaled sum
  isplitl [H10]
  · iexists _; isplitr; swap
    · iexact H10
    ipureintro
    sl_unfold_words
    refine (read_one_whole_store _ _ off00 _ _).trans ?_
    dsimp only [scStep]
    simp only [View.readAt_eq_ld, Memref.IsWhole.read_unread, View.ld_unit_zero (S := S1024x512) off00,
      View.ld_unit_zero (S := S512x512) off00, View.ld_unit_zero (S := S1024x1) off00]
  -- the running numerator: loaded, then one store through the whole buffer of the rescaled numerator plus this tile's share
  iexists _; isplitr; swap
  · iexact H11
  ipureintro
  sl_unfold_words
  refine (read_one_whole_store _ _ off00 _ _).trans ?_
  dsimp only [scStep]
  simp only [View.readAt_eq_ld, Memref.IsWhole.read_unread, View.ld_unit_zero (S := S1024x512) off00,
    View.ld_unit_zero (S := S512x512) off00, View.ld_unit_zero (S := S1024x1) off00]

end Cert.KernelIdeal.Att

end
-- ==== Proof.KI.R1RunC.lean ====
/-
  Region 1's body at a LAST key tile, on any whole staging and scratch buffers: it runs to the end with the input
  buffers as they were and the four scratch buffers at the carried state one step on.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import proofs.«424890_j49589692400271_3_alg».proof.Proof.KI.R1Conds
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, however they are spelt. -/
private theorem hzC : (![0, 0] : Fin 2 → Nat) = fun _ => 0 := funext fun a => by fin_cases a <;> rfl

/-- A store through the whole-shape rectangle at zero offsets, made last, leaves its payload in the buffer: that one
    piece covers every index, so the earlier stores and the prior contents are not read. -/
private theorem read_writes_wholeC {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

set_option maxHeartbeats 1000000 in
/-- LAST key tile: the scratch buffers at a state `s`, the output buffer at anything; the scratch ends one step on
    and the output buffer at the blend of that state with the query block. -/
theorem run1_C (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole)
    (hc0 : ¬cond1_0 i) (hc1 : cond1_1 i) (x0 : Vec F S1024x512 .f32) (x1 : Vec F S512x512 .f32) (x2 : Vec F S1x512 .f32) (x3 : Vec F S512x512 .f32) (x4 : Vec F S512x512 .bf16) (s : Sc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare (s).1 ∗ owns (c : Thread nD τ) arg9 fullShare (s).2.1 ∗ owns (c : Thread nD τ) arg10 fullShare (s).2.2.1 ∗ owns (c : Thread nD τ) arg11 fullShare (s).2.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outLast (scStep s x3 x4) x0)
            ∗ owns (c : Thread nD τ) arg8 fullShare (scStep s x3 x4).1 ∗ owns (c : Thread nD τ) arg9 fullShare (scStep s x3 x4).2.1 ∗ owns (c : Thread nD τ) arg10 fullShare (scStep s x3 x4).2.2.1 ∗ owns (c : Thread nD τ) arg11 fullShare (scStep s x3 x4).2.2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  -- the body and its first part as their sequences of loads, stores and branches over the payloads
  simp only [cc1__attn_kernel_eq_skeleton]; unfold cc1__attn_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  -- a whole buffer's raw contents are determined by what it reads: each input and scratch buffer at the contents
  -- reading its block or its component of the state; the output buffer's contents stay arbitrary
  obtain rfl := harg2.eq_unread hf2; obtain rfl := harg3.eq_unread hf3; obtain rfl := harg4.eq_unread hf4
  obtain rfl := harg5.eq_unread hf5; obtain rfl := harg6.eq_unread hf6
  obtain rfl := harg8.eq_unread hf8; obtain rfl := harg9.eq_unread hf9; obtain rfl := harg10.eq_unread hf10; obtain rfl := harg11.eq_unread hf11
  -- the run: the reset branch is skipped (not a first key tile), the output branch is taken (a last key tile)
  sl_exec (disch := first | exact hc0 | exact hc1)
  sl_step
  iapply Hk
  -- the query block, the projection weights and bias, the key and value blocks: loaded only
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- the output block: one whole-block store of the blend of the query block with the numerator over the denominator,
  -- both read back AFTER this point's stores into them, so they are the stepped state's
  isplitl [H7]
  · iexists _; isplitr; swap; · iexact H7
    ipureintro
    -- the store covers the block; every load through the whole block reads the contents, a load after the one store its payload
    sl_unfold_words
    refine (read_writes_wholeC _ _ hzC _ _ _).trans ?_
    dsimp only [scStep, outLast]
    simp only [View.readAt_eq_ld, Memref.IsWhole.read_unread, View.readCov_unit_zero (S := S1024x512) _ hzC,
      View.readCov_unit_zero (S := S1024x1) _ hzC, View.ld_unit_zero (S := S1024x512) hzC,
      View.ld_unit_zero (S := S512x512) hzC, View.ld_unit_zero (S := S1024x1) hzC]
  -- the projected queries: loaded only, and the step leaves them as they are
  isplitl [H8]
  · iexists _; isplitr; · ipureintro; exact harg8.read_unread _
    iexact H8
  -- the running maximum: one whole-block store of the maximum of the old one with the scores' row maxima
  isplitl [H9]
  · iexists _; isplitr; swap; · iexact H9
    ipureintro
    -- as for the output block
    sl_unfold_words
    refine (read_writes_wholeC _ _ hzC _ _ _).trans ?_
    dsimp only [scStep, outLast]
    simp only [View.readAt_eq_ld, Memref.IsWhole.read_unread, View.readCov_unit_zero (S := S1024x512) _ hzC,
      View.readCov_unit_zero (S := S1024x1) _ hzC, View.ld_unit_zero (S := S1024x512) hzC,
      View.ld_unit_zero (S := S512x512) hzC, View.ld_unit_zero (S := S1024x1) hzC]
  -- the running denominator: one whole-block store of the rescaled old one plus the row sums of the exponentials
  isplitl [H10]
  · iexists _; isplitr; swap; · iexact H10
    ipureintro
    -- as for the output block
    sl_unfold_words
    refine (read_writes_wholeC _ _ hzC _ _ _).trans ?_
    dsimp only [scStep, outLast]
    simp only [View.readAt_eq_ld, Memref.IsWhole.read_unread, View.readCov_unit_zero (S := S1024x512) _ hzC,
      View.readCov_unit_zero (S := S1024x1) _ hzC, View.ld_unit_zero (S := S1024x512) hzC,
      View.ld_unit_zero (S := S512x512) hzC, View.ld_unit_zero (S := S1024x1) hzC]
  -- the running numerator: one whole-block store of the rescaled old one plus the exponentials times the value block
  iexists _; isplitr; swap; · iexact H11
  ipureintro
  -- as for the output block
  sl_unfold_words
  refine (read_writes_wholeC _ _ hzC _ _ _).trans ?_
  dsimp only [scStep, outLast]
  simp only [View.readAt_eq_ld, Memref.IsWhole.read_unread, View.readCov_unit_zero (S := S1024x512) _ hzC,
    View.readCov_unit_zero (S := S1024x1) _ hzC, View.ld_unit_zero (S := S1024x512) hzC,
    View.ld_unit_zero (S := S512x512) hzC, View.ld_unit_zero (S := S1024x1) hzC]

end Cert.KernelIdeal.Att

end
-- ==== Proof.KI.R1Runs.lean ====
/-
  Region 1's body in its three control cases (first, middle, last key tile), collected.
-/
import proofs.«424890_j49589692400271_3_alg».proof.Proof.KI.R1RunA
import proofs.«424890_j49589692400271_3_alg».proof.Proof.KI.R1RunB
import proofs.«424890_j49589692400271_3_alg».proof.Proof.KI.R1RunC
-- ==== Proof.KI.R1Body.lean ====
/-
  Region 1's body meets the pipeline's obligation at every one of its 128 points, and its invariant is entered
  from and returned to the class invariant. A point is in one of three cases by its key-tile coordinate (the
  position modulo 16): first (the carried state is reset), middle, last (the output block is stored and written
  back; elsewhere the output window is idle and its buffer is handed back as found). The invariant hands the body
  the four scratch buffers at the state the point before left (at anything before the first point) and takes
  them back at the state after this point.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import proofs.«424890_j49589692400271_3_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What the body finds in the input windows -/

/-- The block a fetch of window `w` reads at point `t` is the block read off the array as the region found it. -/
theorem blockOf1 (c : Dev nD) (w : Fin cfg1.W) (t : Fin cfg1.N) : (dat1 V c).blockOf w t = iblk1 V c w t := by
  unfold Dat.blockOf iblk1; rw [A_eq1]

/-- The query block's buffer holds the query block at every point: the window is an input, never idle, its blocks
    uncut, and the body leaves the block where it found it; so between fetches (one per query tile) nothing moves. -/
theorem before1_0 (c : Dev nD) (t : Fin cfg1.N) (d) : (dat1 V c).before 0 t d = iblk1 V c 0 t := by
  have hk : ∀ s, (cfg1.win 0).cut (cfg1.grid.coords s) ((dat1 V c).after 0 s) = (dat1 V c).blockOf 0 s := fun s => by
    rw [after1_0, blockOf1]
  rw [(dat1 V c).before_in_eq_fetched 0 rfl (fun _ => rfl) (fun _ _ _ => rfl) hk t d]
  unfold Dat.fetched; rw [blockOf1]; rfl

/-- The projection weights' buffer, fetched at the first point only, holds them at every point. -/
theorem before1_1 (c : Dev nD) (t : Fin cfg1.N) (d) : (dat1 V c).before 1 t d = iblk1 V c 1 t := by
  have hk : ∀ s, (cfg1.win 1).cut (cfg1.grid.coords s) ((dat1 V c).after 1 s) = (dat1 V c).blockOf 1 s := fun s => by
    rw [after1_1, blockOf1]
  rw [(dat1 V c).before_in_eq_fetched 1 rfl (fun _ => rfl) (fun _ _ _ => rfl) hk t d]
  unfold Dat.fetched; rw [blockOf1]; rfl

/-- The projection bias' buffer, fetched at the first point only, holds it at every point. -/
theorem before1_2 (c : Dev nD) (t : Fin cfg1.N) (d) : (dat1 V c).before 2 t d = iblk1 V c 2 t := by
  have hk : ∀ s, (cfg1.win 2).cut (cfg1.grid.coords s) ((dat1 V c).after 2 s) = (dat1 V c).blockOf 2 s := fun s => by
    rw [after1_2, blockOf1]
  rw [(dat1 V c).before_in_eq_fetched 2 rfl (fun _ => rfl) (fun _ _ _ => rfl) hk t d]
  unfold Dat.fetched; rw [blockOf1]; rfl

/-- The key block's buffer, fetched at every point, holds the point's key block. -/
theorem before1_3 (c : Dev nD) (t : Fin cfg1.N) (d) : (dat1 V c).before 3 t d = iblk1 V c 3 t := by
  have hk : ∀ s, (cfg1.win 3).cut (cfg1.grid.coords s) ((dat1 V c).after 3 s) = (dat1 V c).blockOf 3 s := fun s => by
    rw [after1_3, blockOf1]
  rw [(dat1 V c).before_in_eq_fetched 3 rfl (fun _ => rfl) (fun _ _ _ => rfl) hk t d]
  unfold Dat.fetched; rw [blockOf1]; rfl

/-- The value block's buffer, fetched at every point, holds the point's value block. -/
theorem before1_4 (c : Dev nD) (t : Fin cfg1.N) (d) : (dat1 V c).before 4 t d = iblk1 V c 4 t := by
  have hk : ∀ s, (cfg1.win 4).cut (cfg1.grid.coords s) ((dat1 V c).after 4 s) = (dat1 V c).blockOf 4 s := fun s => by
    rw [after1_4, blockOf1]
  rw [(dat1 V c).before_in_eq_fetched 4 rfl (fun _ => rfl) (fun _ _ _ => rfl) hk t d]
  unfold Dat.fetched; rw [blockOf1]; rfl

/-! ## Where the windows are live -/

/-- The five input windows are live at every point. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl

/-- Away from the last key tile the output window is idle, -/
theorem idle1_5 : ∀ t : Fin cfg1.N, ¬ t.val % 16 = 15 → cfg1.idle 5 (grid1.coords t) = true :=
  (by decide +kernel : ∀ t : Fin grid1.N, ¬ t.val % 16 = 15 → idle1 5 (grid1.coords t) = true)
/-- and its block is not written back; -/
theorem noFlush1_5 : ∀ t : Fin cfg1.N, ¬ t.val % 16 = 15 → (cfg1.win 5).flush t = false :=
  (by decide +kernel : ∀ t : Fin grid1.N, ¬ t.val % 16 = 15 → win1_5.flush t = false)
/-- at the last key tile it is live. -/
theorem live1_5 : ∀ t : Fin cfg1.N, t.val % 16 = 15 → cfg1.idle 5 (grid1.coords t) = false :=
  (by decide +kernel : ∀ t : Fin grid1.N, t.val % 16 = 15 → idle1 5 (grid1.coords t) = false)

/-! ## The class invariant, opened at the four scratch buffers -/

/-- The class invariant with the four scratch buffers named, each owned whole at some contents, beside the other
    scoped buffers and the generator register: what the invariant before the first point hands the body. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d))
        ∗ restBut (F := F) c ∗ ∃ r, prngReg c r) := by
  unfold Pipeline.ΦA
  rw [Pipeline.scopedRest_split_of_list spec1 c scList (by decide) (by decide)]
  simp only [scList, BI.bigSepL_cons_cons, BI.bigSepL_singleton, scM1_0, scM1_1, scM1_2, scM1_3, owns_whole]
  have toR : ∀ P Q R : sProp 𝕄, iprop((P ∗ Q) ∗ R) ⊢ iprop(P ∗ Q ∗ R) := fun _ _ _ => Laws.sep_assoc.1
  have toL : ∀ P Q R : sProp 𝕄, iprop(P ∗ Q ∗ R) ⊢ iprop((P ∗ Q) ∗ R) := fun _ _ _ => Laws.sep_assoc.2
  exact BI.equiv_iff.mp ⟨toR _ _ _, toL _ _ _⟩

/-! ## The point's staging memrefs -/

/-- Each window's current staging memref at point `t`, as the pipeline passes it to the body, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .f32 := win1_5.stage (cfg1.slots t 5)
abbrev hs1_5 (t : Fin cfg1.N) : (ms1_5 t).IsWhole := hstage1_5 ((cfg1.slots t 5).cast nbuf1_5)

/-! ## What the body owes each window -/

/-- An input window is live everywhere: the body owes its buffer at the block it found there. -/
theorem leaves1_0 (c : Dev nD) (t : Fin cfg1.N) :
    (dat1 V c).leavesExact 0 t = owns (c : Thread nD τ) (ms1_0 t) fullShare (iblk1 V c 0 t) := by
  unfold Dat.leavesExact; rw [live1_0 t, after1_0]
theorem leaves1_1 (c : Dev nD) (t : Fin cfg1.N) :
    (dat1 V c).leavesExact 1 t = owns (c : Thread nD τ) (ms1_1 t) fullShare (iblk1 V c 1 t) := by
  unfold Dat.leavesExact; rw [live1_1 t, after1_1]
theorem leaves1_2 (c : Dev nD) (t : Fin cfg1.N) :
    (dat1 V c).leavesExact 2 t = owns (c : Thread nD τ) (ms1_2 t) fullShare (iblk1 V c 2 t) := by
  unfold Dat.leavesExact; rw [live1_2 t, after1_2]
theorem leaves1_3 (c : Dev nD) (t : Fin cfg1.N) :
    (dat1 V c).leavesExact 3 t = owns (c : Thread nD τ) (ms1_3 t) fullShare (iblk1 V c 3 t) := by
  unfold Dat.leavesExact; rw [live1_3 t, after1_3]
theorem leaves1_4 (c : Dev nD) (t : Fin cfg1.N) :
    (dat1 V c).leavesExact 4 t = owns (c : Thread nD τ) (ms1_4 t) fullShare (iblk1 V c 4 t) := by
  unfold Dat.leavesExact; rw [live1_4 t, after1_4]

/-- Away from the last key tile the output window is idle and not written back: the body owes its buffer as found. -/
theorem leaves1_5_idle (c : Dev nD) (t : Fin cfg1.N) (h : ¬ t.val % 16 = 15) :
    (dat1 V c).leavesExact 5 t = iprop(∃ d, owns (c : Thread nD τ) (ms1_5 t) fullShare ((dat1 V c).before 5 t d)) :=
  Dat.leavesExact_idle (dat1 V c) 5 t (idle1_5 t h) (noFlush1_5 t h)

/-- At the last key tile it is live: the body owes its buffer at the blend of the state after the point. -/
theorem leaves1_5_live (c : Dev nD) (t : Fin cfg1.N) (h : t.val % 16 = 15) :
    (dat1 V c).leavesExact 5 t
      = owns (c : Thread nD τ) (ms1_5 t) fullShare (outLast (scAt V c t.val t.isLt) (iblk1 V c 0 t)) := by
  unfold Dat.leavesExact; rw [live1_5 t h, after1_5]

/-! ## The body obligation at a point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The five input buffers hold their blocks. At a first key tile the scratch is handed over
    at anything (at the first point of all the class invariant says no more; later the state the query tile before
    ended with is forgotten) and comes back one step from the reset state; at a middle or last key tile it is handed
    over at the state the point before left and comes back one step on. Away from the last key tile the output
    buffer goes through untouched; at the last it comes back at the blend of the new state with the query block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_succ, PhiS1_succ, Phi1_castSucc, leaves1_0, leaves1_1, leaves1_2, leaves1_3, leaves1_4]
  by_cases h0 : t.val % 16 = 0
  · have h15 : ¬ t.val % 16 = 15 := by omega
    rw [leaves1_5_idle V c t h15, scAt_first V c t h0]
    by_cases hz : t.val = 0
    · rw [PhiS1_zero V c _ _ hz, PhiA1_eq]
      iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        ((hcond1_0 t).mpr h0) (fun h => h15 ((hcond1_1 t).mp h)) (iblk1 V c 0 t) (iblk1 V c 1 t) (iblk1 V c 2 t) (iblk1 V c 3 t) (iblk1 V c 4 t)
        ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS1_pos V c _ _ hz]
      iintro ⟨⟨HS0, HS1, HS2, HS3, Hr, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        ((hcond1_0 t).mpr h0) (fun h => h15 ((hcond1_1 t).mp h)) (iblk1 V c 0 t) (iblk1 V c 1 t) (iblk1 V c 2 t) (iblk1 V c 3 t) (iblk1 V c 4 t)
        ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hz : t.val ≠ 0 := fun e => h0 (by rw [e])
    rw [PhiS1_pos V c _ _ hz, scAt_next V c t h0]
    by_cases h15 : t.val % 16 = 15
    · rw [leaves1_5_live V c t h15, scAt_next V c t h0]
      iintro ⟨⟨HS0, HS1, HS2, HS3, Hr, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        (fun h => h0 ((hcond1_0 t).mp h)) ((hcond1_1 t).mpr h15) (iblk1 V c 0 t) (iblk1 V c 1 t) (iblk1 V c 2 t) (iblk1 V c 3 t) (iblk1 V c 4 t)
        (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves1_5_idle V c t h15]
      iintro ⟨⟨HS0, HS1, HS2, HS3, Hr, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t)
        (ms1_4 t) (hs1_4 t) (ms1_5 t) (hs1_5 t) scM1_0 (Memref.isWhole_whole _) scM1_1 (Memref.isWhole_whole _)
        scM1_2 (Memref.isWhole_whole _) scM1_3 (Memref.isWhole_whole _)
        (fun h => h0 ((hcond1_0 t).mp h)) (fun h => h15 ((hcond1_1 t).mp h)) (iblk1 V c 0 t) (iblk1 V c 1 t) (iblk1 V c 2 t) (iblk1 V c 3 t) (iblk1 V c 4 t)
        ((dat1 V c).before 5 t d5) (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0]; · iexact HS0
        isplitl [HS1]; · iexact HS1
        isplitl [HS2]; · iexact HS2
        isplitl [HS3]; · iexact HS3
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The body meets the pipeline's obligation at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : (Pipeline.ΦA spec1 c : sProp 𝕄) ⊢ (dat1 V c).Φ 0 := by
  show _ ⊢ PhiS1 V c 0 (Nat.zero_le _)
  rw [PhiS1_zero V c 0 _ rfl]

/-- After the last point the invariant gives the class invariant back: the scratch contents are forgotten. -/
theorem hout1 (c : Dev nD) : (dat1 V c).Φ (Fin.last cfg1.N) ⊢ (Pipeline.ΦA spec1 c : sProp 𝕄) := by
  have hN : cfg1.N = 128 := N_1
  have hpos : (Fin.last cfg1.N).val ≠ 0 := by rw [Fin.val_last]; omega
  show PhiS1 V c (Fin.last cfg1.N).val (Nat.le_of_lt_succ (Fin.last cfg1.N).isLt) ⊢ _
  rw [PhiS1_pos V c _ _ hpos, PhiA1_eq]
  iintro ⟨HS0, HS1, HS2, HS3, Hr, Hg⟩
  isplitl [HS0 HS1 HS2 HS3]
  · isplitl [HS0]; · iexists _; iexact HS0
    isplitl [HS1]; · iexists _; iexact HS1
    isplitl [HS2]; · iexists _; iexact HS2
    iexists _; iexact HS3
  isplitl [Hr]; · iexact Hr
  iexact Hg

end Cert.KernelIdeal.Att

end
-- ==== Proof.KI.RunCond.lean ====
/-
  The program's run read at every buffer. @main is two stretches of host operations and two kernel regions; given,
  for each region, a segment record entered from the thread state "every unscoped buffer of the core held at the
  valuation before it" and left at the valuation after it, every weakly fair execution from a memory with zero
  counters terminates and every core's unscoped buffers end at the last valuation `V4`: the host stretches'
  results, then what each region leaves in its output arrays. The argument arrays and the result are read off
  that one fact.
-/
import proofs.«424890_j49589692400271_3_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN. For any user algebra, level assignment, launch dues and ghost resources, any rest states
    `E` the launch makes on every core at once (`hE0`) and that end owing nothing (`hE2`), any contents the regions
    leave (`outs`) and any proof data: GIVEN, per region K, a segment record entered from the thread state before it
    and left at the one after it (`RK`, `hpreK`, `hpostK`), every weakly fair execution of @main from memory `m` with
    zero counters terminates, and in every final memory every unscoped buffer of every core holds what the last
    valuation `V4` names for it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => ∀ b ∈ Pipeline.ucRefs τ sig, s.mem ((c : Thread nD τ).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.KernelIdeal.Gen

end
-- ==== Proof.KI.Launch.lean ====
/-
  The whole program's run. @main is: transpose the key weights and reshape the key bias; region 0 (the key
  projection); transpose the query weights and reshape the query bias; region 1 (the attention). Region 0 is entered
  from the launch memory after the first host stretch (`Ve1`) and leaves its two output arrays at what its
  write-backs fold to; region 1 is entered from that after the second host stretch (`Ve3`) and leaves the result
  array likewise. Each region's segment record is built from its body obligation over the thread state "every
  unscoped buffer held at the valuation, the generator register at some state, nothing owed"; the run then reads
  every unscoped buffer at the last valuation, from which come the frame (the six arguments as launched) and the
  result array's contents.
-/
import proofs.«424890_j49589692400271_3_alg».proof.Proof.Gen.KernelIdeal.Launch
import proofs.«424890_j49589692400271_3_alg».proof.Proof.Gen.KernelIdeal.Skeleton
import proofs.«424890_j49589692400271_3_alg».proof.Proof.Gen.KernelIdeal.Points
import proofs.«424890_j49589692400271_3_alg».proof.Proof.KI.R0
import proofs.«424890_j49589692400271_3_alg».proof.Proof.KI.R1Body
import proofs.«424890_j49589692400271_3_alg».proof.Proof.KI.RunCond
import proofs.«424890_j49589692400271_3_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Region 0's entry contents: the launch memory after the first host stretch, read at the core's references. -/
abbrev Ve1 (c : Dev nD) (b : Ref sig .tc) : Buf (Elt F) ((c : Thread nD τ).loc b) := Gen.V1 m c b

/-- What region 0 leaves: its arrays at what the pipeline's write-backs fold to, every other buffer as entered. -/
def o2 (r : Ref sig .tc) (c : Dev nD) : Buf (Elt F) ((c : Thread nD τ).loc r) :=
  Pipeline.withArrays spec0 c (Gen.V1 m c) (fun w => (dat0 (Ve1 m) c).arrAt w cfg0.N) (Proc.devRef .tc r)

/-- Region 1's entry contents: that, after the second host stretch. -/
abbrev Ve3 (c : Dev nD) (b : Ref sig .tc) : Buf (Elt F) ((c : Thread nD τ).loc b) := Gen.V3 m (fun _ => o2 m) c b

/-- What region 1 leaves. -/
def o4 (r : Ref sig .tc) (c : Dev nD) : Buf (Elt F) ((c : Thread nD τ).loc r) :=
  Pipeline.withArrays spec1 c (Gen.V3 m (fun _ => o2 m) c) (fun w => (dat1 (Ve3 m) c).arrAt w cfg1.N) (Proc.devRef .tc r)

/-- The regions' leavings, by the item after which they are read. -/
def outs : Gen.Outs (F := F) := fun J r c => if J = 4 then o4 m r c else o2 m r c

/-! ## Reading the valuations at the regions' arrays -/

/-- After region 0 the leavings are `o2`, after region 1 `o4`. -/
theorem outs_two (r : Ref sig .tc) (c : Dev nD) : outs m 2 r c = o2 m r c := rfl
theorem outs_four (r : Ref sig .tc) (c : Dev nD) : outs m 4 r c = o4 m r c := rfl

/-- What region 0 leaves, read at one of its windows' arrays, is the fold of that window's write-backs. -/
theorem o2_arr (c : Dev nD) (w : Fin cfg0.W) :
    o2 m (Pipeline.arrRef spec0 w) c = (dat0 (Ve1 m) c).arrAt w cfg0.N := by
  unfold o2; exact Pipeline.withArrays_arr spec0 launch0.win.arr_inj c _ _ w

/-- What region 1 leaves, read at one of its windows' arrays, is the fold of that window's write-backs. -/
theorem o4_arr (c : Dev nD) (w : Fin cfg1.W) :
    o4 m (Pipeline.arrRef spec1 w) c = (dat1 (Ve3 m) c).arrAt w cfg1.N := by
  unfold o4; exact Pipeline.withArrays_arr spec1 launch1.win.arr_inj c _ _ w

/-- The valuation after region 0 at its first output array, -/
theorem V2_v2_0 (c : Dev nD) : Gen.V2 m (outs m) c main_v2_0 = (dat0 (Ve1 m) c).arrAt 3 cfg0.N := by
  unfold Gen.V2
  rw [Function.update_of_ne (StableHlo.devRef_ne_of_ne (by decide) : (Proc.devRef .tc main_v2_0 : DevRef τ sig) ≠ Proc.devRef .tc main_v2_1),
    Function.update_self, outs_two]
  exact o2_arr m c 3

/-- and at its second. -/
theorem V2_v2_1 (c : Dev nD) : Gen.V2 m (outs m) c main_v2_1 = (dat0 (Ve1 m) c).arrAt 4 cfg0.N := by
  unfold Gen.V2
  rw [Function.update_self, outs_two]
  exact o2_arr m c 4

/-! ## What each region leaves, window by window, and what it does not touch -/

/-- Region 0 leaves each of its arrays at the fold of its write-backs: an input's array is never written and the
    valuation after the region keeps it; an output's array is set there to the region's leaving. -/
theorem exit0 (c : Dev nD) : ∀ w : Fin cfg0.W,
    (dat0 (Ve1 m) c).arrAt w cfg0.N = Gen.V2 m (outs m) c (Pipeline.arrRef spec0 w)
  | 0 => ((dat0 (Ve1 m) c).arrAt_in 0 rfl _).trans ((A_eq0 (Ve1 m) c 0).trans (Gen.V2_of m (outs m) c _ (by decide)).symm)
  | 1 => ((dat0 (Ve1 m) c).arrAt_in 1 rfl _).trans ((A_eq0 (Ve1 m) c 1).trans (Gen.V2_of m (outs m) c _ (by decide)).symm)
  | 2 => ((dat0 (Ve1 m) c).arrAt_in 2 rfl _).trans ((A_eq0 (Ve1 m) c 2).trans (Gen.V2_of m (outs m) c _ (by decide)).symm)
  | 3 => (V2_v2_0 m c).symm
  | 4 => (V2_v2_1 m c).symm
  | ⟨_ + 5, h⟩ => absurd h (Nat.not_lt.2 (Nat.le_add_left _ _))

/-- Off region 0's arrays the valuation after it is the one before it. -/
theorem rest0 (c : Dev nD) (b : Ref sig .tc) (hb : b ∉ Finset.univ.image (Pipeline.arrRef spec0)) :
    Gen.V2 m (outs m) c b = Gen.V1 m c b :=
  Gen.V2_of m (outs m) c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem List.not_mem_nil

/-- Region 1 is entered from the valuation after the second host stretch, which reads region 0's leavings only. -/
theorem Ve3_eq (c : Dev nD) (b : Ref sig .tc) : Ve3 m c b = Gen.V3 m (outs m) c b := rfl

/-- Region 1 leaves each of its arrays at the fold of its write-backs. -/
theorem exit1 (c : Dev nD) : ∀ w : Fin cfg1.W,
    (dat1 (Ve3 m) c).arrAt w cfg1.N = Gen.V4 m (outs m) c (Pipeline.arrRef spec1 w)
  | 0 => ((dat1 (Ve3 m) c).arrAt_in 0 rfl _).trans ((A_eq1 (Ve3 m) c 0).trans (Gen.V4_of m (outs m) c _ (by decide)).symm)
  | 1 => ((dat1 (Ve3 m) c).arrAt_in 1 rfl _).trans ((A_eq1 (Ve3 m) c 1).trans (Gen.V4_of m (outs m) c _ (by decide)).symm)
  | 2 => ((dat1 (Ve3 m) c).arrAt_in 2 rfl _).trans ((A_eq1 (Ve3 m) c 2).trans (Gen.V4_of m (outs m) c _ (by decide)).symm)
  | 3 => ((dat1 (Ve3 m) c).arrAt_in 3 rfl _).trans ((A_eq1 (Ve3 m) c 3).trans (Gen.V4_of m (outs m) c _ (by decide)).symm)
  | 4 => ((dat1 (Ve3 m) c).arrAt_in 4 rfl _).trans ((A_eq1 (Ve3 m) c 4).trans (Gen.V4_of m (outs m) c _ (by decide)).symm)
  | 5 => by
    unfold Gen.V4
    rw [Function.update_self, outs_four]
    exact (o4_arr m c 5).symm
  | ⟨_ + 6, h⟩ => absurd h (Nat.not_lt.2 (Nat.le_add_left _ _))

/-- Off region 1's arrays the valuation after it is the one before it. -/
theorem rest1 (c : Dev nD) (b : Ref sig .tc) (hb : b ∉ Finset.univ.image (Pipeline.arrRef spec1)) :
    Gen.V4 m (outs m) c b = Gen.V3 m (outs m) c b :=
  Gen.V4_of m (outs m) c b fun hmem => by
    rcases List.mem_cons.mp hmem with rfl | hmem
    · exact hb (Finset.mem_image.mpr ⟨5, Finset.mem_univ _, rfl⟩)
    · exact absurd hmem List.not_mem_nil

/-! ## The regions as segments of the run -/

/-- Each region's proof data, at the contents the region is entered from. -/
def pdats : (p : Fin 2) → (c : Dev nD) → Dat τ (Elt F) Unit ℕ (UR sig nD τ) ℕ (Pipeline.pin (pcfgs (F := F)) Gen.adm p) c
  | ⟨0, _⟩ => fun c => dat0 (Ve1 m) c
  | ⟨1, _⟩ => fun c => dat1 (Ve3 m) c

/-- No core waits on another: no level is assigned. -/
abbrev noLev : GSem nD τ sig → Finset Unit := fun _ => ∅
abbrev lev0 : GSem nD τ sig → Unit → ℕ := fun _ _ => 0

set_option backward.isDefEq.respectTransparency.types false in
/-- Region 0 between the valuation after the first host stretch and the one after the region: its five arrays are
    distinct whole buffers held at the full share, its invariant is the class invariant throughout, nothing is owed. -/
def seg0R : Pipeline.RegionSeg (pcfgs (F := F)) Gen.adm (pdats m) () (defs₀ (F := F)) Variants.none noLev lev0 0 :=
  Cert.LibRegion.regionSegHeldA (pcfgs (F := F)) Gen.adm (pdats m) (defs₀ (F := F)) Variants.none noLev lev0 0
    launch0.win.to₀ launch0.block_pos launch0.stage_whole rfl
    (fun c => (body_obligation0 (Ve1 m) c).loose)
    (fun c => rfl) (fun c => rfl) (fun c t => rfl) (fun c => rfl)
    (Gen.V1 m) (Gen.V2 m (outs m))
    (fun c => Cert.LibRegion.arrBufs_split_distinct cfg0 c (dat0 (Ve1 m) c) launch0.win.arr_inj launch0.arr_whole
      ((dat0 (Ve1 m) c).share_full fun _ => rfl) (fun b => Gen.V1 m c b) _ (fun w => A_eq0 (Ve1 m) c w))
    (fun c => Cert.LibRegion.arrBufs_join_distinct cfg0 c (dat0 (Ve1 m) c) launch0.win.arr_inj launch0.arr_whole
      ((dat0 (Ve1 m) c).share_full fun _ => rfl) (fun b => Gen.V2 m (outs m) c b) _ (fun w => exit0 m c w))
    (fun c b hb => rest0 m c b hb)

set_option backward.isDefEq.respectTransparency.types false in
/-- Region 1 between the valuation after the second host stretch and the last one: its six arrays are distinct whole
    buffers held at the full share; its invariant starts from the class invariant and gives it back; nothing is owed. -/
def seg1R : Pipeline.RegionSeg (pcfgs (F := F)) Gen.adm (pdats m) () (defs₀ (F := F)) Variants.none noLev lev0 1 :=
  Cert.LibRegion.regionSegHeld (pcfgs (F := F)) Gen.adm (pdats m) (defs₀ (F := F)) Variants.none noLev lev0 1
    launch1.win.to₀ launch1.block_pos launch1.stage_whole rfl
    (fun c => (body_obligation1 (Ve3 m) c).loose)
    (fun c => (Cert.LibRegion.ΦA_of (pcfgs (F := F)) Gen.adm 1 c).trans (hin1 (Ve3 m) c))
    (fun c => (hout1 (Ve3 m) c).trans (Cert.LibRegion.of_ΦA (pcfgs (F := F)) Gen.adm 1 c))
    (fun c t => rfl) (fun c => rfl)
    (Gen.V3 m (outs m)) (Gen.V4 m (outs m))
    (fun c => Cert.LibRegion.arrBufs_split_distinct cfg1 c (dat1 (Ve3 m) c) launch1.win.arr_inj launch1.arr_whole
      ((dat1 (Ve3 m) c).share_full fun _ => rfl) (fun b => Gen.V3 m (outs m) c b) _ (fun w => A_eq1 (Ve3 m) c w))
    (fun c => Cert.LibRegion.arrBufs_join_distinct cfg1 c (dat1 (Ve3 m) c) launch1.win.arr_inj launch1.arr_whole
      ((dat1 (Ve3 m) c).share_full fun _ => rfl) (fun b => Gen.V4 m (outs m) c b) _ (fun w => exit1 m c w))
    (fun c b hb => rest1 m c b hb)

/-- Every weakly fair execution terminates with every unscoped buffer at the last valuation. -/
theorem run_all (ρ : Dev nD → PrngReg) :
    θ_run (defs (F := F)) (onTc (τ := τ) (main (F := F))) ⟨m, fun _ => 0, ρ⟩
      (fun r => ∀ c : Dev nD, ∀ b ∈ Pipeline.ucRefs τ sig, r.2.mem ((c : Thread nD τ).1, b) = Gen.V4 m (outs m) c b) :=
  Gen.run_cond m emb₁ () Variants.none noLev lev0 (fun _ _ => rfl) ρ (outs m) (pdats m) 0 (fun _ => iprop(emp))
    (initOf (Pipeline.cells cfgs cellOf_inj) (Pipeline.launchToks cfgs cellOf_inj))
    (by
      -- the launch element is the pipelines' own; no ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Cert.LibRegion.R c)
    (by
      -- each core keeps its generator register, at the launch state, and owes nothing
      refine Pipeline.initEach noLev lev0 fun c => ?_
      iintro ⟨⟨-, HO, -, Hp, -⟩, -⟩
      imodintro
      isplitl [Hp]; · iexists _; iexact Hp
      iexists ∅; iexact HO)
    (fun c => by iintro ⟨-, HO⟩; iexact HO)
    (seg0R m) (fun c => .rfl) (fun c => .rfl)
    (seg1R m) (fun c => .rfl) (fun c => .rfl)

/-- The result array at the last valuation is what region 1's write-backs fold to. -/
theorem V4_v5 (c : Dev nD) : Gen.V4 m (outs m) c main_v5 = (dat1 (Ve3 m) c).arrAt 5 cfg1.N := by
  unfold Gen.V4
  rw [Function.update_self, outs_four]
  exact o4_arr m c 5

/-- THE FRAME: the six argument arrays end as launched. -/
theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c (Proc.devRef .tc main_arg0) (Finset.mem_filter.mpr ⟨StableHlo.devRef_mem_tcRefs main_arg0, by decide⟩)).trans (Gen.V4_main_arg0 m (outs m) c),
     (h c (Proc.devRef .tc main_arg1) (Finset.mem_filter.mpr ⟨StableHlo.devRef_mem_tcRefs main_arg1, by decide⟩)).trans (Gen.V4_main_arg1 m (outs m) c),
     (h c (Proc.devRef .tc main_arg2) (Finset.mem_filter.mpr ⟨StableHlo.devRef_mem_tcRefs main_arg2, by decide⟩)).trans (Gen.V4_main_arg2 m (outs m) c),
     (h c (Proc.devRef .tc main_arg3) (Finset.mem_filter.mpr ⟨StableHlo.devRef_mem_tcRefs main_arg3, by decide⟩)).trans (Gen.V4_main_arg3 m (outs m) c),
     (h c (Proc.devRef .tc main_arg4) (Finset.mem_filter.mpr ⟨StableHlo.devRef_mem_tcRefs main_arg4, by decide⟩)).trans (Gen.V4_main_arg4 m (outs m) c),
     (h c (Proc.devRef .tc main_arg5) (Finset.mem_filter.mpr ⟨StableHlo.devRef_mem_tcRefs main_arg5, by decide⟩)).trans (Gen.V4_main_arg5 m (outs m) c)⟩)
    (run_all m ρ)

/-- THE RUN WITH ITS RESULT: the result array ends at what region 1's write-backs fold to, the arguments as launched. -/
theorem run_result (ρ : Dev nD → PrngReg) :
    θ_run (defs (F := F)) (onTc (τ := τ) (main (F := F))) ⟨m, fun _ => 0, ρ⟩ (fun r => ∀ c : Dev nD,
      r.2.mem ((c.tc : Thread nD τ).loc main_v5) = (dat1 (Ve3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c (Proc.devRef .tc main_v5) (Finset.mem_filter.mpr ⟨StableHlo.devRef_mem_tcRefs main_v5, by decide⟩)).trans (V4_v5 m c),
     (h c (Proc.devRef .tc main_arg0) (Finset.mem_filter.mpr ⟨StableHlo.devRef_mem_tcRefs main_arg0, by decide⟩)).trans (Gen.V4_main_arg0 m (outs m) c),
     (h c (Proc.devRef .tc main_arg1) (Finset.mem_filter.mpr ⟨StableHlo.devRef_mem_tcRefs main_arg1, by decide⟩)).trans (Gen.V4_main_arg1 m (outs m) c),
     (h c (Proc.devRef .tc main_arg2) (Finset.mem_filter.mpr ⟨StableHlo.devRef_mem_tcRefs main_arg2, by decide⟩)).trans (Gen.V4_main_arg2 m (outs m) c),
     (h c (Proc.devRef .tc main_arg3) (Finset.mem_filter.mpr ⟨StableHlo.devRef_mem_tcRefs main_arg3, by decide⟩)).trans (Gen.V4_main_arg3 m (outs m) c),
     (h c (Proc.devRef .tc main_arg4) (Finset.mem_filter.mpr ⟨StableHlo.devRef_mem_tcRefs main_arg4, by decide⟩)).trans (Gen.V4_main_arg4 m (outs m) c),
     (h c (Proc.devRef .tc main_arg5) (Finset.mem_filter.mpr ⟨StableHlo.devRef_mem_tcRefs main_arg5, by decide⟩)).trans (Gen.V4_main_arg5 m (outs m) c)⟩)
    (run_all m ρ)

/-- Region 1 finds region 0's two output arrays at what region 0's write-backs fold to. -/
theorem Ve3_v2_0 (c : Dev nD) : Ve3 m c main_v2_0 = (dat0 (Ve1 m) c).arrAt 3 cfg0.N :=
  (Gen.V3_of m (outs m) c main_v2_0 (by decide)).trans (V2_v2_0 m c)
theorem Ve3_v2_1 (c : Dev nD) : Ve3 m c main_v2_1 = (dat0 (Ve1 m) c).arrAt 4 cfg0.N :=
  (Gen.V3_of m (outs m) c main_v2_1 (by decide)).trans (V2_v2_1 m c)
/-- … and the query input as launched. -/
theorem Ve3_arg0 (c : Dev nD) : Ve3 m c main_arg0 = m ((c : Thread nD τ).loc main_arg0) :=
  (Gen.V3_of m (fun _ => o2 m) c main_arg0 (by decide)).trans <| (Gen.V2_of m (fun _ => o2 m) c main_arg0 (by decide)).trans <|
    (Gen.V1_of m c main_arg0 (by decide)).trans rfl
/-- Region 0 finds the memory input as launched. -/
theorem Ve1_arg1 (c : Dev nD) : Ve1 m c main_arg1 = m ((c : Thread nD τ).loc main_arg1) :=
  (Gen.V1_of m c main_arg1 (by decide)).trans rfl
/-- The second host stretch reads the launch contents of the query weights and bias: nothing before it writes them. -/
theorem V2_arg2 (c : Dev nD) : Gen.V2 m (fun _ => o2 m) c main_arg2 = m ((c : Thread nD τ).loc main_arg2) :=
  (Gen.V2_of m (fun _ => o2 m) c main_arg2 (by decide)).trans <| (Gen.V1_of m c main_arg2 (by decide)).trans rfl
theorem V2_arg3 (c : Dev nD) : Gen.V2 m (fun _ => o2 m) c main_arg3 = m ((c : Thread nD τ).loc main_arg3) :=
  (Gen.V2_of m (fun _ => o2 m) c main_arg3 (by decide)).trans <| (Gen.V1_of m c main_arg3 (by decide)).trans rfl

end Cert.KernelIdeal.Att

end
-- ==== Proof.Spec.lean ====
import Idealize.ShloMosaic.PureOps.Ideal
import Idealize.ShloMosaic.PureOps.Ideal.Laws
import Mathlib.Analysis.SpecialFunctions.Exp
import Mathlib.Algebra.BigOperators.Fin
import Mathlib.Logic.Equiv.Fin.Basic

/-!
# The row mathematics of single-head attention

For one query row, with real scores `s k` against the keys and real values `v k` of one output column, the
attention output is the softmax-weighted average `(∑ exp (s k) · v k) / (∑ exp (s k))`. Subtracting any real
`M` from every score changes neither sum's ratio, so no maximum appears in the specification.

* `ref_row`: dividing each shifted exponential by their sum and then summing against the values gives that average.
* `kernel_row`: the blockwise online recursion (running maximum, rescaled denominator, rescaled numerator)
  started from `(-∞, 0, 0)` ends, after any positive number of blocks, at a numerator and denominator whose
  quotient is that average over all keys seen.
-/

noncomputable section

namespace Cert.Spec

open Idealize.ShloMosaic

/-- The softmax-weighted average of `v` under scores `s`. -/
def avg {κ : Type} [Fintype κ] (s v : κ → ℝ) : ℝ := (∑ k, Real.exp (s k) * v k) / (∑ k, Real.exp (s k))

/-- Re-indexing the keys does not change the average. -/
theorem avg_equiv {κ κ' : Type} [Fintype κ] [Fintype κ'] (e : κ ≃ κ') (s v : κ' → ℝ) :
    avg (fun k => s (e k)) (fun k => v (e k)) = avg s v := by
  unfold avg
  rw [Equiv.sum_comp e (fun k => Real.exp (s k) * v k), Equiv.sum_comp e (fun k => Real.exp (s k))]

/-- Subtracting one real from every score multiplies numerator and denominator by the same positive factor. -/
theorem avg_shift {κ : Type} [Fintype κ] (s v : κ → ℝ) (M : ℝ) : avg (fun k => s k - M) v = avg s v := by
  unfold avg
  have h1 : ∀ k, Real.exp (s k - M) = Real.exp (s k) * Real.exp (-M) := by
    intro k
    rw [← Real.exp_add, sub_eq_add_neg]
  have h2 : ∀ k, Real.exp (s k) * Real.exp (-M) * v k = (Real.exp (s k) * v k) * Real.exp (-M) := by
    intro k
    ring
  simp_rw [h1, h2, ← Finset.sum_mul]
  exact mul_div_mul_right _ _ (Real.exp_pos _).ne'

/-- A finite sum of reals, each read as an extended real, is the sum read as an extended real. -/
theorem coe_sum {κ : Type} [Fintype κ] (f : κ → ℝ) : (∑ k, ((f k : ℝ) : EReal)) = ((∑ k, f k : ℝ) : EReal) := by
  classical
  have key : ∀ S : Finset κ, (∑ k ∈ S, ((f k : ℝ) : EReal)) = ((∑ k ∈ S, f k : ℝ) : EReal) := by
    intro S
    refine Finset.induction_on S ?_ ?_
    · simp
    · intro a S ha ih
      rw [Finset.sum_insert ha, Finset.sum_insert ha, ih, EReal.coe_add]
  exact key Finset.univ

/-- The maximum of two reals read as extended reals. -/
theorem coe_max' (x y : ℝ) : max (x : EReal) (y : EReal) = ((max x y : ℝ) : EReal) :=
  (EReal.coe_strictMono.monotone.map_max).symm

/-- The maximum, from `-∞`, of finitely many (at least one) reals is a real. -/
theorem fold_max_real {κ : Type} [Fintype κ] [Nonempty κ] (s : κ → ℝ) (b : EReal) (hb : b = ⊥) :
    ∃ r : ℝ, Finset.univ.fold max b (fun k => ((s k : ℝ) : EReal)) = (r : EReal) := by
  classical
  subst hb
  have key : ∀ S : Finset κ, (S = ∅ ∧ S.fold max ⊥ (fun k => ((s k : ℝ) : EReal)) = ⊥)
      ∨ ∃ r : ℝ, S.fold max ⊥ (fun k => ((s k : ℝ) : EReal)) = (r : EReal) := by
    intro S
    refine Finset.induction_on S ?_ ?_
    · exact Or.inl ⟨rfl, Finset.fold_empty⟩
    · intro a S ha ih
      right
      rw [Finset.fold_insert ha]
      rcases ih with ⟨_, h⟩ | ⟨r, h⟩
      · exact ⟨s a, by rw [h, max_bot_right]⟩
      · exact ⟨max (s a) r, by rw [h, coe_max']⟩
  rcases key Finset.univ with ⟨h, _⟩ | h
  · exact absurd h Finset.univ_nonempty.ne_empty
  · exact h

/-- The reference's row: exponentials of the scores shifted by any real `M`, each divided by their sum, summed
    against the values. -/
theorem ref_row {κ : Type} [Fintype κ] [Nonempty κ] (s v : κ → ℝ) (M : ℝ) :
    (∑ k, Ideal.div (Ideal.exp (((s k : ℝ) : EReal) - (M : EReal)))
        (∑ k', Ideal.exp (((s k' : ℝ) : EReal) - (M : EReal))) * ((v k : ℝ) : EReal))
      = ((avg s v : ℝ) : EReal) := by
  have h1 : ∀ k, Ideal.exp (((s k : ℝ) : EReal) - (M : EReal)) = ((Real.exp (s k - M) : ℝ) : EReal) := by
    intro k
    rw [← EReal.coe_sub, Ideal.exp_coe]
  simp_rw [h1]
  rw [coe_sum]
  have hL : 0 < ∑ k, Real.exp (s k - M) := Finset.sum_pos (fun k _ => Real.exp_pos _) Finset.univ_nonempty
  simp_rw [Ideal.div_coe hL.ne', ← EReal.coe_mul]
  rw [coe_sum, ← avg_shift s v M]
  congr 1
  unfold avg
  rw [Finset.sum_div]
  refine Finset.sum_congr rfl (fun k _ => ?_)
  ring

/-- One block of the online recursion on a state `(m, l, a)`: the new running maximum (the block's maximum folded
    from `b`), then denominator and numerator rescaled by `exp (m - m')` plus the block's terms. -/
def upd {T : ℕ} (st : EReal × EReal × EReal) (b : EReal) (sc vv : Fin T → EReal) : EReal × EReal × EReal :=
  (max st.1 (Finset.univ.fold max b sc),
   Ideal.exp (st.1 - max st.1 (Finset.univ.fold max b sc)) * st.2.1
     + ∑ t, Ideal.exp (sc t - max st.1 (Finset.univ.fold max b sc)),
   Ideal.exp (st.1 - max st.1 (Finset.univ.fold max b sc)) * st.2.2
     + ∑ t, Ideal.exp (sc t - max st.1 (Finset.univ.fold max b sc)) * vv t)

/-- The recursion over the first `j` blocks from the state `(m₀, z, z)`. -/
def run {T : ℕ} (m₀ z b : EReal) (sc vv : ℕ → Fin T → EReal) : ℕ → EReal × EReal × EReal
  | 0 => (m₀, z, z)
  | j + 1 => upd (run m₀ z b sc vv j) b (sc j) (vv j)

/-- A sum over `j + 1` blocks is the sum over the first `j` blocks plus the last block's. -/
theorem sum_blocks_succ {T : ℕ} (f : ℕ → Fin T → ℝ) (j : ℕ) :
    (∑ p : Fin (j + 1) × Fin T, f p.1.val p.2) = (∑ p : Fin j × Fin T, f p.1.val p.2) + ∑ t, f j t := by
  rw [Fintype.sum_prod_type, Fintype.sum_prod_type, Fin.sum_univ_castSucc]
  simp only [Fin.val_castSucc, Fin.val_last]

/-- Changing the reference point of every exponential from `M` to `M'` is one common factor `exp (M - M')`. -/
theorem rescale_sum {κ : Type} [Fintype κ] (g w : κ → ℝ) (M M' : ℝ) :
    Real.exp (M - M') * (∑ p, Real.exp (g p - M) * w p) = ∑ p, Real.exp (g p - M') * w p := by
  rw [Finset.mul_sum]
  refine Finset.sum_congr rfl (fun p _ => ?_)
  have h : M - M' + (g p - M) = g p - M' := by ring
  rw [← mul_assoc, ← Real.exp_add, h]

/-- The same change of reference point for the plain sum of exponentials. -/
theorem rescale_sum_one {κ : Type} [Fintype κ] (g : κ → ℝ) (M M' : ℝ) :
    Real.exp (M - M') * (∑ p, Real.exp (g p - M)) = ∑ p, Real.exp (g p - M') := by
  simpa using rescale_sum g (fun _ => 1) M M'

/-- One block from a real state, the block's maximum being the real `r`. -/
theorem upd_coe {T : ℕ} (M l a : ℝ) (σ ν : Fin T → ℝ) (r : ℝ)
    (hr : Finset.univ.fold max ⊥ (fun t => ((σ t : ℝ) : EReal)) = (r : EReal)) :
    upd (((M : ℝ) : EReal), ((l : ℝ) : EReal), ((a : ℝ) : EReal)) ⊥
        (fun t => ((σ t : ℝ) : EReal)) (fun t => ((ν t : ℝ) : EReal))
      = (((max M r : ℝ) : EReal),
         ((Real.exp (M - max M r) * l + ∑ t, Real.exp (σ t - max M r) : ℝ) : EReal),
         ((Real.exp (M - max M r) * a + ∑ t, Real.exp (σ t - max M r) * ν t : ℝ) : EReal)) := by
  unfold upd
  simp only [hr, coe_max', ← EReal.coe_sub, Ideal.exp_coe, ← EReal.coe_mul, coe_sum, ← EReal.coe_add]

/-- The first block, from `(-∞, 0, 0)`: the old state contributes nothing. -/
theorem upd_bot {T : ℕ} (σ ν : Fin T → ℝ) (r : ℝ)
    (hr : Finset.univ.fold max ⊥ (fun t => ((σ t : ℝ) : EReal)) = (r : EReal)) :
    upd ((⊥ : EReal), (0 : EReal), (0 : EReal)) ⊥
        (fun t => ((σ t : ℝ) : EReal)) (fun t => ((ν t : ℝ) : EReal))
      = ((r : EReal),
         ((∑ t, Real.exp (σ t - r) : ℝ) : EReal),
         ((∑ t, Real.exp (σ t - r) * ν t : ℝ) : EReal)) := by
  unfold upd
  simp only [hr, max_bot_left, EReal.bot_sub, Ideal.exp_bot, mul_zero, zero_add, ← EReal.coe_sub, Ideal.exp_coe,
    ← EReal.coe_mul, coe_sum]

/-- After `j + 1` blocks the state is real: some real `M`, and the sums of `exp (s - M)` and of
    `exp (s - M) · v` over all keys seen. -/
theorem run_real {T : ℕ} [NeZero T] (s v : ℕ → Fin T → ℝ) (j : ℕ) :
    ∃ M : ℝ, run ⊥ 0 ⊥ (fun j t => ((s j t : ℝ) : EReal)) (fun j t => ((v j t : ℝ) : EReal)) (j + 1)
      = ((M : EReal),
         ((∑ p : Fin (j + 1) × Fin T, Real.exp (s p.1.val p.2 - M) : ℝ) : EReal),
         ((∑ p : Fin (j + 1) × Fin T, Real.exp (s p.1.val p.2 - M) * v p.1.val p.2 : ℝ) : EReal)) := by
  haveI : Nonempty (Fin T) := ⟨⟨0, Nat.pos_of_ne_zero (NeZero.ne T)⟩⟩
  induction j with
  | zero =>
    obtain ⟨r, hr⟩ := fold_max_real (s 0) ⊥ rfl
    refine ⟨r, ?_⟩
    show upd ((⊥ : EReal), (0 : EReal), (0 : EReal)) ⊥ (fun t => ((s 0 t : ℝ) : EReal)) (fun t => ((v 0 t : ℝ) : EReal)) = _
    rw [upd_bot _ _ r hr, sum_blocks_succ (fun i t => Real.exp (s i t - r)) 0,
      sum_blocks_succ (fun i t => Real.exp (s i t - r) * v i t) 0]
    simp
  | succ j ih =>
    obtain ⟨M, hM⟩ := ih
    obtain ⟨r, hr⟩ := fold_max_real (s (j + 1)) ⊥ rfl
    refine ⟨max M r, ?_⟩
    show upd (run ⊥ 0 ⊥ (fun j t => ((s j t : ℝ) : EReal)) (fun j t => ((v j t : ℝ) : EReal)) (j + 1)) ⊥
      (fun t => ((s (j + 1) t : ℝ) : EReal)) (fun t => ((v (j + 1) t : ℝ) : EReal)) = _
    rw [hM, upd_coe _ _ _ _ _ r hr, sum_blocks_succ (fun i t => Real.exp (s i t - max M r)) (j + 1),
      sum_blocks_succ (fun i t => Real.exp (s i t - max M r) * v i t) (j + 1),
      rescale_sum_one (fun p : Fin (j + 1) × Fin T => s p.1.val p.2) M (max M r),
      rescale_sum (fun p : Fin (j + 1) × Fin T => s p.1.val p.2) (fun p => v p.1.val p.2) M (max M r)]

/-- After `n ≥ 1` blocks of real scores and values, from `(-∞, 0, 0)`, numerator over denominator is the average
    over all `n · T` keys. -/
theorem kernel_row {T : ℕ} [NeZero T] (s v : ℕ → Fin T → ℝ) (n : ℕ) (hn : 0 < n) (m₀ z b : EReal)
    (hm : m₀ = ⊥) (hz : z = 0) (hb : b = ⊥) :
    Ideal.div (run m₀ z b (fun j t => ((s j t : ℝ) : EReal)) (fun j t => ((v j t : ℝ) : EReal)) n).2.2
        (run m₀ z b (fun j t => ((s j t : ℝ) : EReal)) (fun j t => ((v j t : ℝ) : EReal)) n).2.1
      = ((avg (fun p : Fin n × Fin T => s p.1 p.2) (fun p : Fin n × Fin T => v p.1 p.2) : ℝ) : EReal) := by
  subst hm hz hb
  obtain ⟨j, rfl⟩ : ∃ j, n = j + 1 := ⟨n - 1, by omega⟩
  obtain ⟨M, hM⟩ := run_real s v j
  haveI : Nonempty (Fin T) := ⟨⟨0, Nat.pos_of_ne_zero (NeZero.ne T)⟩⟩
  have hden : 0 < ∑ p : Fin (j + 1) × Fin T, Real.exp (s p.1.val p.2 - M) :=
    Finset.sum_pos (fun _ _ => Real.exp_pos _) Finset.univ_nonempty
  simp only [hM]
  rw [Ideal.div_coe hden.ne', ← EReal.coe_mul,
    ← avg_shift (fun p : Fin (j + 1) × Fin T => s p.1 p.2) (fun p : Fin (j + 1) × Fin T => v p.1 p.2) M]
  congr 1
  unfold avg
  rw [mul_one_div]

/-- A score computed as the product of the two rows plus the two correction terms of a high/low split whose low
    parts are `x - x`: on reals the corrections vanish. -/
def score3 {B : Type} [Fintype B] (q k : B → EReal) : EReal :=
  (∑ h, q h * k h) + (∑ h, q h * (k h - k h)) + ∑ h, (q h - q h) * k h

theorem score3_real {B : Type} [Fintype B] (q k : B → ℝ) :
    score3 (fun h => ((q h : ℝ) : EReal)) (fun h => ((k h : ℝ) : EReal)) = ((∑ h, q h * k h : ℝ) : EReal) := by
  unfold score3
  simp only [← EReal.coe_sub, sub_self, EReal.coe_zero, mul_zero, zero_mul, Finset.sum_const_zero, add_zero,
    ← EReal.coe_mul, coe_sum]

/-- A row of a linear layer: `∑ j, x j · w j h + b h`. -/
def lin {B : Type} [Fintype B] (x : B → EReal) (w : B → EReal) (b : EReal) : EReal := (∑ j, x j * w j) + b

theorem lin_real {B : Type} [Fintype B] (x w : B → ℝ) (b : ℝ) :
    lin (fun j => ((x j : ℝ) : EReal)) (fun j => ((w j : ℝ) : EReal)) (b : EReal) = (((∑ j, x j * w j) + b : ℝ) : EReal) := by
  unfold lin
  simp only [← EReal.coe_mul, coe_sum, ← EReal.coe_add]

/-- Key `t` of block `j` among 8192 keys in blocks of 512. -/
def keyIdx (j : ℕ) (t : Fin 512) : Fin 8192 := ⟨(j * 512 + t.val) % 8192, Nat.mod_lt _ (by norm_num)⟩

/-- Blocks of 512 keys, 16 of them, enumerate the 8192 keys. -/
def keyEquiv : Fin 16 × Fin 512 ≃ Fin 8192 :=
  (finProdFinEquiv (m := 16) (n := 512)).trans (finCongr (by norm_num))

theorem keyEquiv_apply (p : Fin 16 × Fin 512) : keyEquiv p = keyIdx p.1.val p.2 := by
  apply Fin.ext
  simp only [keyEquiv, keyIdx, Equiv.trans_apply, finCongr_apply, Fin.val_cast, finProdFinEquiv_apply_val]
  have h1 := p.1.isLt
  have h2 := p.2.isLt
  omega

end Cert.Spec

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.ValDefs.lean ====
import proofs.«424890_j49589692400271_3_alg».proof.Proof.Spec
import proofs.«424890_j49589692400271_3_alg».proof.Proof.LibReal
import Idealize.ShloMosaic.Lib.ValueIdx

/-!
# The two programs' results as functions of the six input arrays

Both programs compute, at row `n` and column `h`: half the query input plus half the attention output, where the
query row is a linear layer of the query input's row, each key row a linear layer of a memory row, the score of a key
is the product of the two rows, and the values are the memory rows themselves.

* `kerVal`: as the kernel computes it — keys in 16 blocks of 512, each score with the two vanishing correction terms
  of a high/low split, the online recursion, one exact division at the end.
* `refVal`: as the reference computes it — all 8192 scores divided by one, their maximum subtracted, exponentials
  divided by their sum, then summed against the memory column.
-/

noncomputable section

namespace Cert.Val

open Idealize.ShloMosaic Idealize.ShloMosaic.ValueIdx Cert.Spec

abbrev SN : Shape := ⟨2, ![8192, 512]⟩
abbrev SW : Shape := ⟨2, ![512, 512]⟩
abbrev SB : Shape := ⟨1, ![512]⟩

/-- The literals both programs share, as extended reals. -/
abbrev cHalf : EReal := Ideal.ofBits .f32 0x3F000000#32
abbrev cNegInf : EReal := Ideal.ofBits .f32 0xFF800000#32
abbrev cZero : EReal := Ideal.ofBits .f32 0x00000000#32
abbrev cOne : EReal := Ideal.ofBits .f32 0x3F800000#32

/-- Entry `h` of the linear layer (weights `W` indexed output-then-input, bias `bias`) applied to row `n` of `x`. -/
def linRow (x : SN.Idx → EReal) (W : SW.Idx → EReal) (bias : SB.Idx → EReal) (n : Fin 8192) (h : Fin 512) : EReal :=
  lin (fun j : Fin 512 => x (ix2 n j)) (fun j : Fin 512 => W (ix2 h j)) (bias (ix1 h))

/-- The kernel's score of key `t` of block `j` for query row `n`. -/
def kerScore (feat mem : SN.Idx → EReal) (Wq : SW.Idx → EReal) (bq : SB.Idx → EReal) (Wk : SW.Idx → EReal) (bk : SB.Idx → EReal)
    (n : Fin 8192) (j : ℕ) (t : Fin 512) : EReal :=
  score3 (linRow feat Wq bq n) (linRow mem Wk bk (keyIdx j t))

/-- The kernel's online state for row `n`, column `h`, after the first `J` key blocks. -/
def kerState (feat mem : SN.Idx → EReal) (Wq : SW.Idx → EReal) (bq : SB.Idx → EReal) (Wk : SW.Idx → EReal) (bk : SB.Idx → EReal)
    (n : Fin 8192) (h : Fin 512) (J : ℕ) : EReal × EReal × EReal :=
  run cNegInf cZero cNegInf (kerScore feat mem Wq bq Wk bk n) (fun j t => mem (ix2 (keyIdx j t) h)) J

/-- The kernel's result at `(n, h)`. -/
def kerVal (feat mem : SN.Idx → EReal) (Wq : SW.Idx → EReal) (bq : SB.Idx → EReal) (Wk : SW.Idx → EReal) (bk : SB.Idx → EReal)
    (n : Fin 8192) (h : Fin 512) : EReal :=
  cHalf * feat (ix2 n h)
    + cHalf * Ideal.div (kerState feat mem Wq bq Wk bk n h 16).2.2 (kerState feat mem Wq bq Wk bk n h 16).2.1

/-- The reference's score of key `k` for query row `n`, divided by the temperature one. -/
def refScore (feat mem : SN.Idx → EReal) (Wq : SW.Idx → EReal) (bq : SB.Idx → EReal) (Wk : SW.Idx → EReal) (bk : SB.Idx → EReal)
    (n : Fin 8192) (k : Fin 8192) : EReal :=
  Ideal.div (∑ h' : Fin 512, linRow feat Wq bq n h' * linRow mem Wk bk k h') cOne

/-- The reference's row maximum. -/
def refMax (feat mem : SN.Idx → EReal) (Wq : SW.Idx → EReal) (bq : SB.Idx → EReal) (Wk : SW.Idx → EReal) (bk : SB.Idx → EReal)
    (n : Fin 8192) : EReal :=
  max cNegInf (Finset.univ.fold max cNegInf (refScore feat mem Wq bq Wk bk n))

/-- The reference's result at `(n, h)`. -/
def refVal (feat mem : SN.Idx → EReal) (Wq : SW.Idx → EReal) (bq : SB.Idx → EReal) (Wk : SW.Idx → EReal) (bk : SB.Idx → EReal)
    (n : Fin 8192) (h : Fin 512) : EReal :=
  cHalf * feat (ix2 n h)
    + cHalf * ∑ k : Fin 8192,
        Ideal.div (Ideal.exp (refScore feat mem Wq bq Wk bk n k - refMax feat mem Wq bq Wk bk n))
          (∑ k' : Fin 8192, Ideal.exp (refScore feat mem Wq bq Wk bk n k' - refMax feat mem Wq bq Wk bk n))
          * mem (ix2 k h)

end Cert.Val

end
-- ==== Proof.Val0.lean ====
/-
  What the key-projection region leaves in its two output arrays, at the extended reals: row `k` of the first is the
  linear layer (weights already transposed: input-then-output) of memory row `k`, and the second is the memory
  array itself (narrowing a float changes nothing at the extended reals). Each output block is stored whole at its
  point and the 8 blocks of 1024 rows cover the arrays.
-/
import proofs.«424890_j49589692400271_3_alg».proof.Proof.KI.R0
import proofs.«424890_j49589692400271_3_alg».proof.Proof.ValDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Att Cert.Spec Cert.Val

-- the core's buffer contents when the region is entered
variable (V : (c : Dev nD) → (b : Ref sig .tc) → Buf (Elt Ideal) ((c : Thread nD τ).loc b))

abbrev b_mem (c : Dev nD) : SN.Idx → EReal := V c main_arg1
abbrev b_wkT (c : Dev nD) : SW.Idx → EReal := V c main_v0
abbrev b_bk2 (c : Dev nD) : (⟨2, ![1, 512]⟩ : Shape).Idx → EReal := V c main_v1

namespace KeyProj

/-! ## One block: the body's two stored values at a row and a column -/

/-- Every load and store of the body starts at the block's origin. -/
theorem off00 : (![0, 0] : Fin 2 → Nat) = fun _ => 0 := funext fun a => by fin_cases a <;> rfl

/-- The key projection's contraction: the left operand is read at the output's row … -/
theorem kdot_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- … and the contracted column; -/
theorem kdot_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- the right operand at the contracted row … -/
theorem kdot_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- … and the output's column. -/
theorem kdot_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The matrix product into a zero accumulator, at row `r` and column `h`: the row of the left operand against the column of the right. -/
theorem kmm_apply (x : FVec Ideal S1024x512 .f32) (w : FVec Ideal S512x512 .f32) (r : Fin 1024) (h : Fin 512) :
    matmul dot_S1024x512_S512x512_S1024x512_1_0_0_1_n_n (some .fp32) x w (constant (F := Ideal) S1024x512 .f32 0x00000000#32) (ix2 r h)
      = ∑ j : Fin 512, x (ix2 r j) * w (ix2 j h) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r h) ((contrEquiv1 dot_S1024x512_S512x512_S1024x512_1_0_0_1_n_n 512 rfl rfl).symm k) = ix2 r k := funext fun a => Fin.ext (by
    match a with
    | ⟨0, _⟩ => exact kdot_lhs_0 _ _
    | ⟨1, _⟩ => exact (kdot_lhs_1 _ _).trans hk)
  have er : dot_S1024x512_S512x512_S1024x512_1_0_0_1_n_n.rhsIdx (ix2 r h) ((contrEquiv1 dot_S1024x512_S512x512_S1024x512_1_0_0_1_n_n 512 rfl rfl).symm k) = ix2 k h := funext fun a => Fin.ext (by
    match a with
    | ⟨0, _⟩ => exact (kdot_rhs_0 _ _).trans hk
    | ⟨1, _⟩ => exact kdot_rhs_1 _ _)
  rw [el, er]

/-- The first payload at row `r` and column `h`: the linear layer of the block's row. -/
theorem pay1_apply (x0 : Vec Ideal S1024x512 .f32) (x1 : Vec Ideal S512x512 .f32) (x2 : Vec Ideal S1x512 .f32) (r : Fin 1024) (h : Fin 512) :
    k0_pay1 (F := Ideal) x0 x1 x2 (ix2 r h)
      = lin (fun j : Fin 512 => x0 (ix2 r j)) (fun j : Fin 512 => x1 (ix2 j h)) (x2 (ix2 (0 : Fin 1) h)) := by
  unfold k0_pay1 lin
  dsimp only
  rw [shapeCast_self, shapeCast_self]
  refine (addf_apply _ _ _).trans ?_
  rw [kmm_apply]
  refine congrArg (_ + ·) ?_
  exact broadcastTo_apply x2 broadcasts_S1x512_S1024x512 (ix2 r h) (ix2 (0 : Fin 1) h) (fun a => match a with
    | ⟨0, _⟩ => by show 0 = if (1 : Nat) = 1 then 0 else r.val; rw [if_pos rfl]
    | ⟨1, _⟩ => by show h.val = if (512 : Nat) = 1 then 0 else h.val; rw [if_neg (by decide)])

/-! ## From the 8 blocks to the arrays -/

/-- Over the 8 points: the rows' window and the two outputs' windows sit at block `t` of the rows and block 0 of the
    columns; the weights' and the bias row's windows at their one block. -/
theorem blk_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of the rows' block at point `t` is memory row `1024 t + r`. -/
theorem rows_blk (c : Dev nD) (t : Fin cfg0.N) (r : Fin 1024) (j : Fin 512) (k : Fin 8192) (hk : k.val = 1024 * t.val + r.val) :
    (iblk0 V c 0 t : S1024x512.Idx → EReal) (ix2 r j) = b_mem V c (ix2 k j) := by
  obtain ⟨e0, e1, -⟩ := blk_index0 t
  unfold iblk0
  rw [View.read_apply]
  show V c main_arg1 _ = V c main_arg1 _
  refine congrArg (V c main_arg1) ?_
  funext a; apply Fin.ext
  match a with
  | ⟨0, _⟩ => show win0_0.index t (0 : Fin 2) * 1024 + 1 * r.val = k.val; omega
  | ⟨1, _⟩ => show win0_0.index t (1 : Fin 2) * 512 + 1 * j.val = j.val; omega

/-- The weights' block is the weights' array. -/
theorem wk_blk (c : Dev nD) (t : Fin cfg0.N) (j h : Fin 512) :
    (iblk0 V c 1 t : S512x512.Idx → EReal) (ix2 j h) = b_wkT V c (ix2 j h) := by
  obtain ⟨-, -, e2, e3, -⟩ := blk_index0 t
  unfold iblk0
  rw [View.read_apply]
  show V c main_v0 _ = V c main_v0 _
  refine congrArg (V c main_v0) ?_
  funext a; apply Fin.ext
  match a with
  | ⟨0, _⟩ => show win0_1.index t (0 : Fin 2) * 512 + 1 * j.val = j.val; omega
  | ⟨1, _⟩ => show win0_1.index t (1 : Fin 2) * 512 + 1 * h.val = h.val; omega

/-- The bias row's block is the bias row. -/
theorem bias_blk (c : Dev nD) (t : Fin cfg0.N) (h : Fin 512) :
    (iblk0 V c 2 t : S1x512.Idx → EReal) (ix2 (0 : Fin 1) h) = b_bk2 V c (ix2 (0 : Fin 1) h) := by
  obtain ⟨-, -, -, -, e4, e5, -⟩ := blk_index0 t
  unfold iblk0
  rw [View.read_apply]
  show V c main_v1 _ = V c main_v1 _
  refine congrArg (V c main_v1) ?_
  funext a; apply Fin.ext
  match a with
  | ⟨0, _⟩ => show win0_2.index t (0 : Fin 2) * 1 + 1 * 0 = 0; omega
  | ⟨1, _⟩ => show win0_2.index t (1 : Fin 2) * 512 + 1 * h.val = h.val; omega

/-- The first output as one function of the three arrays: entry `(k, h)` is the linear layer of memory row `k`. -/
def keyArr (c : Dev nD) : SN.Idx → EReal := fun i =>
  lin (fun j : Fin 512 => b_mem V c (ix2 (⟨(i 0).val, idx2_lt0 i⟩ : Fin 8192) j))
    (fun j : Fin 512 => b_wkT V c (ix2 j (⟨(i 1).val, idx2_lt1 i⟩ : Fin 512)))
    (b_bk2 V c (ix2 (0 : Fin 1) (⟨(i 1).val, idx2_lt1 i⟩ : Fin 512)))

theorem keyArr_ix2 (c : Dev nD) (k : Fin 8192) (h : Fin 512) :
    keyArr V c (ix2 k h) = lin (fun j : Fin 512 => b_mem V c (ix2 k j)) (fun j : Fin 512 => b_wkT V c (ix2 j h)) (b_bk2 V c (ix2 (0 : Fin 1) h)) := rfl

/-- Given blocks that are the arrays' blocks at point `t`, the first payload at `(r, h)` is the linear layer of memory row `1024 t + r`. -/
theorem pay1_of_blocks (x0 : Vec Ideal S1024x512 .f32) (x1 : Vec Ideal S512x512 .f32) (x2 : Vec Ideal S1x512 .f32)
    (A : SN.Idx → EReal) (W : SW.Idx → EReal) (B : (⟨2, ![1, 512]⟩ : Shape).Idx → EReal) (t : ℕ)
    (h0 : ∀ (r : Fin 1024) (j : Fin 512) (k : Fin 8192), k.val = 1024 * t + r.val → x0 (ix2 r j) = A (ix2 k j))
    (h1 : ∀ j h : Fin 512, x1 (ix2 j h) = W (ix2 j h))
    (h2 : ∀ h : Fin 512, x2 (ix2 (0 : Fin 1) h) = B (ix2 (0 : Fin 1) h))
    (r : Fin 1024) (h : Fin 512) (k : Fin 8192) (hk : k.val = 1024 * t + r.val) :
    k0_pay1 (F := Ideal) x0 x1 x2 (ix2 r h)
      = lin (fun j : Fin 512 => A (ix2 k j)) (fun j : Fin 512 => W (ix2 j h)) (B (ix2 (0 : Fin 1) h)) := by
  rw [pay1_apply, h2 h]
  unfold lin
  refine congrArg (· + B (ix2 (0 : Fin 1) h)) ?_
  refine Finset.sum_congr rfl fun j _ => ?_
  show x0 (ix2 r j) * x1 (ix2 j h) = A (ix2 k j) * W (ix2 j h)
  rw [h0 r j k hk, h1 j h]

/-- What point `t` writes back into the first output is block `t` of `keyArr`. -/
theorem flushed3_eq (c : Dev nD) (t : Fin cfg0.N) :
    (dat0 (F := Ideal) V c).flushed 3 t = ((cfg0.win 3).blk t).view.read (Elt Ideal) (keyArr V c) := by
  show (cfg0.win 3).cut (grid0.coords t) ((dat0 V c).after 3 t) = _
  rw [after0_3]
  unfold out0_3
  rw [View.canon_unit_zero off00]
  simp only [View.ld_unit_zero (S := S1024x512) off00, View.ld_unit_zero (S := S512x512) off00, View.ld_unit_zero (S := S1x512) off00]
  funext y
  rw [View.read_apply]
  obtain ⟨r, h, rfl⟩ : ∃ (r : Fin 1024) (h : Fin 512), y = ix2 r h := ⟨y 0, y 1, @eq_ix2 1024 512 y⟩
  have hN : cfg0.N = 8 := N_0
  have hk : 1024 * t.val + r.val < 8192 := by have := t.isLt; omega
  obtain ⟨-, -, -, -, -, -, e6, e7, -⟩ := blk_index0 t
  have e : ((cfg0.win 3).blk t).view.emb (ix2 r h) = (ix2 (⟨1024 * t.val + r.val, hk⟩ : Fin 8192) h : SN.Idx) := by
    funext a; apply Fin.ext
    match a with
    | ⟨0, _⟩ => show win0_3.index t (0 : Fin 2) * 1024 + 1 * r.val = 1024 * t.val + r.val; omega
    | ⟨1, _⟩ => show win0_3.index t (1 : Fin 2) * 512 + 1 * h.val = h.val; omega
  rw [e, keyArr_ix2]
  exact pay1_of_blocks (iblk0 V c 0 t) (iblk0 V c 1 t) (iblk0 V c 2 t) (b_mem V c) (b_wkT V c) (b_bk2 V c) t.val
    (rows_blk V c t) (wk_blk V c t) (bias_blk V c t) r h ⟨1024 * t.val + r.val, hk⟩ rfl

/-- Every row of the first output lies in the block of the point `row / 1024`, which writes its block back. -/
theorem cover3 (i : SN.Idx) : ∃ t : Fin cfg0.N, (cfg0.win 3).flush t = true ∧ i ∈ ((cfg0.win 3).blk t).view.set := by
  have hi0 : (i 0).val < 8192 := idx2_lt0 i
  have hi1 : (i 1).val < 512 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e6, e7, -⟩ := blk_index0 t
  refine ⟨t, flush0_3 t, ?_⟩
  show i ∈ ((View.whole main_v2_0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- What point `t` writes back into the second output is block `t` of the memory array: the narrowed block is the block. -/
theorem flushed4_eq (c : Dev nD) (t : Fin cfg0.N) :
    (dat0 (F := Ideal) V c).flushed 4 t = ((cfg0.win 4).blk t).view.read (Elt Ideal) (b_mem V c) := by
  show (cfg0.win 4).cut (grid0.coords t) ((dat0 V c).after 4 t) = _
  rw [after0_4]
  unfold out0_4
  rw [View.canon_unit_zero off00]
  simp only [View.ld_unit_zero (S := S1024x512) off00]
  funext y
  rw [View.read_apply]
  obtain ⟨r, h, rfl⟩ : ∃ (r : Fin 1024) (h : Fin 512), y = ix2 r h := ⟨y 0, y 1, @eq_ix2 1024 512 y⟩
  have hN : cfg0.N = 8 := N_0
  have hk : 1024 * t.val + r.val < 8192 := by have := t.isLt; omega
  obtain ⟨-, -, -, -, -, -, -, -, e8, e9⟩ := blk_index0 t
  have e : ((cfg0.win 4).blk t).view.emb (ix2 r h) = (ix2 (⟨1024 * t.val + r.val, hk⟩ : Fin 8192) h : SN.Idx) := by
    funext a; apply Fin.ext
    match a with
    | ⟨0, _⟩ => show win0_4.index t (0 : Fin 2) * 1024 + 1 * r.val = 1024 * t.val + r.val; omega
    | ⟨1, _⟩ => show win0_4.index t (1 : Fin 2) * 512 + 1 * h.val = h.val; omega
  rw [e]
  exact rows_blk V c t r h ⟨1024 * t.val + r.val, hk⟩ rfl

/-- Every row of the second output lies in the block of the point `row / 1024`, which writes its block back. -/
theorem cover4 (i : SN.Idx) : ∃ t : Fin cfg0.N, (cfg0.win 4).flush t = true ∧ i ∈ ((cfg0.win 4).blk t).view.set := by
  have hi0 : (i 0).val < 8192 := idx2_lt0 i
  have hi1 : (i 1).val < 512 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, e8, e9⟩ := blk_index0 t
  refine ⟨t, flush0_4 t, ?_⟩
  show i ∈ ((View.whole main_v2_1).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

end KeyProj

/-- The first output array after the region: entry `(k, h)` is the linear layer of memory row `k`. -/
theorem arr3_apply (c : Dev nD) (k : Fin 8192) (h : Fin 512) :
    ((dat0 (F := Ideal) V c).arrAt 3 cfg0.N : SN.Idx → EReal) (ix2 k h)
      = lin (fun j : Fin 512 => b_mem V c (ix2 k j)) (fun j : Fin 512 => b_wkT V c (ix2 j h)) (b_bk2 V c (ix2 (0 : Fin 1) h)) :=
  (congrFun ((dat0 (F := Ideal) V c).arrAt_eq_of_cover 3 (KeyProj.keyArr V c) (fun t _ => KeyProj.flushed3_eq V c t) KeyProj.cover3) (ix2 k h)).trans
    (KeyProj.keyArr_ix2 V c k h)

/-- The second output array after the region is the memory array. -/
theorem arr4_apply (c : Dev nD) (k : Fin 8192) (h : Fin 512) :
    ((dat0 (F := Ideal) V c).arrAt 4 cfg0.N : SN.Idx → EReal) (ix2 k h) = b_mem V c (ix2 k h) :=
  congrFun ((dat0 (F := Ideal) V c).arrAt_eq_of_cover 4 (b_mem V c) (fun t _ => KeyProj.flushed4_eq V c t) KeyProj.cover4) (ix2 k h)

end Cert.KernelIdeal.AttVal

end
-- ==== Proof.Val1Row.lean ====
/-
  The carried state of the attention region read at one query row, at the extended reals: the reset state is the
  projected query row, minus infinity, zero, zero; one step is the online recursion's block update on the row's
  running maximum, denominator and (per column) numerator, with the block's scores the three-term products of the
  query row with the key block's rows and the block's values the value block's column; the output is the blend.

  The road: every payload of the region is a chain of vector operations. The pointwise ones (sum, product, difference,
  quotient, maximum, exponential, change of format, splat) read at an index as the same operation on the entries. The
  others are read once each at a row `r` and a column: a vector of 1024 laid out as a column, a column spread over 512
  columns, one row spread over 1024 rows, the sum and the maximum over a row's 512 lanes, and the two matrix products
  into zero (rows against rows of the right operand for the scores; rows against columns for the projection and for
  the weights against the values). Composing them gives each payload at `(r, h)`, and the block update is the triple of
  three of them.
-/
import proofs.«424890_j49589692400271_3_alg».proof.Proof.KI.R1Def
import proofs.«424890_j49589692400271_3_alg».proof.Proof.ValDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Att Cert.Spec Cert.Val

namespace Row

/-! ## The layout operations of the region's payloads, read at a row and a column -/

/-- A vector of 1024 entries laid out as a column reads, at row `r`, entry `r`. -/
theorem colOfVec_apply {α : Type} (v : S1024.Idx → α) (r : Fin 1024) :
    shapeCast S1024x1 v shapeCasts_S1024_S1024x1 (ix2 r (0 : Fin 1)) = v (ix1 r) :=
  shapeCast_apply v shapeCasts_S1024_S1024x1 _ _ (by
    rw [Shape.rowMajor_val_one, Shape.rowMajor_val_two]
    show r.val = r.val * 1 + 0
    omega)

/-- A column spread over 512 columns reads, at `(r, h)`, the column's entry at row `r`. -/
theorem spreadCol_apply {α : Type} (v : S1024x1.Idx → α) (r : Fin 1024) (h : Fin 512) :
    broadcastTo S1024x512 v broadcasts_S1024x1_S1024x512 (ix2 r h) = v (ix2 r (0 : Fin 1)) := by
  refine broadcastTo_apply v broadcasts_S1024x1_S1024x512 (ix2 r h) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else h.val
    rw [if_pos rfl]

/-! ## The lane reductions, read at a row -/

/-- The index a lane reduction inserts coordinate `k` into, over row `r`, is `(r, k)`. -/
theorem lift_row (r : Fin 1024) (k : Fin 512) :
    reduces_S1024x512_S1024.lift (ix1 r) k = ix2 r k := by
  funext c
  refine Fin.ext ?_
  match c with
  | ⟨0, _⟩ => rfl
  | ⟨1, _⟩ => rfl

/-- The sum over the lanes of a block, at row `r`. -/
theorem laneSum_apply (src : FVec Ideal S1024x512 .f32) (r : Fin 1024) :
    multiReduction (F := Ideal) .add [1] S1024 src 0x00000000#32 reduces_S1024x512_S1024 (.inl rfl) rfl (ix1 r)
      = ∑ k : Fin 512, src (ix2 r k) := by
  refine (Ideal.multiReduction_add_single src _ reduces_S1024x512_S1024 (.inl rfl) rfl (ix1 r)).trans ?_
  exact Finset.sum_congr rfl fun k _ => congrArg src (lift_row r k)

/-- The maximum over the lanes of a block, from minus infinity, at row `r`. -/
theorem laneMax_apply (src : FVec Ideal S1024x512 .f32) (r : Fin 1024) :
    multiReduction (F := Ideal) .maximumf [1] S1024 src 0xFF800000#32 reduces_S1024x512_S1024 (.inl rfl) rfl (ix1 r)
      = Finset.univ.fold max cNegInf (fun k : Fin 512 => src (ix2 r k)) := by
  refine (Ideal.multiReduction_maximumf_single src _ reduces_S1024x512_S1024 (.inl rfl) rfl (ix1 r)).trans ?_
  exact congrArg (Finset.univ.fold max cNegInf) (funext fun k => congrArg src (lift_row r k))

/-! ## The two matrix products, read at a row and a column

The plain product contracts the left operand's columns with the right operand's rows; the other contracts the left
operand's columns with the right operand's columns (a product with the transpose). -/

theorem lhs_plain_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_plain_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_plain_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_plain_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The plain product into zero, at `(r, h)`: the sum over `k` of the left operand at `(r, k)` times the right at `(k, h)`. -/
theorem mmPlain_apply {φ₁ φ₂ : FTy} (prec : Option ContractPrecision) (lhs : FVec Ideal S1024x512 φ₁) (rhs : FVec Ideal S512x512 φ₂)
    (r : Fin 1024) (h : Fin 512) :
    matmul dot_S1024x512_S512x512_S1024x512_1_0_0_1_n_n prec lhs rhs (constant (F := Ideal) S1024x512 .f32 0x00000000#32) (ix2 r h)
      = ∑ k : Fin 512, lhs (ix2 r k) * rhs (ix2 k h) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r h) ((contrEquiv1 dot_S1024x512_S512x512_S1024x512_1_0_0_1_n_n 512 rfl rfl).symm k) = ix2 r k := funext fun a => Fin.ext (by
    match a with
    | ⟨0, _⟩ => exact lhs_plain_0 _ _
    | ⟨1, _⟩ => exact (lhs_plain_1 _ _).trans hk)
  have er : dot_S1024x512_S512x512_S1024x512_1_0_0_1_n_n.rhsIdx (ix2 r h) ((contrEquiv1 dot_S1024x512_S512x512_S1024x512_1_0_0_1_n_n 512 rfl rfl).symm k) = ix2 k h := funext fun a => Fin.ext (by
    match a with
    | ⟨0, _⟩ => exact (rhs_plain_0 _ _).trans hk
    | ⟨1, _⟩ => exact rhs_plain_1 _ _)
  rw [el, er]

theorem lhs_tr_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_tr_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_tr_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_tr_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The product with the transpose into zero, at `(r, t)`: the sum over `k` of the left operand at `(r, k)` times the
    right at `(t, k)`. -/
theorem mmTr_apply {φ₁ φ₂ : FTy} (prec : Option ContractPrecision) (lhs : FVec Ideal S1024x512 φ₁) (rhs : FVec Ideal S512x512 φ₂)
    (r : Fin 1024) (t : Fin 512) :
    matmul dot_S1024x512_S512x512_S1024x512_1_1_0_0_n_n prec lhs rhs (constant (F := Ideal) S1024x512 .f32 0x00000000#32) (ix2 r t)
      = ∑ k : Fin 512, lhs (ix2 r k) * rhs (ix2 t k) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 r t) ((contrEquiv1 dot_S1024x512_S512x512_S1024x512_1_1_0_0_n_n 512 rfl rfl).symm k) = ix2 r k := funext fun a => Fin.ext (by
    match a with
    | ⟨0, _⟩ => exact lhs_tr_0 _ _
    | ⟨1, _⟩ => exact (lhs_tr_1 _ _).trans hk)
  have er : dot_S1024x512_S512x512_S1024x512_1_1_0_0_n_n.rhsIdx (ix2 r t) ((contrEquiv1 dot_S1024x512_S512x512_S1024x512_1_1_0_0_n_n 512 rfl rfl).symm k) = ix2 t k := funext fun a => Fin.ext (by
    match a with
    | ⟨0, _⟩ => exact rhs_tr_0 _ _
    | ⟨1, _⟩ => exact (rhs_tr_1 _ _).trans hk)
  rw [el, er]

/-! ## The payloads of the region at a row and a column -/

/-- The exponential of a vector, at an index. -/
theorem exp_apply {s : Shape} {φ : FTy} (x : FVec Ideal s φ) (i : s.Idx) : exp x i = Ideal.exp (x i) := rfl

/-- The block's scores: the product of the query rows with the key rows, plus the two cross products with the low parts
    of a high/low split whose low parts are an entry minus itself. -/
theorem pay10_apply (v3 : Vec Ideal S1024x512 .f32) (v4 : Vec Ideal S512x512 .f32) (r : Fin 1024) (t : Fin 512) :
    k1_pay10 v3 v4 (ix2 r t) = score3 (fun h' : Fin 512 => v3 (ix2 r h')) (fun h' : Fin 512 => v4 (ix2 t h')) := by
  unfold k1_pay10 score3
  simp only [shapeCast_self, addf_apply, mmTr_apply, truncf_apply, subf_apply]

/-- The new running maximum of row `r`: the old one against the maximum of the block's scores. -/
theorem pay11_apply (v3 : Vec Ideal S1024x512 .f32) (v4 : Vec Ideal S512x512 .f32) (v21 : Vec Ideal S1024x1 .f32) (r : Fin 1024) :
    k1_pay11 v3 v4 v21 (ix2 r (0 : Fin 1))
      = max (v21 (ix2 r (0 : Fin 1)))
          (Finset.univ.fold max cNegInf
            (fun t : Fin 512 => score3 (fun h' : Fin 512 => v3 (ix2 r h')) (fun h' : Fin 512 => v4 (ix2 t h')))) := by
  unfold k1_pay11
  simp only [maximumf_apply, colOfVec_apply]
  rw [laneMax_apply]
  simp only [pay10_apply]

/-- The factor the old sums are rescaled by: the exponential of the old maximum less the new. -/
theorem pay12_apply (v3 : Vec Ideal S1024x512 .f32) (v4 : Vec Ideal S512x512 .f32) (v21 v25 : Vec Ideal S1024x1 .f32) (r : Fin 1024) :
    k1_pay12 v3 v4 v21 v25 (ix2 r (0 : Fin 1))
      = Ideal.exp (v25 (ix2 r (0 : Fin 1)) - k1_pay11 v3 v4 v21 (ix2 r (0 : Fin 1))) := by
  unfold k1_pay12
  simp only [exp_apply, subf_apply]

/-- The block's weights: exponentials of the scores less the new running maximum of their row. -/
theorem pay13_apply (v3 : Vec Ideal S1024x512 .f32) (v4 : Vec Ideal S512x512 .f32) (v21 : Vec Ideal S1024x1 .f32) (r : Fin 1024) (t : Fin 512) :
    k1_pay13 v3 v4 v21 (ix2 r t)
      = Ideal.exp (score3 (fun h' : Fin 512 => v3 (ix2 r h')) (fun h' : Fin 512 => v4 (ix2 t h'))
          - k1_pay11 v3 v4 v21 (ix2 r (0 : Fin 1))) := by
  unfold k1_pay13
  simp only [exp_apply, subf_apply, spreadCol_apply, pay10_apply]

/-- The new running denominator of row `r`: the old one rescaled, plus the sum of the block's weights. -/
theorem pay14_apply (v3 : Vec Ideal S1024x512 .f32) (v4 : Vec Ideal S512x512 .f32) (v21 v25 v31 : Vec Ideal S1024x1 .f32) (r : Fin 1024) :
    k1_pay14 v3 v4 v21 v25 v31 (ix2 r (0 : Fin 1))
      = Ideal.exp (v25 (ix2 r (0 : Fin 1)) - k1_pay11 v3 v4 v21 (ix2 r (0 : Fin 1))) * v31 (ix2 r (0 : Fin 1))
        + ∑ t : Fin 512, Ideal.exp (score3 (fun h' : Fin 512 => v3 (ix2 r h')) (fun h' : Fin 512 => v4 (ix2 t h'))
            - k1_pay11 v3 v4 v21 (ix2 r (0 : Fin 1))) := by
  unfold k1_pay14
  simp only [addf_apply, mulf_apply, colOfVec_apply, pay12_apply]
  rw [laneSum_apply]
  simp only [pay13_apply]

/-- The new running numerator at `(r, h)`: the old one rescaled, plus the block's weights against the value block's
    column `h`. -/
theorem pay2_apply (v7 : FVec Ideal S512x512 .bf16) (v27 : FVec Ideal S1024x1 .f32) (v30 : FVec Ideal S1024x512 .f32)
    (v39 : Vec Ideal S1024x512 .f32) (r : Fin 1024) (h : Fin 512) :
    k1_pay2 v7 v27 v30 v39 (ix2 r h)
      = v27 (ix2 r (0 : Fin 1)) * v39 (ix2 r h) + ∑ t : Fin 512, v30 (ix2 r t) * v7 (ix2 t h) := by
  unfold k1_pay2
  simp only [shapeCast_self, addf_apply, mulf_apply, spreadCol_apply, mmPlain_apply, truncf_apply]

/-- The projected query block at `(r, h)`: the query row against column `h` of the weights, plus the bias. -/
theorem pay5_apply (v54 : Vec Ideal S1024x512 .f32) (v55 : Vec Ideal S512x512 .f32) (v58 : Vec Ideal S1x512 .f32) (r : Fin 1024) (h : Fin 512) :
    k1_pay5 v54 v55 v58 (ix2 r h)
      = (∑ j : Fin 512, v54 (ix2 r j) * v55 (ix2 j h)) + v58 (ix2 (0 : Fin 1) h) := by
  unfold k1_pay5
  simp only [shapeCast_self, addf_apply, mmPlain_apply, broadcastTo_1b_ab_apply]

/-- The output block at `(r, h)`: half the query block plus half of numerator over denominator. -/
theorem pay4_apply (v54 : Vec Ideal S1024x512 .f32) (v55 : Vec Ideal S1024x1 .f32) (v58 : Vec Ideal S1024x512 .f32) (r : Fin 1024) (h : Fin 512) :
    k1_pay4 v54 v55 v58 (ix2 r h)
      = cHalf * v58 (ix2 r h) + cHalf * Ideal.div (v54 (ix2 r h)) (v55 (ix2 r (0 : Fin 1))) := by
  unfold k1_pay4
  simp only [addf_apply, mulf_apply, divf_apply, broadcast_apply, spreadCol_apply]
  rfl

/-- The three payloads that only restate a value in its own shape. -/
theorem pay1_eq (v : FVec Ideal S1024x1 .f32) : k1_pay1 v = v := shapeCast_self v shapeCasts_S1024x1_S1024x1
theorem pay3_eq (v : FVec Ideal S1024x1 .f32) : k1_pay3 v = v := shapeCast_self v shapeCasts_S1024x1_S1024x1
theorem pay9_eq (v : Vec Ideal S512x512 .bf16) : k1_pay9 v = v := shapeCast_self v shapeCasts_S512x512_S512x512

/-- The three constant payloads of the reset: minus infinity, zero, zero, at every index. -/
theorem pay6_apply (i : S1024x1.Idx) : k1_pay6 (F := Ideal) i = cNegInf :=
  congrFun (shapeCast_self (broadcast S1024x1 (Scalar.ofBits (F := Ideal) .f32 0xFF800000#32)) shapeCasts_S1024x1_S1024x1) i
theorem pay7_apply (i : S1024x1.Idx) : k1_pay7 (F := Ideal) i = cZero :=
  congrFun (shapeCast_self (broadcast S1024x1 (Scalar.ofBits (F := Ideal) .f32 0x00000000#32)) shapeCasts_S1024x1_S1024x1) i
theorem pay8_apply (i : S1024x512.Idx) : k1_pay8 (F := Ideal) i = cZero :=
  congrFun (shapeCast_self (broadcast S1024x512 (Scalar.ofBits (F := Ideal) .f32 0x00000000#32)) shapeCasts_S1024x512_S1024x512) i

end Row

/-! ## The state at a row -/

theorem scReset_q (x0 : Vec Ideal S1024x512 .f32) (x1 : Vec Ideal S512x512 .f32) (x2 : Vec Ideal S1x512 .f32) (r : Fin 1024) (h : Fin 512) :
    (scReset x0 x1 x2).1 (ix2 r h) = lin (fun j : Fin 512 => x0 (ix2 r j)) (fun j : Fin 512 => x1 (ix2 j h)) (x2 (ix2 (0 : Fin 1) h)) :=
  Row.pay5_apply x0 x1 x2 r h

theorem scReset_m (x0 : Vec Ideal S1024x512 .f32) (x1 : Vec Ideal S512x512 .f32) (x2 : Vec Ideal S1x512 .f32) (r : Fin 1024) :
    (scReset x0 x1 x2).2.1 (ix2 r (0 : Fin 1)) = cNegInf :=
  Row.pay6_apply (ix2 r (0 : Fin 1))

theorem scReset_l (x0 : Vec Ideal S1024x512 .f32) (x1 : Vec Ideal S512x512 .f32) (x2 : Vec Ideal S1x512 .f32) (r : Fin 1024) :
    (scReset x0 x1 x2).2.2.1 (ix2 r (0 : Fin 1)) = cZero :=
  Row.pay7_apply (ix2 r (0 : Fin 1))

theorem scReset_a (x0 : Vec Ideal S1024x512 .f32) (x1 : Vec Ideal S512x512 .f32) (x2 : Vec Ideal S1x512 .f32) (r : Fin 1024) (h : Fin 512) :
    (scReset x0 x1 x2).2.2.2 (ix2 r h) = cZero :=
  Row.pay8_apply (ix2 r h)

theorem scStep_q (s : Sc Ideal) (x3 : Vec Ideal S512x512 .f32) (x4 : Vec Ideal S512x512 .bf16) : (scStep s x3 x4).1 = s.1 := rfl

/-- One step, at row `r` and column `h`: the block update of the online recursion. -/
theorem scStep_mla (s : Sc Ideal) (x3 : Vec Ideal S512x512 .f32) (x4 : Vec Ideal S512x512 .bf16) (r : Fin 1024) (h : Fin 512) :
    ((scStep s x3 x4).2.1 (ix2 r (0 : Fin 1)), (scStep s x3 x4).2.2.1 (ix2 r (0 : Fin 1)), (scStep s x3 x4).2.2.2 (ix2 r h))
      = upd (s.2.1 (ix2 r (0 : Fin 1)), s.2.2.1 (ix2 r (0 : Fin 1)), s.2.2.2 (ix2 r h)) cNegInf
          (fun t : Fin 512 => score3 (fun h' : Fin 512 => s.1 (ix2 r h')) (fun h' : Fin 512 => x3 (ix2 t h')))
          (fun t : Fin 512 => x4 (ix2 t h)) := by
  unfold scStep upd
  simp only [Row.pay1_eq, Row.pay3_eq, Row.pay9_eq, Row.pay2_apply, Row.pay14_apply, Row.pay12_apply, Row.pay13_apply,
    Row.pay11_apply]

theorem outLast_apply (s : Sc Ideal) (x0 : Vec Ideal S1024x512 .f32) (r : Fin 1024) (h : Fin 512) :
    outLast s x0 (ix2 r h) = cHalf * x0 (ix2 r h) + cHalf * Ideal.div (s.2.2.2 (ix2 r h)) (s.2.2.1 (ix2 r (0 : Fin 1))) :=
  Row.pay4_apply s.2.2.2 s.2.2.1 x0 r h

end Cert.KernelIdeal.AttVal

end
-- ==== Proof.Val1.lean ====
/-
  What the attention region leaves in the result array, at the extended reals. Fix the contents `V` the region is
  entered from. For query row `n` (row `n % 1024` of query tile `n / 1024`) the carried state after the tile's
  `J`-th key block is the online recursion over the first `J` blocks of 512 keys (`st1`), with the query row the
  linear layer of the query input's row, the keys the rows of the key array and the values the rows of the value
  array; the output block stored at the tile's last key block is the blend of the state after all 16, and the
  blocks written back at those 8 points cover the result array.
-/
import proofs.«424890_j49589692400271_3_alg».proof.Proof.Val1Row
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Att Cert.Spec Cert.Val

-- the core's buffer contents when the region is entered
variable (V : (c : Dev nD) → (b : Ref sig .tc) → Buf (Elt Ideal) ((c : Thread nD τ).loc b))

/-- The region's five input arrays as plain arrays. -/
abbrev a_feat (c : Dev nD) : SN.Idx → EReal := V c main_arg0
abbrev a_wqT (c : Dev nD) : SW.Idx → EReal := V c main_v3
abbrev a_bq2 (c : Dev nD) : (⟨2, ![1, 512]⟩ : Shape).Idx → EReal := V c main_v4
abbrev a_K (c : Dev nD) : SN.Idx → EReal := V c main_v2_0
abbrev a_V (c : Dev nD) : SN.Idx → EReal := V c main_v2_1

/-- Query row `n`: the linear layer (weights already transposed: input-then-output) of the query input's row. -/
def qRow (c : Dev nD) (n : Fin 8192) (h' : Fin 512) : EReal :=
  lin (fun j' : Fin 512 => a_feat V c (ix2 n j')) (fun j' : Fin 512 => a_wqT V c (ix2 j' h')) (a_bq2 V c (ix2 (0 : Fin 1) h'))

/-- The online state of row `n`, column `h`, after the first `J` key blocks. -/
def st1 (c : Dev nD) (n : Fin 8192) (h : Fin 512) (J : ℕ) : EReal × EReal × EReal :=
  run cNegInf cZero cNegInf
    (fun j t => score3 (qRow V c n) (fun h' : Fin 512 => a_K V c (ix2 (keyIdx j t) h')))
    (fun j t => a_V V c (ix2 (keyIdx j t) h)) J

/-! ## Where each block sits in its array -/

/-- The block indices of the six windows at a point, decided once over the grid: the query and output blocks move
    with the query tile, the key and value blocks with the key tile, the weights and bias stay. -/
theorem idx1 : ∀ t : Fin cfg1.N,
    win1_0.index t (0 : Fin 2) = t.val / 16 ∧ win1_0.index t (1 : Fin 2) = 0
  ∧ win1_1.index t (0 : Fin 2) = 0 ∧ win1_1.index t (1 : Fin 2) = 0
  ∧ win1_2.index t (0 : Fin 2) = 0 ∧ win1_2.index t (1 : Fin 2) = 0
  ∧ win1_3.index t (0 : Fin 2) = t.val % 16 ∧ win1_3.index t (1 : Fin 2) = 0
  ∧ win1_4.index t (0 : Fin 2) = t.val % 16 ∧ win1_4.index t (1 : Fin 2) = 0
  ∧ win1_5.index t (0 : Fin 2) = t.val / 16 ∧ win1_5.index t (1 : Fin 2) = 0 :=
  (by decide +kernel : ∀ t : Fin grid1.N, _)

/-- Row `r` of the query block at a point is row `1024 · (query tile) + r` of the query input. -/
theorem blk0_apply (c : Dev nD) (t : Fin cfg1.N) (r : Fin 1024) (j : Fin 512) (n : Fin 8192)
    (hn : n.val = 1024 * (t.val / 16) + r.val) :
    (iblk1 V c 0 t : Vec Ideal S1024x512 .f32) (ix2 r j) = a_feat V c (ix2 n j) := by
  obtain ⟨e0, e1, -⟩ := idx1 t
  show V c main_arg0 (((cfg1.win 0).blk t).view.emb (ix2 r j)) = V c main_arg0 (ix2 n j)
  refine congrArg _ ?_
  funext a; apply Fin.ext
  match a with
  | ⟨0, _⟩ => show win1_0.index t (0 : Fin 2) * 1024 + 1 * r.val = n.val; omega
  | ⟨1, _⟩ => show win1_0.index t (1 : Fin 2) * 512 + 1 * j.val = j.val; omega

/-- The weight block is the whole weight array. -/
theorem blk1_apply (c : Dev nD) (t : Fin cfg1.N) (j h : Fin 512) :
    (iblk1 V c 1 t : Vec Ideal S512x512 .f32) (ix2 j h) = a_wqT V c (ix2 j h) := by
  obtain ⟨-, -, e0, e1, -⟩ := idx1 t
  show V c main_v3 (((cfg1.win 1).blk t).view.emb (ix2 j h)) = V c main_v3 (ix2 j h)
  refine congrArg _ ?_
  funext a; apply Fin.ext
  match a with
  | ⟨0, _⟩ => show win1_1.index t (0 : Fin 2) * 512 + 1 * j.val = j.val; omega
  | ⟨1, _⟩ => show win1_1.index t (1 : Fin 2) * 512 + 1 * h.val = h.val; omega

/-- The bias block is the whole bias row. -/
theorem blk2_apply (c : Dev nD) (t : Fin cfg1.N) (h : Fin 512) :
    (iblk1 V c 2 t : Vec Ideal S1x512 .f32) (ix2 (0 : Fin 1) h) = a_bq2 V c (ix2 (0 : Fin 1) h) := by
  obtain ⟨-, -, -, -, e0, e1, -⟩ := idx1 t
  show V c main_v4 (((cfg1.win 2).blk t).view.emb (ix2 (0 : Fin 1) h)) = V c main_v4 (ix2 (0 : Fin 1) h)
  refine congrArg _ ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 512 + 1 * h.val = h.val; omega

/-- Row `s` of the key block at a point is row `512 · (key tile) + s` of the key array. -/
theorem blk3_apply (c : Dev nD) (t : Fin cfg1.N) (s : Fin 512) (h' : Fin 512) (m : Fin 8192)
    (hm : m.val = 512 * (t.val % 16) + s.val) :
    (iblk1 V c 3 t : Vec Ideal S512x512 .f32) (ix2 s h') = a_K V c (ix2 m h') := by
  obtain ⟨-, -, -, -, -, -, e0, e1, -⟩ := idx1 t
  show V c main_v2_0 (((cfg1.win 3).blk t).view.emb (ix2 s h')) = V c main_v2_0 (ix2 m h')
  refine congrArg _ ?_
  funext a; apply Fin.ext
  match a with
  | ⟨0, _⟩ => show win1_3.index t (0 : Fin 2) * 512 + 1 * s.val = m.val; omega
  | ⟨1, _⟩ => show win1_3.index t (1 : Fin 2) * 512 + 1 * h'.val = h'.val; omega

/-- Row `s` of the value block at a point is row `512 · (key tile) + s` of the value array. -/
theorem blk4_apply (c : Dev nD) (t : Fin cfg1.N) (s : Fin 512) (h : Fin 512) (m : Fin 8192)
    (hm : m.val = 512 * (t.val % 16) + s.val) :
    (iblk1 V c 4 t : Vec Ideal S512x512 .bf16) (ix2 s h) = a_V V c (ix2 m h) := by
  obtain ⟨-, -, -, -, -, -, -, -, e0, e1, -⟩ := idx1 t
  show V c main_v2_1 (((cfg1.win 4).blk t).view.emb (ix2 s h)) = V c main_v2_1 (ix2 m h)
  refine congrArg _ ?_
  funext a; apply Fin.ext
  match a with
  | ⟨0, _⟩ => show win1_4.index t (0 : Fin 2) * 512 + 1 * s.val = m.val; omega
  | ⟨1, _⟩ => show win1_4.index t (1 : Fin 2) * 512 + 1 * h.val = h.val; omega

/-- Key `s` of block `j < 16` is key `512 · j + s`. -/
theorem keyIdx_val (j : ℕ) (hj : j < 16) (s : Fin 512) : (keyIdx j s).val = 512 * j + s.val := by
  show (j * 512 + s.val) % 8192 = 512 * j + s.val
  have hs := s.isLt
  rw [Nat.mod_eq_of_lt (by omega)]; omega

/-! ## One row of the carried state through one point -/

/-- One key block folded into a state whose row `r` is known: the query row is kept, and maximum, denominator and
    numerator take one block update of the online recursion. -/
theorem next_row (s : Sc Ideal) (x3 : Vec Ideal S512x512 .f32) (x4 : Vec Ideal S512x512 .bf16) (r : Fin 1024)
    (q : Fin 512 → EReal) (st : Fin 512 → EReal × EReal × EReal) (K Vv : Fin 512 → Fin 512 → EReal)
    (hq : ∀ h' : Fin 512, s.1 (ix2 r h') = q h')
    (hst : ∀ h : Fin 512, (s.2.1 (ix2 r (0 : Fin 1)), s.2.2.1 (ix2 r (0 : Fin 1)), s.2.2.2 (ix2 r h)) = st h)
    (h3 : ∀ t h' : Fin 512, x3 (ix2 t h') = K t h') (h4 : ∀ t h : Fin 512, x4 (ix2 t h) = Vv t h) :
    (∀ h' : Fin 512, (scStep s x3 x4).1 (ix2 r h') = q h')
    ∧ ∀ h : Fin 512, ((scStep s x3 x4).2.1 (ix2 r (0 : Fin 1)), (scStep s x3 x4).2.2.1 (ix2 r (0 : Fin 1)), (scStep s x3 x4).2.2.2 (ix2 r h))
        = upd (st h) cNegInf (fun t : Fin 512 => score3 q (K t)) (fun t : Fin 512 => Vv t h) := by
  refine ⟨fun h' => hq h', fun h => ?_⟩
  rw [scStep_mla s x3 x4 r h, hst h]
  have e1 : (fun h' : Fin 512 => s.1 (ix2 r h')) = q := funext hq
  have e3 : ∀ t : Fin 512, (fun h' : Fin 512 => x3 (ix2 t h')) = K t := fun t => funext (h3 t)
  have e4 : (fun t : Fin 512 => x4 (ix2 t h)) = fun t : Fin 512 => Vv t h := funext fun t => h4 t h
  rw [e1, e4]
  simp only [e3]

/-- The first key block of a query tile: from the reset state, whose row `r` is the projected query row, minus
    infinity, zero and zero. -/
theorem first_row (x0 : Vec Ideal S1024x512 .f32) (x1 : Vec Ideal S512x512 .f32) (x2 : Vec Ideal S1x512 .f32)
    (x3 : Vec Ideal S512x512 .f32) (x4 : Vec Ideal S512x512 .bf16) (r : Fin 1024)
    (X : Fin 512 → EReal) (W : Fin 512 → Fin 512 → EReal) (B : Fin 512 → EReal) (K Vv : Fin 512 → Fin 512 → EReal)
    (h0 : ∀ j : Fin 512, x0 (ix2 r j) = X j) (h1 : ∀ j h : Fin 512, x1 (ix2 j h) = W j h)
    (h2 : ∀ h : Fin 512, x2 (ix2 (0 : Fin 1) h) = B h)
    (h3 : ∀ t h' : Fin 512, x3 (ix2 t h') = K t h') (h4 : ∀ t h : Fin 512, x4 (ix2 t h) = Vv t h) :
    (∀ h' : Fin 512, (scStep (scReset x0 x1 x2) x3 x4).1 (ix2 r h') = lin X (fun j : Fin 512 => W j h') (B h'))
    ∧ ∀ h : Fin 512, ((scStep (scReset x0 x1 x2) x3 x4).2.1 (ix2 r (0 : Fin 1)), (scStep (scReset x0 x1 x2) x3 x4).2.2.1 (ix2 r (0 : Fin 1)),
          (scStep (scReset x0 x1 x2) x3 x4).2.2.2 (ix2 r h))
        = upd (cNegInf, cZero, cZero) cNegInf (fun t : Fin 512 => score3 (fun h' : Fin 512 => lin X (fun j : Fin 512 => W j h') (B h')) (K t))
            (fun t : Fin 512 => Vv t h) := by
  refine next_row (scReset x0 x1 x2) x3 x4 r (fun h' : Fin 512 => lin X (fun j : Fin 512 => W j h') (B h'))
    (fun _ => (cNegInf, cZero, cZero)) K Vv (fun h' => ?_) (fun h => ?_) h3 h4
  · rw [scReset_q x0 x1 x2 r h', h2 h']
    have e0 : (fun j : Fin 512 => x0 (ix2 r j)) = X := funext h0
    have e1 : (fun j : Fin 512 => x1 (ix2 j h')) = fun j : Fin 512 => W j h' := funext fun j => h1 j h'
    rw [e0, e1]
  · rw [scReset_m x0 x1 x2 r, scReset_l x0 x1 x2 r, scReset_a x0 x1 x2 r h]

/-! ## The invariant: the carried state after every point -/

/-- After the point at position `k`, row `r` of the carried state is, for query row `n = 1024 · (k / 16) + r`: the
    projected query row, and the online state after the first `k % 16 + 1` key blocks. -/
def RowInv (c : Dev nD) (k : ℕ) (hk : k < cfg1.N) : Prop :=
  ∀ (r : Fin 1024) (n : Fin 8192), n.val = 1024 * (k / 16) + r.val →
    (∀ h' : Fin 512, (scAt V c k hk).1 (ix2 r h') = qRow V c n h')
    ∧ ∀ h : Fin 512, ((scAt V c k hk).2.1 (ix2 r (0 : Fin 1)), (scAt V c k hk).2.2.1 (ix2 r (0 : Fin 1)), (scAt V c k hk).2.2.2 (ix2 r h))
        = st1 V c n h (k % 16 + 1)

theorem rowInv_first (c : Dev nD) (t : Fin cfg1.N) (h0 : t.val % 16 = 0) : RowInv V c t.val t.isLt := by
  intro r n hn
  rw [scAt_first V c t h0]
  have hst : ∀ h : Fin 512, st1 V c n h (t.val % 16 + 1)
      = upd (cNegInf, cZero, cZero) cNegInf (fun s : Fin 512 => score3 (qRow V c n) (fun h' : Fin 512 => a_K V c (ix2 (keyIdx 0 s) h')))
          (fun s : Fin 512 => a_V V c (ix2 (keyIdx 0 s) h)) := by
    intro h; rw [h0]; rfl
  simp only [hst]
  exact first_row (iblk1 V c 0 t) (iblk1 V c 1 t) (iblk1 V c 2 t) (iblk1 V c 3 t) (iblk1 V c 4 t) r
    (fun j : Fin 512 => a_feat V c (ix2 n j)) (fun j h : Fin 512 => a_wqT V c (ix2 j h)) (fun h : Fin 512 => a_bq2 V c (ix2 (0 : Fin 1) h))
    (fun s h' : Fin 512 => a_K V c (ix2 (keyIdx 0 s) h')) (fun s h : Fin 512 => a_V V c (ix2 (keyIdx 0 s) h))
    (fun j => blk0_apply V c t r j n hn) (fun j h => blk1_apply V c t j h) (fun h => blk2_apply V c t h)
    (fun s h' => blk3_apply V c t s h' (keyIdx 0 s) (by rw [keyIdx_val 0 (by omega) s, h0]))
    (fun s h => blk4_apply V c t s h (keyIdx 0 s) (by rw [keyIdx_val 0 (by omega) s, h0]))

theorem rowInv_next (c : Dev nD) (t : Fin cfg1.N) (h0 : ¬ t.val % 16 = 0)
    (ih : RowInv V c (t.val - 1) (Nat.lt_of_le_of_lt (Nat.sub_le _ _) t.isLt)) : RowInv V c t.val t.isLt := by
  intro r n hn
  rw [scAt_next V c t h0]
  have hdiv : (t.val - 1) / 16 = t.val / 16 := by omega
  have hmod : (t.val - 1) % 16 + 1 = t.val % 16 := by omega
  obtain ⟨ihq, ihs⟩ := ih r n (by rw [hdiv]; exact hn)
  have hst : ∀ h : Fin 512, st1 V c n h (t.val % 16 + 1)
      = upd (st1 V c n h ((t.val - 1) % 16 + 1)) cNegInf
          (fun s : Fin 512 => score3 (qRow V c n) (fun h' : Fin 512 => a_K V c (ix2 (keyIdx (t.val % 16) s) h')))
          (fun s : Fin 512 => a_V V c (ix2 (keyIdx (t.val % 16) s) h)) := by
    intro h; rw [hmod]; rfl
  simp only [hst]
  have hlt : t.val % 16 < 16 := Nat.mod_lt _ (by omega)
  exact next_row (scAt V c (t.val - 1) (Nat.lt_of_le_of_lt (Nat.sub_le _ _) t.isLt)) (iblk1 V c 3 t) (iblk1 V c 4 t) r
    (qRow V c n) (fun h : Fin 512 => st1 V c n h ((t.val - 1) % 16 + 1))
    (fun s h' : Fin 512 => a_K V c (ix2 (keyIdx (t.val % 16) s) h')) (fun s h : Fin 512 => a_V V c (ix2 (keyIdx (t.val % 16) s) h))
    ihq ihs
    (fun s h' => blk3_apply V c t s h' (keyIdx (t.val % 16) s) (keyIdx_val _ hlt s))
    (fun s h => blk4_apply V c t s h (keyIdx (t.val % 16) s) (keyIdx_val _ hlt s))

theorem rowInv (c : Dev nD) : ∀ (k : ℕ) (hk : k < cfg1.N), RowInv V c k hk := by
  intro k
  induction k with
  | zero => intro hk; exact rowInv_first V c ⟨0, hk⟩ rfl
  | succ k ih =>
    intro hk
    by_cases h0 : (k + 1) % 16 = 0
    · exact rowInv_first V c ⟨k + 1, hk⟩ h0
    · exact rowInv_next V c ⟨k + 1, hk⟩ h0 (ih _)

/-! ## The block written back, and the array -/

/-- The result array as one function of the region's input arrays. -/
abbrev G5 (c : Dev nD) : SN.Idx → EReal := fun i =>
  cHalf * a_feat V c (ix2 (i 0) (i 1)) + cHalf * Ideal.div (st1 V c (i 0) (i 1) 16).2.2 (st1 V c (i 0) (i 1) 16).2.1

/-- Two functions of a rank-two index agree when they agree at every pair of coordinates. -/
theorem ext_ix2 {n0 n1 : ℕ} {α : Type} (f g : (⟨2, ![n0, n1]⟩ : Shape).Idx → α)
    (h : ∀ (a : Fin n0) (b : Fin n1), f (ix2 a b) = g (ix2 a b)) : f = g :=
  funext fun j => by rw [eq_ix2 j]; exact h _ _

/-- What a last key tile's point writes back is its block of `G5`. -/
theorem flushed_eq (c : Dev nD) (t : Fin cfg1.N) (hf : (cfg1.win 5).flush t = true) :
    (dat1 V c).flushed 5 t = ((cfg1.win 5).blk t).view.read (Elt Ideal) (G5 V c) := by
  have h15 : t.val % 16 = 15 := (flush1_5 t).mp hf
  show (cfg1.win 5).cut (grid1.coords t) ((dat1 V c).after 5 t) = _
  rw [after1_5]
  refine ext_ix2 (n0 := 1024) (n1 := 512) (α := EReal) _ _ fun r h => ?_
  show outLast (scAt V c t.val t.isLt) (iblk1 V c 0 t) (ix2 r h) = G5 V c (((cfg1.win 5).blk t).view.emb (ix2 r h))
  have hN : cfg1.N = 128 := rfl
  have htl := t.isLt
  have hr := r.isLt
  let n : Fin 8192 := ⟨1024 * (t.val / 16) + r.val, by omega⟩
  obtain ⟨-, -, -, -, -, -, -, -, -, -, e0, e1⟩ := idx1 t
  have hemb : ((cfg1.win 5).blk t).view.emb (ix2 r h) = (ix2 n h : SN.Idx) := by
    funext a; apply Fin.ext
    match a with
    | ⟨0, _⟩ => show win1_5.index t (0 : Fin 2) * 1024 + 1 * r.val = 1024 * (t.val / 16) + r.val; omega
    | ⟨1, _⟩ => show win1_5.index t (1 : Fin 2) * 512 + 1 * h.val = h.val; omega
  rw [hemb]
  show _ = cHalf * a_feat V c (ix2 n h) + cHalf * Ideal.div (st1 V c n h 16).2.2 (st1 V c n h 16).2.1
  obtain ⟨-, hs⟩ := rowInv V c t.val t.isLt r n rfl
  have hs' : ((scAt V c t.val t.isLt).2.1 (ix2 r (0 : Fin 1)), (scAt V c t.val t.isLt).2.2.1 (ix2 r (0 : Fin 1)), (scAt V c t.val t.isLt).2.2.2 (ix2 r h))
      = st1 V c n h 16 := by
    have := hs h; rw [h15] at this; exact this
  refine (outLast_apply (scAt V c t.val t.isLt) (iblk1 V c 0 t) r h).trans ?_
  rw [blk0_apply V c t r h n rfl, ← hs']

/-- An index of the result array is in a point's output block iff its row is in the block's range of rows. -/
theorem mem_blk5 (t : Fin cfg1.N) (i : SN.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v5).slice (win1_5.rect t)).set ↔ _
  rw [View.set_slice_whole, Rect.mem_set_unit]
  exact Iff.rfl

/-- Row `n` of the result array is covered by the last key tile's point of query tile `n / 1024`. -/
theorem cover5 (i : SN.Idx) : ∃ t : Fin cfg1.N, (cfg1.win 5).flush t = true ∧ i ∈ ((cfg1.win 5).blk t).view.set := by
  have hi0 : (i 0).val < 8192 := (i 0).isLt
  have hi1 : (i 1).val < 512 := (i 1).isLt
  have hN : cfg1.N = 128 := rfl
  let t : Fin cfg1.N := ⟨16 * ((i 0).val / 1024) + 15, by omega⟩
  have htv : t.val = 16 * ((i 0).val / 1024) + 15 := rfl
  refine ⟨t, (flush1_5 t).mpr (by omega), ?_⟩
  obtain ⟨-, -, -, -, -, -, -, -, -, -, e0, e1⟩ := idx1 t
  rw [mem_blk5]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 512 ≤ (i 1).val ∧ (i 1).val < win1_5.index t (1 : Fin 2) * 512 + 512; omega

/-- The result array after the region is `G5`. -/
theorem final5 (c : Dev nD) : (dat1 (F := Ideal) V c).arrAt 5 cfg1.N = G5 V c :=
  (dat1 (F := Ideal) V c).arrAt_eq_of_cover 5 (G5 V c) (fun t hf => flushed_eq V c t hf) (cover5)

/-- The result array after the region, at `(n, h)`. -/
theorem arr5_apply (c : Dev nD) (n : Fin 8192) (h : Fin 512) :
    ((dat1 (F := Ideal) V c).arrAt 5 cfg1.N : SN.Idx → EReal) (ix2 n h)
      = cHalf * a_feat V c (ix2 n h) + cHalf * Ideal.div (st1 V c n h 16).2.2 (st1 V c n h 16).2.1 := by
  rw [final5 V c]

end Cert.KernelIdeal.AttVal
end
-- ==== Proof.KVal.lean ====
/-
  The kernel program's result array as a function of the six launch inputs, at the extended reals. Region 1 is
  entered with the query input as launched, the query weights transposed and the query bias reshaped by the second
  host stretch, and region 0's two output arrays: the key rows (the linear layer of the memory rows with the key
  weights transposed and the key bias reshaped by the first host stretch) and the memory array itself. Substituting
  these into what region 1 leaves gives `kerVal` of the six inputs.
-/
import proofs.«424890_j49589692400271_3_alg».proof.Proof.KI.Launch
import proofs.«424890_j49589692400271_3_alg».proof.Proof.Val0
import proofs.«424890_j49589692400271_3_alg».proof.Proof.Val1
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Att Cert.Spec Cert.Val

variable (m : (ℓ : Loc nD τ sig) → Buf (Elt Ideal) ℓ)

namespace Compose

/-- The six launch inputs as plain arrays. -/
abbrev inFeat (c : Dev nD) : SN.Idx → EReal := m ((c : Thread nD τ).loc main_arg0)
abbrev inMem (c : Dev nD) : SN.Idx → EReal := m ((c : Thread nD τ).loc main_arg1)
abbrev inWq (c : Dev nD) : SW.Idx → EReal := m ((c : Thread nD τ).loc main_arg2)
abbrev inBq (c : Dev nD) : SB.Idx → EReal := m ((c : Thread nD τ).loc main_arg3)
abbrev inWk (c : Dev nD) : SW.Idx → EReal := m ((c : Thread nD τ).loc main_arg4)
abbrev inBk (c : Dev nD) : SB.Idx → EReal := m ((c : Thread nD τ).loc main_arg5)

/-! ## The two host stretches -/

/-- A transposed square matrix at `(j, h)` is the matrix at `(h, j)`. -/
theorem transpose_at (x : SW.Idx → EReal) (j h : Fin 512) :
    transpose S512x512 [1, 0] x transposes_S512x512_S512x512_1_0 (ix2 j h) = x (ix2 h j) :=
  transpose_apply [1, 0] x transposes_S512x512_S512x512_1_0 (ix2 j h) (ix2 h j) (fun b => match b with
    | ⟨0, _⟩ => rfl
    | ⟨1, _⟩ => rfl)

/-- A vector reshaped to a one-row matrix at `(0, h)` is the vector at `h`. -/
theorem row_at (x : SB.Idx → EReal) (h : Fin 512) :
    shapeCast S1x512 x shapeCasts_S512_S1x512 (ix2 (0 : Fin 1) h) = x (ix1 h) := by
  refine shapeCast_apply x shapeCasts_S512_S1x512 (ix2 (0 : Fin 1) h) (ix1 h) ?_
  rw [Shape.rowMajor_val_one, Shape.rowMajor_val_two]
  show h.val = 0 * 512 + h.val
  omega

/-- The first stretch leaves the key weights transposed … -/
theorem Ve1_v0 (c : Dev nD) :
    (Ve1 m c main_v0 : SW.Idx → EReal) = transpose S512x512 [1, 0] (inWk m c) transposes_S512x512_S512x512_1_0 := by
  show StableHlo.after hostOps0 (Gen.V0 m c) (Proc.devRef .tc main_v0) = _
  after_results
/-- … and the key bias as a row. -/
theorem Ve1_v1 (c : Dev nD) :
    (Ve1 m c main_v1 : S1x512.Idx → EReal) = shapeCast S1x512 (inBk m c) shapeCasts_S512_S1x512 := by
  show StableHlo.after hostOps0 (Gen.V0 m c) (Proc.devRef .tc main_v1) = _
  after_results
  rfl
/-- The second stretch leaves the query weights transposed … -/
theorem Ve3_v3 (c : Dev nD) :
    (Ve3 m c main_v3 : SW.Idx → EReal) = transpose S512x512 [1, 0] (inWq m c) transposes_S512x512_S512x512_1_0 := by
  show StableHlo.after hostOps1 (Gen.V2 m (fun _ => o2 m) c) (Proc.devRef .tc main_v3) = _
  after_results
  exact congrArg (fun x : SW.Idx → EReal => transpose S512x512 [1, 0] x transposes_S512x512_S512x512_1_0) (V2_arg2 m c)
/-- … and the query bias as a row. -/
theorem Ve3_v4 (c : Dev nD) :
    (Ve3 m c main_v4 : S1x512.Idx → EReal) = shapeCast S1x512 (inBq m c) shapeCasts_S512_S1x512 := by
  show StableHlo.after hostOps1 (Gen.V2 m (fun _ => o2 m) c) (Proc.devRef .tc main_v4) = _
  after_results
  exact congrArg (fun x : SB.Idx → EReal => shapeCast S1x512 x shapeCasts_S512_S1x512) (V2_arg3 m c)

/-! ## What each region is entered with, entry by entry -/

/-- Region 0's transposed key weights at `(j, h)` are the key weights at `(h, j)`; -/
theorem wkT_at (c : Dev nD) (j h : Fin 512) : b_wkT (Ve1 m) c (ix2 j h) = inWk m c (ix2 h j) :=
  (congrFun (Ve1_v0 m c) (ix2 j h)).trans (transpose_at (inWk m c) j h)
/-- its bias row at `(0, h)` is the key bias at `h`; -/
theorem bk2_at (c : Dev nD) (h : Fin 512) : b_bk2 (Ve1 m) c (ix2 (0 : Fin 1) h) = inBk m c (ix1 h) :=
  (congrFun (Ve1_v1 m c) (ix2 (0 : Fin 1) h)).trans (row_at (inBk m c) h)
/-- its rows are the memory input. -/
theorem mem_at (c : Dev nD) (i : SN.Idx) : b_mem (Ve1 m) c i = inMem m c i := congrFun (Ve1_arg1 m c) i

/-- Region 1's transposed query weights at `(j, h)` are the query weights at `(h, j)`; -/
theorem wqT_at (c : Dev nD) (j h : Fin 512) : a_wqT (Ve3 m) c (ix2 j h) = inWq m c (ix2 h j) :=
  (congrFun (Ve3_v3 m c) (ix2 j h)).trans (transpose_at (inWq m c) j h)
/-- its bias row at `(0, h)` is the query bias at `h`; -/
theorem bq2_at (c : Dev nD) (h : Fin 512) : a_bq2 (Ve3 m) c (ix2 (0 : Fin 1) h) = inBq m c (ix1 h) :=
  (congrFun (Ve3_v4 m c) (ix2 (0 : Fin 1) h)).trans (row_at (inBq m c) h)
/-- its query rows are the query input; -/
theorem feat_at (c : Dev nD) (i : SN.Idx) : a_feat (Ve3 m) c i = inFeat m c i := congrFun (Ve3_arg0 m c) i

/-- its key rows are the linear layer of the memory rows; -/
theorem key_at (c : Dev nD) (k : Fin 8192) (h' : Fin 512) :
    a_K (Ve3 m) c (ix2 k h') = linRow (inMem m c) (inWk m c) (inBk m c) k h' := by
  refine (congrFun (Ve3_v2_0 m c) (ix2 k h')).trans ?_
  refine (arr3_apply (Ve1 m) c k h').trans ?_
  unfold linRow
  rw [bk2_at m c h']
  unfold lin
  refine congrArg (· + inBk m c (ix1 h')) ?_
  refine Finset.sum_congr rfl fun j _ => ?_
  show b_mem (Ve1 m) c (ix2 k j) * b_wkT (Ve1 m) c (ix2 j h') = inMem m c (ix2 k j) * inWk m c (ix2 h' j)
  rw [mem_at m c, wkT_at m c j h']

/-- its value rows are the memory rows. -/
theorem val_at (c : Dev nD) (k : Fin 8192) (h : Fin 512) : a_V (Ve3 m) c (ix2 k h) = inMem m c (ix2 k h) :=
  (congrFun (Ve3_v2_1 m c) (ix2 k h)).trans ((arr4_apply (Ve1 m) c k h).trans (mem_at m c (ix2 k h)))

/-- The query row is the linear layer of the query input's row. -/
theorem qRow_eq (c : Dev nD) (n : Fin 8192) : qRow (Ve3 m) c n = linRow (inFeat m c) (inWq m c) (inBq m c) n := by
  funext h'
  unfold qRow linRow
  rw [bq2_at m c h']
  unfold lin
  refine congrArg (· + inBq m c (ix1 h')) ?_
  refine Finset.sum_congr rfl fun j _ => ?_
  show a_feat (Ve3 m) c (ix2 n j) * a_wqT (Ve3 m) c (ix2 j h') = inFeat m c (ix2 n j) * inWq m c (ix2 h' j)
  rw [feat_at m c, wqT_at m c j h']

/-- The carried state of row `n`, column `h` is the specification's recursion over the six inputs. -/
theorem st1_eq (c : Dev nD) (n : Fin 8192) (h : Fin 512) (J : ℕ) :
    st1 (Ve3 m) c n h J = kerState (inFeat m c) (inMem m c) (inWq m c) (inBq m c) (inWk m c) (inBk m c) n h J := by
  unfold st1 kerState
  have hs : (fun (j : ℕ) (t : Fin 512) => score3 (qRow (Ve3 m) c n) (fun h' : Fin 512 => a_K (Ve3 m) c (ix2 (keyIdx j t) h')))
      = kerScore (inFeat m c) (inMem m c) (inWq m c) (inBq m c) (inWk m c) (inBk m c) n := by
    funext j t
    unfold kerScore
    rw [qRow_eq m c n]
    exact congrArg (score3 _) (funext fun h' => key_at m c (keyIdx j t) h')
  have hv : (fun (j : ℕ) (t : Fin 512) => a_V (Ve3 m) c (ix2 (keyIdx j t) h))
      = fun (j : ℕ) (t : Fin 512) => inMem m c (ix2 (keyIdx j t) h) := by
    funext j t
    exact val_at m c (keyIdx j t) h
  rw [hs, hv]

end Compose

/-- The result array after the whole program, at `(n, h)`, is the specification's kernel-side value of the six inputs. -/
theorem kernel_value (c : Dev nD) (n : Fin 8192) (h : Fin 512) :
    ((dat1 (F := Ideal) (Ve3 m) c).arrAt 5 cfg1.N : SN.Idx → EReal) (ix2 n h)
      = kerVal (m ((c : Thread nD τ).loc main_arg0) : SN.Idx → EReal) (m ((c : Thread nD τ).loc main_arg1) : SN.Idx → EReal)
          (m ((c : Thread nD τ).loc main_arg2) : SW.Idx → EReal) (m ((c : Thread nD τ).loc main_arg3) : SB.Idx → EReal)
          (m ((c : Thread nD τ).loc main_arg4) : SW.Idx → EReal) (m ((c : Thread nD τ).loc main_arg5) : SB.Idx → EReal) n h := by
  rw [arr5_apply (Ve3 m) c n h, Compose.st1_eq m c n h 16, Compose.feat_at m c]
  rfl

end Cert.KernelIdeal.AttVal

end
-- ==== Proof.RefSide.lean ====
import proofs.«424890_j49589692400271_3_alg».proof.Proof.Gen.ReferenceIdeal.Run
import proofs.«424890_j49589692400271_3_alg».proof.Proof.Gen.ReferenceIdeal.Read
import proofs.«424890_j49589692400271_3_alg».proof.Proof.ValDefs
import Idealize.ShloMosaic.Lib.ValueIdx
import Idealize.ShloMosaic.Lib.Pipeline.Value
import Idealize.ShloMosaic.PureOps.Ideal.Laws
import Idealize.ShloMosaic.PureOps.Reduce

/-!
# The reference's result at an index

Reading the reference's operations one at a time: the query and key rows are linear layers, the scores their
products divided by one, the row maximum a fold of `max` from minus infinity (taken once more against minus
infinity), the weights the exponentials of the shifted scores over their sum, the attention output their sum
against the memory column, and the result the half-and-half blend with the query input: `refVal`.
-/

noncomputable section

namespace Cert.RefSide

open Idealize.ShloMosaic Idealize.ShloMosaic.ValueIdx Cert.Spec Cert.Val Cert.ReferenceIdeal.Read

section Stages

variable (x0 x1 : (⟨Cert.ReferenceIdeal.S8192x512, .f32⟩ : BufTy).Contents (Elt Ideal))
  (x2 : (⟨Cert.ReferenceIdeal.S512x512, .f32⟩ : BufTy).Contents (Elt Ideal)) (x3 : (⟨Cert.ReferenceIdeal.S512, .f32⟩ : BufTy).Contents (Elt Ideal))
  (x4 : (⟨Cert.ReferenceIdeal.S512x512, .f32⟩ : BufTy).Contents (Elt Ideal)) (x5 : (⟨Cert.ReferenceIdeal.S512, .f32⟩ : BufTy).Contents (Elt Ideal))

/-- The query side's linear layer: the product with the transposed weights reads the weights output-then-input,
    and the twice-broadcast bias reads the bias at the column. -/
theorem query_row (n : Fin 8192) (h : Fin 512) :
    val_main_v4 (F := Ideal) x0 x2 x3 (ix2 n h) = linRow x0 x2 x3 n h := by
  rw [val_main_v4_apply, val_main_v1_apply, val_main_v3_apply, val_main_v2_apply]
  unfold linRow lin
  refine congrArg₂ (· + ·) (Finset.sum_congr rfl fun k _ => ?_) ?_
  · rw [val_main_v0_apply]
    refine congrArg₂ (· * ·) (congrArg x0 ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

/-- The key side's linear layer, the same reading with the key weights and bias. -/
theorem key_row (k : Fin 8192) (h : Fin 512) :
    val_main_v9 (F := Ideal) x1 x4 x5 (ix2 k h) = linRow x1 x4 x5 k h := by
  rw [val_main_v9_apply, val_main_v6_apply, val_main_v8_apply, val_main_v7_apply]
  unfold linRow lin
  refine congrArg₂ (· + ·) (Finset.sum_congr rfl fun j _ => ?_) ?_
  · rw [val_main_v5_apply]
    refine congrArg₂ (· * ·) (congrArg x1 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- A score: the product of the query row with the transposed key rows reads key row `k`, and the divisor is the
    broadcast constant one. -/
theorem score (n k : Fin 8192) :
    val_main_v13 (F := Ideal) x0 x1 x2 x3 x4 x5 (ix2 n k) = refScore x0 x1 x2 x3 x4 x5 n k := by
  rw [val_main_v13_apply, val_main_v11_apply, val_main_v12_apply, val_main_cst_apply]
  unfold refScore
  refine congrArg₂ Ideal.div (Finset.sum_congr rfl fun j _ => ?_) rfl
  rw [val_main_v10_apply, ← query_row, ← key_row]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

/-- The row maximum: the reduction over the key axis is the fold of `max`, from minus infinity, over the row's
    scores; the program then takes the maximum with minus infinity once more. -/
theorem row_max (n : Fin 8192) :
    val_main_v16 (F := Ideal) x0 x1 x2 x3 x4 x5 (ix1 n) = refMax x0 x1 x2 x3 x4 x5 n := by
  have hred : Cert.ReferenceIdeal.S8192x8192.Reduces [1] Cert.ReferenceIdeal.S8192 := by decide
  rw [val_main_v16_apply, val_main_v15_apply, val_main_cst_1_apply]
  unfold val_main_v14 refMax
  rw [Host.reduce_eq_fold_single (FloatOps.maximumf (F := Ideal) (φ := .f32)) _ _ _ hred _ (ix1 n)]
  refine congrArg₂ max rfl (Finset.fold_congr fun k _ => ?_)
  refine Eq.trans (congrArg (val_main_v13 (F := Ideal) x0 x1 x2 x3 x4 x5) ?_) (score x0 x1 x2 x3 x4 x5 n k)
  exact funext fun a => Fin.ext (by match a with | ⟨0, _⟩ => rfl | ⟨1, _⟩ => rfl)

/-- A weight's numerator: the exponential of the score less the row maximum, the maximum broadcast along the row. -/
theorem weight_num (n k : Fin 8192) :
    val_main_v20 (F := Ideal) x0 x1 x2 x3 x4 x5 (ix2 n k)
      = Ideal.exp (refScore x0 x1 x2 x3 x4 x5 n k - refMax x0 x1 x2 x3 x4 x5 n) := by
  rw [val_main_v20_apply, val_main_v19_apply, val_main_v18_apply, val_main_v17_apply, score, ← row_max]
  refine congrArg Ideal.exp (congrArg₂ (· - ·) rfl (congrArg _ ?_))
  exact funext fun a => Fin.ext (by match a with | ⟨0, _⟩ => rfl)

/-- The weights' denominator: the sum over the key axis from the initial value zero, broadcast along the row. -/
theorem weight_den (n k : Fin 8192) :
    val_main_v23 (F := Ideal) x0 x1 x2 x3 x4 x5 (ix2 n k)
      = ∑ k' : Fin 8192, Ideal.exp (refScore x0 x1 x2 x3 x4 x5 n k' - refMax x0 x1 x2 x3 x4 x5 n) := by
  rw [val_main_v23_apply, val_main_v22_apply, val_main_v21_apply, val_main_cst_2_apply]
  show Ideal.ofBits .f32 0x00000000#32 + _ = _
  rw [Ideal.ofBits_zero_f32, zero_add]
  refine Finset.sum_congr rfl fun k' _ => ?_
  refine Eq.trans (congrArg (val_main_v20 (F := Ideal) x0 x1 x2 x3 x4 x5) ?_) (weight_num x0 x1 x2 x3 x4 x5 n k')
  exact funext fun a => Fin.ext (by match a with | ⟨0, _⟩ => rfl | ⟨1, _⟩ => rfl)

end Stages

theorem ref_value (x0 x1 : (⟨Cert.ReferenceIdeal.S8192x512, .f32⟩ : BufTy).Contents (Elt Ideal))
    (x2 : (⟨Cert.ReferenceIdeal.S512x512, .f32⟩ : BufTy).Contents (Elt Ideal)) (x3 : (⟨Cert.ReferenceIdeal.S512, .f32⟩ : BufTy).Contents (Elt Ideal))
    (x4 : (⟨Cert.ReferenceIdeal.S512x512, .f32⟩ : BufTy).Contents (Elt Ideal)) (x5 : (⟨Cert.ReferenceIdeal.S512, .f32⟩ : BufTy).Contents (Elt Ideal))
    (n : Fin 8192) (h : Fin 512) :
    Cert.ReferenceIdeal.Read.val_main_v30 (F := Ideal) x0 x1 x2 x3 x4 x5 (ix2 n h) = refVal x0 x1 x2 x3 x4 x5 n h := by
  rw [val_main_v30_apply, val_main_v27_apply, val_main_v26_apply, val_main_cst_3_apply, val_main_v29_apply,
    val_main_v28_apply, val_main_cst_4_apply, val_main_v25_apply]
  unfold refVal
  refine congrArg₂ (· + ·) rfl (congrArg₂ (· * ·) rfl (Finset.sum_congr rfl fun k _ => ?_))
  have e : lidx_main_v25 (ix2 n h) k = ix2 n k :=
    funext fun a => Fin.ext (by match a with | ⟨0, _⟩ => rfl | ⟨1, _⟩ => rfl)
  rw [val_main_v24_apply, e]
  refine congrArg₂ (· * ·) ?_ (congrArg x1 ?_)
  · exact congrArg₂ Ideal.div (weight_num x0 x1 x2 x3 x4 x5 n k) (weight_den x0 x1 x2 x3 x4 x5 n k)
  · exact funext fun a => Fin.ext (by match a with | ⟨0, _⟩ => rfl | ⟨1, _⟩ => rfl)

end Cert.RefSide

end
-- ==== Proof.Bridge.lean ====
import proofs.«424890_j49589692400271_3_alg».proof.Proof.ValDefs

/-!
# On real inputs the two results agree

With every entry of the six inputs a real, every query and key row is real, the kernel's three-term score is the
plain product of the rows (the correction terms vanish), the reference's division by one changes nothing, and both
results are half the query input plus half the softmax-weighted average of the memory column over all 8192 keys:
the kernel by the online recursion's closed form over 16 blocks of 512 keys re-indexed to the 8192, the reference
by its row identity with its (real) row maximum as the shift.
-/

noncomputable section

namespace Cert.Val

open Idealize.ShloMosaic Idealize.ShloMosaic.ValueIdx Cert.Spec Cert.LibReal

/-- The f32 pattern of one is the real one. -/
theorem cOne_eq : cOne = ((1 : ℝ) : EReal) := by
  simp [Ideal.ofBits, Ideal.ieee]
  norm_cast
  norm_num

/-- The f32 pattern of `-∞` is the bottom element. -/
theorem cNegInf_eq : cNegInf = ⊥ := ofBits_negInf_f32

/-- The f32 zero is zero. -/
theorem cZero_eq : cZero = 0 := Ideal.ofBits_zero_f32

/-- A linear layer's entry on real data, as a real. -/
def linR (x : SN.Idx → ℝ) (W : SW.Idx → ℝ) (bias : SB.Idx → ℝ) (n : Fin 8192) (h : Fin 512) : ℝ :=
  (∑ j : Fin 512, x (ix2 n j) * W (ix2 h j)) + bias (ix1 h)

/-- On real data a linear layer's entry is that real. -/
theorem linRow_coe (x : SN.Idx → ℝ) (W : SW.Idx → ℝ) (bias : SB.Idx → ℝ) (n : Fin 8192) (h : Fin 512) :
    linRow (fun i => ((x i : ℝ) : EReal)) (fun i => ((W i : ℝ) : EReal)) (fun i => ((bias i : ℝ) : EReal)) n h
      = ((linR x W bias n h : ℝ) : EReal) := by
  unfold linRow linR
  exact lin_real (fun j : Fin 512 => x (ix2 n j)) (fun j : Fin 512 => W (ix2 h j)) (bias (ix1 h))

/-- The score of key `k` for query row `n` on real data: the product of the two rows. -/
def scoreR (feat mem : SN.Idx → ℝ) (Wq : SW.Idx → ℝ) (bq : SB.Idx → ℝ) (Wk : SW.Idx → ℝ) (bk : SB.Idx → ℝ)
    (n k : Fin 8192) : ℝ :=
  ∑ h' : Fin 512, linR feat Wq bq n h' * linR mem Wk bk k h'

/-- The kernel's three-term score on real data is the plain product. -/
theorem kerScore_coe (feat mem : SN.Idx → ℝ) (Wq : SW.Idx → ℝ) (bq : SB.Idx → ℝ) (Wk : SW.Idx → ℝ) (bk : SB.Idx → ℝ)
    (n : Fin 8192) (j : ℕ) (t : Fin 512) :
    kerScore (fun i => ((feat i : ℝ) : EReal)) (fun i => ((mem i : ℝ) : EReal)) (fun i => ((Wq i : ℝ) : EReal))
        (fun i => ((bq i : ℝ) : EReal)) (fun i => ((Wk i : ℝ) : EReal)) (fun i => ((bk i : ℝ) : EReal)) n j t
      = ((scoreR feat mem Wq bq Wk bk n (keyIdx j t) : ℝ) : EReal) := by
  unfold kerScore scoreR
  rw [funext (linRow_coe feat Wq bq n), funext (linRow_coe mem Wk bk (keyIdx j t))]
  exact score3_real _ _

/-- The reference's score on real data: dividing by one changes nothing. -/
theorem refScore_coe (feat mem : SN.Idx → ℝ) (Wq : SW.Idx → ℝ) (bq : SB.Idx → ℝ) (Wk : SW.Idx → ℝ) (bk : SB.Idx → ℝ)
    (n k : Fin 8192) :
    refScore (fun i => ((feat i : ℝ) : EReal)) (fun i => ((mem i : ℝ) : EReal)) (fun i => ((Wq i : ℝ) : EReal))
        (fun i => ((bq i : ℝ) : EReal)) (fun i => ((Wk i : ℝ) : EReal)) (fun i => ((bk i : ℝ) : EReal)) n k
      = ((scoreR feat mem Wq bq Wk bk n k : ℝ) : EReal) := by
  unfold refScore scoreR
  rw [cOne_eq, Ideal.div_coe one_ne_zero]
  simp only [linRow_coe, ← EReal.coe_mul, Spec.coe_sum, div_one, mul_one]

theorem kerVal_eq_refVal (feat mem : SN.Idx → EReal) (Wq : SW.Idx → EReal) (bq : SB.Idx → EReal) (Wk : SW.Idx → EReal) (bk : SB.Idx → EReal)
    (hfeat : ∀ i, IsReal (feat i)) (hmem : ∀ i, IsReal (mem i)) (hWq : ∀ i, IsReal (Wq i)) (hbq : ∀ i, IsReal (bq i))
    (hWk : ∀ i, IsReal (Wk i)) (hbk : ∀ i, IsReal (bk i)) (n : Fin 8192) (h : Fin 512) :
    kerVal feat mem Wq bq Wk bk n h = refVal feat mem Wq bq Wk bk n h := by
  choose featR hfeatR using hfeat
  choose memR hmemR using hmem
  choose WqR hWqR using hWq
  choose bqR hbqR using hbq
  choose WkR hWkR using hWk
  choose bkR hbkR using hbk
  obtain rfl : feat = fun i => ((featR i : ℝ) : EReal) := funext hfeatR
  obtain rfl : mem = fun i => ((memR i : ℝ) : EReal) := funext hmemR
  obtain rfl : Wq = fun i => ((WqR i : ℝ) : EReal) := funext hWqR
  obtain rfl : bq = fun i => ((bqR i : ℝ) : EReal) := funext hbqR
  obtain rfl : Wk = fun i => ((WkR i : ℝ) : EReal) := funext hWkR
  obtain rfl : bk = fun i => ((bkR i : ℝ) : EReal) := funext hbkR
  -- the reference's side: its row maximum is a real, and its inner sum is the average over the 8192 keys
  have href : (∑ k : Fin 8192,
        Ideal.div (Ideal.exp (refScore (fun i => ((featR i : ℝ) : EReal)) (fun i => ((memR i : ℝ) : EReal))
              (fun i => ((WqR i : ℝ) : EReal)) (fun i => ((bqR i : ℝ) : EReal)) (fun i => ((WkR i : ℝ) : EReal))
              (fun i => ((bkR i : ℝ) : EReal)) n k
            - refMax (fun i => ((featR i : ℝ) : EReal)) (fun i => ((memR i : ℝ) : EReal))
              (fun i => ((WqR i : ℝ) : EReal)) (fun i => ((bqR i : ℝ) : EReal)) (fun i => ((WkR i : ℝ) : EReal))
              (fun i => ((bkR i : ℝ) : EReal)) n))
          (∑ k' : Fin 8192, Ideal.exp (refScore (fun i => ((featR i : ℝ) : EReal)) (fun i => ((memR i : ℝ) : EReal))
              (fun i => ((WqR i : ℝ) : EReal)) (fun i => ((bqR i : ℝ) : EReal)) (fun i => ((WkR i : ℝ) : EReal))
              (fun i => ((bkR i : ℝ) : EReal)) n k'
            - refMax (fun i => ((featR i : ℝ) : EReal)) (fun i => ((memR i : ℝ) : EReal))
              (fun i => ((WqR i : ℝ) : EReal)) (fun i => ((bqR i : ℝ) : EReal)) (fun i => ((WkR i : ℝ) : EReal))
              (fun i => ((bkR i : ℝ) : EReal)) n))
          * (fun i => ((memR i : ℝ) : EReal)) (ix2 k h))
      = ((avg (scoreR featR memR WqR bqR WkR bkR n) (fun k : Fin 8192 => memR (ix2 k h)) : ℝ) : EReal) := by
    obtain ⟨r, hr⟩ := fold_max_real (scoreR featR memR WqR bqR WkR bkR n) cNegInf cNegInf_eq
    have hmax : refMax (fun i => ((featR i : ℝ) : EReal)) (fun i => ((memR i : ℝ) : EReal))
        (fun i => ((WqR i : ℝ) : EReal)) (fun i => ((bqR i : ℝ) : EReal)) (fun i => ((WkR i : ℝ) : EReal))
        (fun i => ((bkR i : ℝ) : EReal)) n = (r : EReal) := by
      unfold refMax
      rw [funext (refScore_coe featR memR WqR bqR WkR bkR n), hr, cNegInf_eq, max_bot_left]
    simp only [hmax, refScore_coe]
    exact ref_row (scoreR featR memR WqR bqR WkR bkR n) (fun k : Fin 8192 => memR (ix2 k h)) r
  -- the kernel's side: the recursion at real scores and values, sixteen blocks of 512 keys
  have hker : Ideal.div
        (kerState (fun i => ((featR i : ℝ) : EReal)) (fun i => ((memR i : ℝ) : EReal)) (fun i => ((WqR i : ℝ) : EReal))
          (fun i => ((bqR i : ℝ) : EReal)) (fun i => ((WkR i : ℝ) : EReal)) (fun i => ((bkR i : ℝ) : EReal)) n h 16).2.2
        (kerState (fun i => ((featR i : ℝ) : EReal)) (fun i => ((memR i : ℝ) : EReal)) (fun i => ((WqR i : ℝ) : EReal))
          (fun i => ((bqR i : ℝ) : EReal)) (fun i => ((WkR i : ℝ) : EReal)) (fun i => ((bkR i : ℝ) : EReal)) n h 16).2.1
      = ((avg (scoreR featR memR WqR bqR WkR bkR n) (fun k : Fin 8192 => memR (ix2 k h)) : ℝ) : EReal) := by
    unfold kerState
    rw [show kerScore (fun i => ((featR i : ℝ) : EReal)) (fun i => ((memR i : ℝ) : EReal)) (fun i => ((WqR i : ℝ) : EReal))
          (fun i => ((bqR i : ℝ) : EReal)) (fun i => ((WkR i : ℝ) : EReal)) (fun i => ((bkR i : ℝ) : EReal)) n
        = fun j t => ((scoreR featR memR WqR bqR WkR bkR n (keyIdx j t) : ℝ) : EReal) from
      funext fun j => funext fun t => kerScore_coe featR memR WqR bqR WkR bkR n j t]
    have hre := avg_equiv keyEquiv (scoreR featR memR WqR bqR WkR bkR n) (fun k : Fin 8192 => memR (ix2 k h))
    simp only [keyEquiv_apply] at hre
    rw [kernel_row (T := 512) (fun j t => scoreR featR memR WqR bqR WkR bkR n (keyIdx j t))
      (fun j t => memR (ix2 (keyIdx j t) h)) 16 (by norm_num) cNegInf cZero cNegInf
      cNegInf_eq cZero_eq cNegInf_eq, hre]
  unfold kerVal refVal
  rw [hker, href]

end Cert.Val

end
-- ==== Proof.Finite.lean ====
import proofs.«424890_j49589692400271_3_alg».proof.Pre_finite_inputs
import proofs.«424890_j49589692400271_3_alg».proof.Proof.LibReal
import Idealize.ShloMosaic.Lib.Affine

/-!
# The precondition read back

The precondition is the conjunction, over the six inputs, of "every entry's absolute value is below plus infinity";
when it is all ones, every entry of every input is a real.
-/

noncomputable section

namespace Cert.Val

open Idealize.ShloMosaic Idealize.ShloMosaic.ValueIdx Cert.LibReal

/-- The printed precondition is a left-nested conjunction of six scalar bits, one per input; each bit is the
    and-reduce of the elementwise test |x| < +∞.  If the conjunction is 1 then each bit is 1, and a bit that is 1
    makes every entry of its input a real. -/
theorem real_of_pre [Cert.Pre_finite_inputs.Facts]
    (a0 a1 : FVec Ideal Cert.Pre_finite_inputs.S8192x512 .f32) (a2 : FVec Ideal Cert.Pre_finite_inputs.S512x512 .f32)
    (a3 : FVec Ideal Cert.Pre_finite_inputs.S512 .f32) (a4 : FVec Ideal Cert.Pre_finite_inputs.S512x512 .f32)
    (a5 : FVec Ideal Cert.Pre_finite_inputs.S512 .f32)
    (hp : Cert.Pre_finite_inputs.fn (F := Ideal) a0 a1 a2 a3 a4 a5 = (fun _ => 1#1)) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  -- the value of the precondition at the one scalar index
  have h0 := congrFun hp ix0
  dsimp only [Cert.Pre_finite_inputs.fn, Cert.Pre_finite_inputs.fn_part1, andi] at h0
  -- split the five conjunctions, outermost first
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ e0, isReal_of_all a1 _ _ _ e1, isReal_of_all a2 _ _ _ e2,
    isReal_of_all a3 _ _ _ e3, isReal_of_all a4 _ _ _ e4, isReal_of_all a5 _ _ _ e5⟩

end Cert.Val

end
-- ==== Proof.lean ====
/-
  Single-head cross attention with a half-and-half residual: the kernel program (a key-projection region, then a
  flash-style attention region that walks 16 key tiles per query tile with an online softmax) against the plain
  reference (project, all scores, softmax, weighted sum, blend).

  Frames. Each kernel program's run is assembled from its two regions' segment records; the reference's is its
  operations in sequence. In every run the six argument arrays end as launched.

  Idealization. The idealized kernel replaces two widen-after-narrow pairs by the value itself; each is the rule's
  statement at its shape.

  Equivalence over the extended reals. The idealized kernel's result array is what the attention region's
  write-backs fold to; at every index that is, as a function of the six inputs, the blend of the query input with
  numerator over denominator of the online recursion over 16 blocks of 512 keys. The reference's result at the same
  index is the blend with the softmax-weighted sum over all 8192 keys. The precondition makes every input entry a
  real; on reals the kernel's two correction terms vanish, the recursion's quotient is the softmax-weighted average
  of the memory column, and so is the reference's sum: the two results are equal entry by entry.
-/
import proofs.«424890_j49589692400271_3_alg».proof.Defs
import proofs.«424890_j49589692400271_3_alg».proof.Proof.Gen.Kernel
import proofs.«424890_j49589692400271_3_alg».proof.Proof.Gen.KernelIdeal
import proofs.«424890_j49589692400271_3_alg».proof.Proof.Gen.ReferenceIdeal
import proofs.«424890_j49589692400271_3_alg».proof.Proof.Gen.Pre_finite_inputs
import proofs.«424890_j49589692400271_3_alg».proof.Proof.Gen.ReferenceIdeal.Run
import proofs.«424890_j49589692400271_3_alg».proof.Proof.Gen.ReferenceIdeal.Read
import proofs.«424890_j49589692400271_3_alg».proof.Proof.K.Launch
import proofs.«424890_j49589692400271_3_alg».proof.Proof.KI.Launch
import proofs.«424890_j49589692400271_3_alg».proof.Proof.KVal
import proofs.«424890_j49589692400271_3_alg».proof.Proof.RefSide
import proofs.«424890_j49589692400271_3_alg».proof.Proof.Bridge
import proofs.«424890_j49589692400271_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Att.frame m ρ

/-- So does the idealized kernel program. -/
theorem frame_ki : Cert.frame_KernelIdeal := fun m ρ _ => Cert.KernelIdeal.Att.frame m ρ

/-- The reference is its operations in sequence; its run with the result dropped is its frame. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: a widen-after-narrow pair replaced by the value, at the query tile's and at
    the key tile's shape. -/
theorem preserves : Cert.preserves_Kernel_KernelIdeal :=
  ⟨IdealRules.truncf_extf.statement _ _ _, IdealRules.truncf_extf.statement _ _ _⟩

/-- From memories agreeing on the six inputs, all entries real, the two programs end with the same result array. -/
theorem algebraic : Cert.algebraic_KernelIdeal_ReferenceIdeal := by
  intro m ρ m' ρ' hpre hagree
  refine ⟨fun c => (Cert.KernelIdeal.Att.dat1 (F := Ideal) (Cert.KernelIdeal.Att.Ve3 m) c).arrAt 5 Cert.KernelIdeal.cfg1.N,
    Cert.KernelIdeal.Att.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.Val.real_of_pre _ _ _ _ _ _ (hpre c)
  rw [Cert.ReferenceIdeal.Read.val_main_v30_eq, (hagree c).1, (hagree c).2.1, (hagree c).2.2.1, (hagree c).2.2.2.1,
    (hagree c).2.2.2.2.1, (hagree c).2.2.2.2.2]
  funext i
  obtain ⟨n, h, rfl⟩ : ∃ (n : Fin 8192) (h : Fin 512), i = ix2 n h := ⟨i 0, i 1, eq_ix2 i⟩
  rw [Cert.RefSide.ref_value]
  refine ((Cert.KernelIdeal.AttVal.kernel_value m c n h).trans ?_).symm
  exact Cert.Val.kerVal_eq_refVal _ _ _ _ _ _ h0 h1 h2 h3 h4 h5 n h

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
